-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1700000x128 : Shape := ⟨2, ![1700000, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 114
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S_, .f32⟩
  | .hbm, ⟨26, _⟩ => ⟨S1700000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S128x128, .bf16⟩
  | .hbm, ⟨38, _⟩ => ⟨S128x128, .bf16⟩
  | .hbm, ⟨39, _⟩ => ⟨S128x64, .bf16⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S100000x128, .bf16⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .bf16⟩
  | .hbm, ⟨53, _⟩ => ⟨S_, .f32⟩
  | .hbm, ⟨54, _⟩ => ⟨S100000x128, .f32⟩
  | .hbm, ⟨55, _⟩ => ⟨S1700000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .bf16⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .bf16⟩
  | .hbm, ⟨76, _⟩ => ⟨S_, .f32⟩
  | .hbm, ⟨77, _⟩ => ⟨S100000x128, .f32⟩
  | .hbm, ⟨78, _⟩ => ⟨S1700000x128, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x64, .bf16⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .bf16⟩
  | .hbm, ⟨99, _⟩ => ⟨S_, .f32⟩
  | .hbm, ⟨100, _⟩ => ⟨S100000x64, .f32⟩
  | .hbm, ⟨101, _⟩ => ⟨S1700000x64, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S64, .f32⟩
  | .hbm, ⟨113, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S128x128, .bf16⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S128x128, .bf16⟩
  | .local _ .vmem, ⟨14, _⟩ => ⟨S5000x128, .bf16⟩
  | .local _ .vmem, ⟨15, _⟩ => ⟨S5000x128, .bf16⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S128x64, .bf16⟩
  | .local _ .vmem, ⟨22, _⟩ => ⟨S5000x64, .bf16⟩
  | .local _ .vmem, ⟨23, _⟩ => ⟨S5000x64, .bf16⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S1x64, .f32⟩
  | .local _ .vmem, ⟨29, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_c_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_c_19 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v16 : BitVec 1 := Scalar.cmpi .eq arg0 c19_i32
  let v17 : BitVec 32 := Scalar.extui v16
  let c0_i32_8 : BitVec 32 := 0#32
  let v18 : BitVec 1 := Scalar.cmpi .ne v17 c0_i32_8
  v18

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  shapeCasts_S100000_S100000x1 : S100000.ShapeCasts S100000x1
  bitsLt_bf16_f32 : FTy.bits .bf16 < FTy.bits .f32
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  reduces_S5000x64_S64 : S5000x64.Reduces [0] S64
  shapeCasts_S64_S1x64 : S64.ShapeCasts S1x64
  shapeCasts_S1x64_S64 : S1x64.ShapeCasts S64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .bf16 = 32 ∨ (Rect.block (s := S100000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v78) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S_, .f32⟩
  | 26 => ⟨S1700000, .f32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x128, .f32⟩
  | 95 => ⟨S1700000x128, .f32⟩
  | 96 => ⟨S1700000x128, .f32⟩
  | 97 => ⟨S_, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x64, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x64, .f32⟩
  | 125 => ⟨S1700000x64, .f32⟩
  | 126 => ⟨S_, .f32⟩
  | 127 => ⟨S100000x64, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call2_cst : Ref sig .tc := ⟨.hbm, 111, rfl⟩
abbrev main_call2_v0 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_c_21 : Ref sig .tc := ⟨.hbm, 128, rfl⟩
abbrev main_v91 : Ref sig .tc := ⟨.hbm, 129, rfl⟩
abbrev main_v92 : Ref sig .tc := ⟨.hbm, 130, rfl⟩
abbrev main_c_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_23 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K.Lin0.lean ====
/-
  The first fused linear layer's kernel, one grid point at a time.  The grid has 20 points; point t works on rows
  5000·t … 5000·t+4999 of the node features x (a 5000×128 block), the matching 5000×1 block of the degree
  normalisation d, the bias row (unused by this layer) and the whole 128×128 weight W, and writes the 5000×128 block
  (x_blk · W) ∘ d of the output, d broadcast along the row.  Stated at an arbitrary contents V of the core's buffers at
  the moment the kernel is entered: what each window's staging buffer holds before and after the body, the body's
  Hoare triple, and the per-point obligation the pipelined launch asks for.
-/
import proofs.«132209_j48962627175096_2_alg».proof.Proof.Gen.Kernel.Launch
import proofs.«132209_j48962627175096_2_alg».proof.Proof.Gen.Kernel.Skeleton
import proofs.«132209_j48962627175096_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, cut out of its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index did not move). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev rX0 : Rect S5000x128 := Rect.unit (s := S5000x128) ![0, 0] S5000x128.size inb_S5000x128_S5000x128_0_0
abbrev rD0 : Rect S5000x1 := Rect.unit (s := S5000x1) ![0, 0] S5000x1.size inb_S5000x1_S5000x1_0_0
abbrev rW0 : Rect S128x128 := Rect.unit (s := S128x128) ![0, 0] S128x128.size inb_S128x128_S128x128_0_0
abbrev rO0 : Rect S5000x128 := Rect.unit (s := S5000x128) ![0, 0] S5000x128.size inb_S5000x128_S5000x128_0_0

/-- The output block the body leaves: its one store, of the product (x_blk · W) ∘ d, over the whole buffer. -/
def out0_4 (x0 : Vec F S5000x128 .f32) (x1 : Vec F S5000x1 .f32) (x3 : Vec F S128x128 .bf16) : Vec F S5000x128 .bf16 :=
  View.canon [⟨rO0, k0_pay1 (View.ld x0 rX0) (View.ld x1 rD0) (View.ld x3 rW0)⟩]

/-- The one store covers the buffer. -/
theorem cover0_4 (p0 : Vec F S5000x128 .bf16) (y : S5000x128.Idx) :
    ∃ pc ∈ ([⟨rO0, p0⟩] : List (View.Piece (Elt F) S5000x128 .bf16)), y ∈ pc.1.set :=
  View.cover_of_tiled [⟨rO0, p0⟩] S5000x128.size (by rfl) y

/-! ## The body's triple -/

set_option maxHeartbeats 1000000 in
/-- On whole staging buffers, the four inputs at contents x0 … x3 and the output at anything, the body runs to its end
    leaving the inputs as they were and the output at `out0_4 x0 x1 x3`. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S5000x128 .bf16) (harg5 : arg5.IsWhole)
    (x0 : Vec F S5000x128 .f32) (x1 : Vec F S5000x1 .f32) (x2 : Vec F S1x128 .f32) (x3 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x3)) -∗ K ⟨⟩))
      ⊢ wp frame (wpE (defs₀ (F := F)) Variants.none c none) E (cc0__fused_linear_kernel i arg1 harg1 arg2 harg2 arg3 harg3 arg4 harg4 arg5 harg5) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The launch's proof data -/

/-- Per core: the arrays as the kernel finds them; after the body at point t each input buffer still at its block and
    the output buffer at `out0_4` of the input blocks; beside them only what the kernel never touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The per-point obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Lin1.lean ====
/-
  The second fused linear layer's kernel, one grid point at a time.  Point t of the 20 works on rows 5000·t … 5000·t+4999:
  from the 5000×128 block a of the aggregated messages, the 5000×1 block d of the degree normalisation, the 1×128 bias
  row b and the whole 128×128 weight W it writes the 5000×128 block (max(d ∘ a + b, 0) · W) ∘ d of the output (d broadcast
  along the row, b down the column).  Stated at an arbitrary contents V of the core's buffers at the moment the kernel
  is entered: what each window's staging buffer holds before and after the body, the body's Hoare triple, and the
  per-point obligation the pipelined launch asks for.
-/
import proofs.«132209_j48962627175096_2_alg».proof.Proof.Gen.Kernel.Launch
import proofs.«132209_j48962627175096_2_alg».proof.Proof.Gen.Kernel.Skeleton
import proofs.«132209_j48962627175096_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, cut out of its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    kept it from the point before (its block index did not move). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rX1 : Rect S5000x128 := Rect.unit (s := S5000x128) ![0, 0] S5000x128.size inb_S5000x128_S5000x128_0_0
abbrev rD1 : Rect S5000x1 := Rect.unit (s := S5000x1) ![0, 0] S5000x1.size inb_S5000x1_S5000x1_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0
abbrev rO1 : Rect S5000x128 := Rect.unit (s := S5000x128) ![0, 0] S5000x128.size inb_S5000x128_S5000x128_0_0

/-- The output block the body leaves: its one store, of (max(d ∘ a + b, 0) · W) ∘ d, over the whole buffer. -/
def out1_4 (x0 : Vec F S5000x128 .f32) (x1 : Vec F S5000x1 .f32) (x2 : Vec F S1x128 .f32) (x3 : Vec F S128x128 .bf16) : Vec F S5000x128 .bf16 :=
  View.canon [⟨rO1, k1_pay1 (View.ld x0 rX1) (View.ld x1 rD1) (View.ld x2 rB1) (View.ld x3 rW1)⟩]

/-- The one store covers the buffer. -/
theorem cover1_4 (p0 : Vec F S5000x128 .bf16) (y : S5000x128.Idx) :
    ∃ pc ∈ ([⟨rO1, p0⟩] : List (View.Piece (Elt F) S5000x128 .bf16)), y ∈ pc.1.set :=
  View.cover_of_tiled [⟨rO1, p0⟩] S5000x128.size (by rfl) y

/-! ## The body's triple -/

set_option maxHeartbeats 1000000 in
/-- On whole staging buffers, the four inputs at contents x0 … x3 and the output at anything, the body runs to its end
    leaving the inputs as they were and the output at `out1_4 x0 x1 x2 x3`. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S5000x128 .bf16) (harg5 : arg5.IsWhole)
    (x0 : Vec F S5000x128 .f32) (x1 : Vec F S5000x1 .f32) (x2 : Vec F S1x128 .f32) (x3 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fused_linear_kernel i arg1 harg1 arg2 harg2 arg3 harg3 arg4 harg4 arg5 harg5) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The launch's proof data -/

/-- Per core: the arrays as the kernel finds them; after the body at point t each input buffer still at its block and
    the output buffer at `out1_4` of the input blocks; beside them only what the kernel never touches. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The per-point obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Lin2.lean ====
/-
  The third fused linear layer's kernel, one grid point at a time.  Point t of the 20 works on rows 5000·t … 5000·t+4999:
  from the 5000×128 block a of the aggregated messages, the 5000×1 block d of the degree normalisation, the 1×128 bias
  row b and the whole 128×64 weight W it writes the 5000×64 block (max(d ∘ a + b, 0) · W) ∘ d of the output (d broadcast
  along the row, b down the column).  Stated at an arbitrary contents V of the core's buffers at the moment the kernel
  is entered: what each window's staging buffer holds before and after the body, the body's Hoare triple, and the
  per-point obligation the pipelined launch asks for.
-/
import proofs.«132209_j48962627175096_2_alg».proof.Proof.Gen.Kernel.Launch
import proofs.«132209_j48962627175096_2_alg».proof.Proof.Gen.Kernel.Skeleton
import proofs.«132209_j48962627175096_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, cut out of its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the pipeline fetched it there or
    kept it from the point before (its block index did not move). One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev rX2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rB2 : Rect S1x128 := Rect.unit (s := S1x128) ![0, 0] S1x128.size inb_S1x128_S1x128_0_0
abbrev rW2 : Rect S128x64 := Rect.unit (s := S128x64) ![0, 0] S128x64.size inb_S128x64_S128x64_0_0
abbrev rO2 : Rect S5000x64 := Rect.unit (s := S5000x64) ![0, 0] S5000x64.size inb_S5000x64_S5000x64_0_0

/-- The output block the body leaves: its one store, of (max(d ∘ a + b, 0) · W) ∘ d, over the whole buffer. -/
def out2_4 (x0 : Vec F S5000x128 .f32) (x1 : Vec F S5000x1 .f32) (x2 : Vec F S1x128 .f32) (x3 : Vec F S128x64 .bf16) : Vec F S5000x64 .bf16 :=
  View.canon [⟨rO2, k2_pay1 (View.ld x0 rX2) (View.ld x1 rD2) (View.ld x2 rB2) (View.ld x3 rW2)⟩]

/-- The one store covers the buffer. -/
theorem cover2_4 (p0 : Vec F S5000x64 .bf16) (y : S5000x64.Idx) :
    ∃ pc ∈ ([⟨rO2, p0⟩] : List (View.Piece (Elt F) S5000x64 .bf16)), y ∈ pc.1.set :=
  View.cover_of_tiled [⟨rO2, p0⟩] S5000x64.size (by rfl) y

/-! ## The body's triple -/

set_option maxHeartbeats 1000000 in
/-- On whole staging buffers, the four inputs at contents x0 … x3 and the output at anything, the body runs to its end
    leaving the inputs as they were and the output at `out2_4 x0 x1 x2 x3`. -/
theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x64 .bf16) (harg4 : arg4.IsWhole)
    (arg5 : Memref sig .tc .vmem S5000x64 .bf16) (harg5 : arg5.IsWhole)
    (x0 : Vec F S5000x128 .f32) (x1 : Vec F S5000x1 .f32) (x2 : Vec F S1x128 .f32) (x3 : Vec F S128x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__fused_linear_kernel i arg1 harg1 arg2 harg2 arg3 harg3 arg4 harg4 arg5 harg5) K := by
  simp only [cc2__fused_linear_kernel_eq_skeleton]; unfold cc2__fused_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The launch's proof data -/

/-- Per core: the arrays as the kernel finds them; after the body at point t each input buffer still at its block and
    the output buffer at `out2_4` of the input blocks; beside them only what the kernel never touches. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The per-point obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Pool.lean ====
/-
  The min-pool kernel, one grid point at a time.  Point t of the 20 takes the 5000×64 block a of the last layer's
  aggregate and the 5000×1 block d of the degree normalisation and folds the column minima of a ∘ d (d broadcast along
  the row) into a 1×64 accumulator that lives in a scratch buffer across the points: the first point resets the
  accumulator to +∞ before folding, every point replaces it by min(accumulator, column minima of this block), and the
  last point copies it into the 1×64 output block, the only point at which the output window is written back.
  Stated at an arbitrary contents V of the core's buffers when the kernel is entered.
-/
import proofs.«132209_j48962627175096_2_alg».proof.Proof.Gen.Kernel.Launch
import proofs.«132209_j48962627175096_2_alg».proof.Proof.Gen.Kernel.Skeleton
import proofs.«132209_j48962627175096_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and the accumulator -/

/-- Window w's block at point t, cut out of its array as the kernel finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S5000x64 := Rect.unit (s := S5000x64) ![0, 0] S5000x64.size inb_S5000x64_S5000x64_0_0
abbrev rD3 : Rect S5000x1 := Rect.unit (s := S5000x1) ![0, 0] S5000x1.size inb_S5000x1_S5000x1_0_0
abbrev rS3 : Rect S1x64 := Rect.unit (s := S1x64) ![0, 0] S1x64.size inb_S1x64_S1x64_0_0

/-- The accumulator as the first point's reset leaves it: +∞ in every lane. -/
def accInit : Vec F S1x64 .f32 := View.canon [⟨rS3, k3_pay1 (F := F)⟩]

/-- One point's fold: the accumulator s replaced by min(s, column minima of a ∘ d). -/
def accStep (a : Vec F S5000x64 .f32) (d : Vec F S5000x1 .f32) (s : Vec F S1x64 .f32) : Vec F S1x64 .f32 :=
  View.canon [⟨rS3, k3_pay2 (View.ld a rA3) (View.ld d rD3) (View.ld s rS3)⟩]

/-- The accumulator after point n: the fold of the blocks 0 … n from +∞. -/
def acc3 (c : Dev nD) : (n : ℕ) → n < cfg3.N → Vec F S1x64 .f32
  | 0, h => accStep (iblk3 V c 0 ⟨0, h⟩) (iblk3 V c 1 ⟨0, h⟩) accInit
  | n + 1, h => accStep (iblk3 V c 0 ⟨n + 1, h⟩) (iblk3 V c 1 ⟨n + 1, h⟩) (acc3 c n (Nat.lt_of_succ_lt h))

/-- What the last point stores into the output block: the accumulator read back. -/
def out3 (s : Vec F S1x64 .f32) : Vec F S1x64 .f32 := View.canon [⟨rS3, View.ld s rS3⟩]

/-! ## The invariant between points: the scratch holds the accumulator -/

/-- Before point t: the scratch buffer whole at the accumulator the points before left (at anything before the first
    point), beside the rest of the core's scoped buffers and its generator register, none of which the kernel touches. -/
def scratchAt (c : Dev nD) (t : Fin (cfg3.N + 1)) : sProp 𝕄 :=
  if h : t.val = 0 then iprop(∃ s : Vec F S1x64 .f32, owns (c : Thread nD τ) (Memref.whole cc3_scratch0) fullShare s)
  else owns (c : Thread nD τ) (Memref.whole cc3_scratch0) fullShare (acc3 V c (t.val - 1) (by have := t.isLt; omega))

def Phi3 (c : Dev nD) (t : Fin (cfg3.N + 1)) : sProp 𝕄 :=
  iprop(scratchAt V c t
    ∗ Pipeline.scopedRestBut (Ix := Unit) (Name := ℕ) (U := UR sig nD τ) (Lvl := ℕ) (Val := Elt F) spec3 c [cc3_scratch0]
    ∗ ∃ r, prngReg c r)

/-! ## The body's accesses -/

/-- One store through the whole 1×64 buffer covers it. -/
theorem cover3_1 (p0 : Vec F S1x64 .f32) (y : S1x64.Idx) :
    ∃ pc ∈ ([⟨rS3, p0⟩] : List (View.Piece (Elt F) S1x64 .f32)), y ∈ pc.1.set :=
  View.cover_of_tiled [⟨rS3, p0⟩] S1x64.size (by rfl) y

theorem hz3 : (![0, 0] : Fin S1x64.rank → Nat) = fun _ => 0 := by funext a; fin_cases a <;> rfl

/-- A last store through the whole 1×64 buffer covers it, whatever came before. -/
theorem cover3_cons (p0 : Vec F S1x64 .f32) (L : List (View.Piece (Elt F) S1x64 .f32)) (y : S1x64.Idx) :
    ∃ pc ∈ ((⟨rS3, p0⟩ : View.Piece (Elt F) S1x64 .f32) :: L), y ∈ pc.1.set :=
  ⟨_, List.mem_cons_self, View.mem_set_unit_zero hz3 inb_S1x64_S1x64_0_0 y⟩

abbrev condFirst3 (i : grid3.Coords) : Prop :=
  Scalar.cmpi .ne (Scalar.extui (Scalar.cmpi .eq (BitVec.ofNat 32 (i 0).val) 0#32)) 0#32 = 1#1

set_option maxHeartbeats 1000000 in
/-- A point that is neither the first nor the last: the accumulator is folded once, nothing else changes. -/
theorem sound_kernel3_mid (c : Dev nD) (E : Set ℕ) (i : grid3.Coords) (hfirst : ¬ condFirst3 i) (hlast : ¬ k3_cond2 i = 1#1)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (a : Vec F S5000x64 .f32) (d : Vec F S5000x1 .f32) (o : Vec F S1x64 .f32) (s : Vec F S1x64 .f32) (K : PUnit → sProp 𝕄) :
    iprop(owns (c : Thread nD τ) arg1 fullShare a ∗ owns (c : Thread nD τ) arg2 fullShare d ∗ owns (c : Thread nD τ) arg3 fullShare o
        ∗ owns (c : Thread nD τ) arg4 fullShare s
        ∗ (iprop(owns (c : Thread nD τ) arg1 fullShare a ∗ owns (c : Thread nD τ) arg2 fullShare d ∗ owns (c : Thread nD τ) arg3 fullShare o
            ∗ owns (c : Thread nD τ) arg4 fullShare (accStep a d s)) -∗ K ⟨⟩))
      ⊢ wp frame (wpE (defs₀ (F := F)) Variants.none c none) E (cc3__minpool_kernel i arg1 harg1 arg2 harg2 arg3 harg3 arg4 harg4) K := by
  simp only [cc3__minpool_kernel_eq_skeleton]; unfold cc3__minpool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_1 _)

set_option maxHeartbeats 1000000 in
/-- The first point: the accumulator, whatever it held, is reset to +∞ and folded once. -/
theorem sound_kernel3_first (c : Dev nD) (E : Set ℕ) (i : grid3.Coords) (hfirst : condFirst3 i) (hlast : ¬ k3_cond2 i = 1#1)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (a : Vec F S5000x64 .f32) (d : Vec F S5000x1 .f32) (o : Vec F S1x64 .f32) (K : PUnit → sProp 𝕄) :
    iprop(owns (c : Thread nD τ) arg1 fullShare a ∗ owns (c : Thread nD τ) arg2 fullShare d ∗ owns (c : Thread nD τ) arg3 fullShare o
        ∗ (∃ s, owns (c : Thread nD τ) arg4 fullShare s)
        ∗ (iprop(owns (c : Thread nD τ) arg1 fullShare a ∗ owns (c : Thread nD τ) arg2 fullShare d ∗ owns (c : Thread nD τ) arg3 fullShare o
            ∗ owns (c : Thread nD τ) arg4 fullShare (accStep a d accInit)) -∗ K ⟨⟩))
      ⊢ wp frame (wpE (defs₀ (F := F)) Variants.none c none) E (cc3__minpool_kernel i arg1 harg1 arg2 harg2 arg3 harg3 arg4 harg4) K := by
  simp only [cc3__minpool_kernel_eq_skeleton]; unfold cc3__minpool_kernel_skel
  unfold owns
  iintro ⟨⟨%f0, %hf0, H0⟩, ⟨%f1, %hf1, H1⟩, ⟨%f2, %hf2, H2⟩, ⟨%s3, %f3, -, H3⟩, Hk⟩
  subst hf0; subst hf1; subst hf2
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3_cons _ _)]
  unfold accStep accInit
  simp only [View.canon_cons_unit_zero (S := S1x64) hz3, View.readCov_unit_zero (S := S1x64) _ hz3, View.ld_unit_zero (S := S1x64) hz3,
    View.readAt_eq_ld]

set_option maxHeartbeats 1000000 in
/-- The last point: the accumulator is folded once and copied into the output block. -/
theorem sound_kernel3_last (c : Dev nD) (E : Set ℕ) (i : grid3.Coords) (hfirst : ¬ condFirst3 i) (hlast : k3_cond2 i = 1#1)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (a : Vec F S5000x64 .f32) (d : Vec F S5000x1 .f32) (s : Vec F S1x64 .f32) (K : PUnit → sProp 𝕄) :
    iprop(owns (c : Thread nD τ) arg1 fullShare a ∗ owns (c : Thread nD τ) arg2 fullShare d ∗ (∃ o, owns (c : Thread nD τ) arg3 fullShare o)
        ∗ owns (c : Thread nD τ) arg4 fullShare s
        ∗ (iprop(owns (c : Thread nD τ) arg1 fullShare a ∗ owns (c : Thread nD τ) arg2 fullShare d
            ∗ owns (c : Thread nD τ) arg3 fullShare (out3 (accStep a d s))
            ∗ owns (c : Thread nD τ) arg4 fullShare (accStep a d s)) -∗ K ⟨⟩))
      ⊢ wp frame (wpE (defs₀ (F := F)) Variants.none c none) E (cc3__minpool_kernel i arg1 harg1 arg2 harg2 arg3 harg3 arg4 harg4) K := by
  simp only [cc3__minpool_kernel_eq_skeleton]; unfold cc3__minpool_kernel_skel
  unfold owns
  iintro ⟨⟨%f0, %hf0, H0⟩, ⟨%f1, %hf1, H1⟩, ⟨%o2, %f2, -, H2⟩, ⟨%f3, %hf3, H3⟩, Hk⟩
  subst hf0; subst hf1; subst hf3
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3_cons _ _)]
    unfold out3 accStep
    simp only [View.canon_cons_unit_zero (S := S1x64) hz3, View.readCov_unit_zero (S := S1x64) _ hz3, View.ld_unit_zero (S := S1x64) hz3,
      View.readAt_eq_ld]
  iexists _; isplitr
  swap; · iexact H3
  ipureintro
  exact View.read_writes_eq_canon _ _ _ (cover3_1 _)

theorem scratchAt_zero (c : Dev nD) (t : Fin (cfg3.N + 1)) (h : t.val = 0) :
    scratchAt V c t = iprop(∃ s : Vec F S1x64 .f32, owns (c : Thread nD τ) (Memref.whole cc3_scratch0) fullShare s) := by
  unfold scratchAt; rw [dif_pos h]

theorem scratchAt_pos (c : Dev nD) (t : Fin (cfg3.N + 1)) (h : t.val ≠ 0) :
    scratchAt V c t = owns (c : Thread nD τ) (Memref.whole cc3_scratch0) fullShare
      (acc3 V c (t.val - 1) (by have := t.isLt; omega)) := by
  unfold scratchAt; rw [dif_neg h]

/-! ## The launch's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (acc3 V c t.val t.isLt)
  Φ t := Phi3 V c t
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (acc3 V c t.val t.isLt) := by dsimp only [dat3]

/-! ## What the input windows' staging buffers hold when the body runs -/

/-- An input window's staging buffer holds the window's block at every point, whether the pipeline fetched it there or
    kept it from the point before. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The branch conditions and the idle points, over the 20 points -/

/-- The reset is taken at the first point only. -/
theorem hcondF3 : ∀ t : Fin cfg3.N, condFirst3 (grid3.coords t) ↔ t.val % 20 = 0 :=
  (by decide +kernel : ∀ t : Fin grid3.N, condFirst3 (grid3.coords t) ↔ t.val % 20 = 0)
/-- The copy into the output block is taken at the last point only. -/
theorem hcondL3 : ∀ t : Fin cfg3.N, k3_cond2 (grid3.coords t) = 1#1 ↔ t.val % 20 = 19 :=
  (by decide +kernel : ∀ t : Fin grid3.N, k3_cond2 (grid3.coords t) = 1#1 ↔ t.val % 20 = 19)
/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- The output window is idle, and not written back, at every point but the last. -/
theorem idleAt3_2 : ∀ t : Fin cfg3.N, ¬ t.val % 20 = 19 → cfg3.idle 2 (grid3.coords t) = true :=
  (by decide +kernel : ∀ t : Fin grid3.N, ¬ t.val % 20 = 19 → cfg3.idle 2 (grid3.coords t) = true)
theorem liveAt3_2 : ∀ t : Fin cfg3.N, t.val % 20 = 19 → cfg3.idle 2 (grid3.coords t) = false :=
  (by decide +kernel : ∀ t : Fin grid3.N, t.val % 20 = 19 → cfg3.idle 2 (grid3.coords t) = false)
theorem noFlush3_2 : ∀ t : Fin cfg3.N, ¬ t.val % 20 = 19 → (cfg3.win 2).flush t = false :=
  (by decide +kernel : ∀ t : Fin grid3.N, ¬ t.val % 20 = 19 → win3_2.flush t = false)

/-! ## The accumulator, point by point -/

theorem acc3_zero (c : Dev nD) (t : Fin cfg3.N) (h : t.val = 0) :
    acc3 V c t.val t.isLt = accStep (iblk3 V c 0 t) (iblk3 V c 1 t) accInit := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt
      = accStep (iblk3 V c 0 t) (iblk3 V c 1 t) (acc3 V c (t.val - 1) (Nat.lt_of_le_of_lt (Nat.sub_le _ _) t.isLt)) := by
  obtain ⟨n, hn⟩ := t
  cases n with
  | zero => exact absurd rfl h
  | succ n => rfl

/-- After point t the scratch holds the accumulator after t. -/
theorem scratchAt_succ (c : Dev nD) (t : Fin cfg3.N) :
    scratchAt V c t.succ = owns (c : Thread nD τ) (Memref.whole cc3_scratch0) fullShare (acc3 V c t.val t.isLt) := by
  rw [scratchAt_pos V c t.succ (Nat.succ_ne_zero _)]; rfl

/-- Before a point that is not the first it holds the accumulator after the point before. -/
theorem scratchAt_castSucc_pos (c : Dev nD) (t : Fin cfg3.N) (h : t.val ≠ 0) :
    scratchAt V c t.castSucc = owns (c : Thread nD τ) (Memref.whole cc3_scratch0) fullShare
      (acc3 V c (t.val - 1) (Nat.lt_of_le_of_lt (Nat.sub_le _ _) t.isLt)) := by
  rw [scratchAt_pos V c t.castSucc h]; rfl

/-! ## The per-point obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 1000000 in
/-- The body at any point. The input buffers hold their blocks; the point is the first, the last or neither (20 points),
    and that case's triple applies: the invariant hands it the scratch at the accumulator the point before left (at
    anything at the first point) and takes it back at this point's; the output buffer is handed back as it was found
    except at the last point, where it holds the accumulator read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  have hΦs : (dat3 V c).Φ t.succ = Phi3 V c t.succ := by dsimp only [dat3]
  have hΦc : (dat3 V c).Φ t.castSucc = Phi3 V c t.castSucc := by dsimp only [dat3]
  rw [show (dat3 V c).owesAt () t.succ = (dat3 V c).owesAt () t.castSucc from rfl, hΦs, hΦc]
  unfold Phi3
  rw [scratchAt_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have hL : ¬ t.val % 20 = 19 := by omega
    rw [Dat.leavesExact_idle (dat3 V c) 2 t (idleAt3_2 t hL) (noFlush3_2 t hL)]
    rw [scratchAt_zero V c t.castSucc h0, acc3_zero V c t h0]
    iintro ⟨⟨HS, Hr, Hg⟩, Ho, ⟨%d0, H0⟩, ⟨%d1, H1⟩, ⟨%d2, H2⟩⟩
    iapply (sound_kernel3_first c Set.univ (grid3.coords t) ((hcondF3 t).mpr (by omega)) (fun h => hL ((hcondL3 t).mp h))
      _ _ _ _ _ _ _ _ (iblk3 V c 0 t) (iblk3 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · by_cases h19 : t.val = 19
    · have hL : t.val % 20 = 19 := by omega
      rw [show (dat3 V c).leavesExact 2 t = owns (c : Thread nD τ) (st3_2 t) fullShare ((dat3 V c).after 2 t) from by
        unfold Dat.leavesExact; rw [liveAt3_2 t hL], after3_2]
      rw [scratchAt_castSucc_pos V c t h0, acc3_pos V c t h0]
      iintro ⟨⟨HS, Hr, Hg⟩, Ho, ⟨%d0, H0⟩, ⟨%d1, H1⟩, ⟨%d2, H2⟩⟩
      iapply (sound_kernel3_last c Set.univ (grid3.coords t) (fun h => absurd ((hcondF3 t).mp h) (by omega)) ((hcondL3 t).mpr hL)
        _ _ _ _ _ _ _ _ (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hL : ¬ t.val % 20 = 19 := by omega
      rw [Dat.leavesExact_idle (dat3 V c) 2 t (idleAt3_2 t hL) (noFlush3_2 t hL)]
      rw [scratchAt_castSucc_pos V c t h0, acc3_pos V c t h0]
      iintro ⟨⟨HS, Hr, Hg⟩, Ho, ⟨%d0, H0⟩, ⟨%d1, H1⟩, ⟨%d2, H2⟩⟩
      iapply (sound_kernel3_mid c Set.univ (grid3.coords t) (fun h => absurd ((hcondF3 t).mp h) (by omega)) (fun h => hL ((hcondL3 t).mp h))
        _ _ _ _ _ _ _ _ (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The per-point obligation of the pipelined launch. -/
theorem body_obligation3 (c : Dev nD) : BodyObligation (dat3 (F := F) V c) (defs₀ (F := F)) Variants.none () Set.univ := fun t => by
  rw [bigSep_W3, bigSep_W3]
  exact sound_body3 V c t

/-- Entering: what the launch hands the kernel beside its windows gives the invariant before the first point. -/
theorem hin3 (c : Dev nD) : Pipeline.ΦA spec3 c ⊢ (dat3 V c).Φ 0 := by
  have hΦ : (dat3 V c).Φ 0 = Phi3 V c 0 := by dsimp only [dat3]
  rw [hΦ]
  unfold Phi3 Pipeline.ΦA
  rw [scratchAt_zero V c 0 rfl, scopedRest3_split]
  simp only [owns_whole]
  iintro ⟨⟨⟨%f, Hs⟩, Hr⟩, Hg⟩
  isplitl [Hs]
  · iexists f; iexact Hs
  isplitl [Hr]
  · iexact Hr
  iexact Hg

/-- Leaving: the invariant after the last point gives it back. -/
theorem hout3 (c : Dev nD) : (dat3 V c).Φ (Fin.last cfg3.N) ⊢ Pipeline.ΦA spec3 c := by
  have hΦ : (dat3 V c).Φ (Fin.last cfg3.N) = Phi3 V c (Fin.last cfg3.N) := by dsimp only [dat3]
  have hN : (Fin.last cfg3.N).val ≠ 0 := by rw [Fin.val_last]; have : cfg3.N = 20 := N_3; omega
  rw [hΦ]
  unfold Phi3 Pipeline.ΦA
  rw [scratchAt_pos V c _ hN, scopedRest3_split]
  simp only [owns_whole]
  iintro ⟨Hs, Hr, Hg⟩
  isplitl [Hs Hr]
  · isplitl [Hs]
    · iexists _; iexact Hs
    iexact Hr
  iexact Hg

end Cert.Kernel.Hand

end
-- ==== Proof.K.Vals.lean ====
/-
  The contents of the core's buffers at each boundary between two items of the program: the launch memory, then each
  stretch of host operations applied to what came before, then each kernel's arrays replaced by what its pipelined
  launch leaves in them (every other buffer as it was).  Twelve boundaries: three host stretches, the first linear
  kernel, a host stretch (gather and scatter-add of the messages), the second linear kernel, a host stretch, the third
  linear kernel, a host stretch, the min-pool kernel, and the closing host stretch (the bias added to the pooled row).
-/
import proofs.«132209_j48962627175096_2_alg».proof.Proof.Gen.Kernel.Launch
import proofs.«132209_j48962627175096_2_alg».proof.Proof.Gen.Kernel.Skeleton
import proofs.«132209_j48962627175096_2_alg».proof.Proof.Gen.Kernel.Points
import proofs.«132209_j48962627175096_2_alg».proof.Proof.K.Lin0
import proofs.«132209_j48962627175096_2_alg».proof.Proof.K.Lin1
import proofs.«132209_j48962627175096_2_alg».proof.Proof.K.Lin2
import proofs.«132209_j48962627175096_2_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core c's buffers at launch. -/
abbrev W0 : Dev nD → Valuation τ sig (Elt F) := fun c b => m ((c : Dev nD), b)

/-- After the host operations `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the host operations `hostOps0_1`. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- After the host operations `hostOps0_2`. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the launch's write-backs leave, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host operations `hostOps1`. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the launch's write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host operations `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the launch's write-backs leave, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the host operations `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the launch's write-backs leave, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- After the host operations `hostOps4`. -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b

/-! ## The proof data of the four launches, each at its kernel's entry contents -/

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c

/-! ## No host operation allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

end Cert.Kernel.Hand

end
-- ==== Proof.K.Run.lean ====
/-
  The program as one run.  @main is eleven items in a row: three stretches of host operations, the first linear kernel,
  a stretch (gather and scatter-add of the messages), the second linear kernel, a stretch, the third linear kernel, a
  stretch, the min-pool kernel, and the closing stretch.  Between two items a core holds every unscoped buffer whole at
  the contents the fold W0 … W11 gives it, beside its generator register at some state and the record that it owes
  nothing.  A stretch of host operations moves the buffers from one valuation to the next; a kernel takes its windows'
  arrays out of the unscoped buffers, runs its pipelined launch over them, and puts them back at what the write-backs
  leave.  Composed: from any memory with zero semaphore counters every weakly fair execution of @main terminates
  without fault and ends with every unscoped buffer at W11; and no item writes an argument.
-/
import proofs.«132209_j48962627175096_2_alg».proof.Proof.Gen.Kernel.Launch
import proofs.«132209_j48962627175096_2_alg».proof.Proof.Gen.Kernel.Skeleton
import proofs.«132209_j48962627175096_2_alg».proof.Proof.Gen.Kernel.Points
import proofs.«132209_j48962627175096_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What rides beside the buffers -/

abbrev 𝒱₀ : Variants := Variants.none
/-- No core owes another anything, so no pair is given a level. -/
abbrev L : GSem nD τ sig → Finset Unit := fun _ => ∅
abbrev lv : GSem nD τ sig → Unit → ℕ := fun _ _ => 0
/-- Beside the buffers a core carries its generator register, at a state nobody tracks, and its record of what it
    owes other cores: nothing, with some set of recorded pairs. -/
abbrev R (c : Dev nD) : sProp 𝕄 := iprop((∃ r, prngReg c r) ∗ ∃ W, owes (c : Thread nD τ) (0 : CellTallies nD τ sig Unit) W)

/-- The state of core c between two items: every unscoped buffer whole at the valuation, and R. -/
abbrev At (W : Dev nD → Valuation τ sig (Elt F)) (c : Dev nD) : sProp 𝕄 :=
  iprop(StableHlo.held (c : Thread nD τ) (Pipeline.ucRefs τ sig) (W c) ∗ R c)

/-! ## The pieces every kernel's entry and exit are made of -/

section Pieces

variable {c : Dev nD}

/-- Owing nothing with some recorded set is owing the proof data's first tallies within its bound, when those
    tallies are zero and the bound excludes no pair. -/
theorem owes_enter {cfg : Cfg sig Λ₀} (dat : Dat τ (Elt F) Unit ℕ (UR sig nD τ) ℕ cfg c) (t : Fin (cfg.N + 1))
    (h0 : dat.owed t = 0) (hb : ∀ x, x ∈ dat.bound () t) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; exact fun x _ => hb x
  iexact HO

/-- And back: the bound on the recorded set is forgotten. -/
theorem owes_leave {cfg : Cfg sig Λ₀} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-- The invariant of a kernel that keeps nothing between its points is made of the generator register and the
    scoped buffers no window stages; whatever else is offered (the prefetched tables: there are none) is dropped. -/
theorem phiA_enter {gr W : Nat} (win : Fin W → Pipeline.WinSpec sig gr) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]
  · iexact Hs
  iexact Hg

/-- And it gives both back, beside the kernel's own semaphores at zero: it has none. -/
theorem phiA_leave {gr W : Nat} (win : Fin W → Pipeline.WinSpec sig gr) :
    (Pipeline.ΦA win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hs, Hg⟩
  isplitl [Hg]
  · iexact Hg
  isplitr
  · iempintro
  iexact Hs

end Pieces

/-! ## A kernel's entry and exit, for any of the four -/

section EntryExit

variable (p : Fin 4) (c : Dev nD)

-- the library's lemmas are stated over the pinned configuration of a pipeline: applying them takes unfolding plain
-- definitions inside a metavariable's type
set_option backward.isDefEq.respectTransparency.types false in
/-- ENTRY.  A core that holds every unscoped buffer at a valuation Wv, from which kernel p's proof data read their
    arrays' entry contents, hands the kernel those arrays, no table (it has none), its record of owing nothing as the
    first tallies, and its generator register; the unscoped buffers that are no array of the kernel stay outside. -/
theorem enter (hw : Pipeline.WinFacts (Pipeline.pin (pcfgs (F := F)) adm p).spec)
    (harr : ∀ w, ((Pipeline.pin (pcfgs (F := F)) adm p).spec w).arr.IsWhole)
    (Wv : Valuation τ sig (Elt F))
    (hq : ∀ w, (pdats m p c).share w = fullShare)
    (hA : ∀ w, (pdats m p c).A w = Wv (Pipeline.arrRef (Pipeline.pin (pcfgs (F := F)) adm p).spec w))
    (h0 : (pdats m p c).owed 0 = 0) (hb : ∀ x, x ∈ (pdats m p c).bound () 0)
    (hK : (Finset.univ : Finset (Fin (pcfgs (F := F) p).pre.K)) = ∅) :
    iprop(iprop(StableHlo.held (c : Thread nD τ) (Pipeline.ucRefs τ sig) Wv ∗ R c)
        ∗ Pipeline.ownSems0 (fun k : PEmpty => k.elim) c ∗ levAts L lv)
      ⊢ (|={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ)
              (Pipeline.pin (pcfgs (F := F)) adm p).spec c (fun b => Wv b)) : sProp 𝕄) := by
  have hcut := Pipeline.arrays_of_unscopedBufs (p := p) (pcfgs (F := F)) adm (pdats m) hw harr c hq (fun b => Wv b) hA
  rw [Pipeline.unscopedBufs_held] at hcut
  have hO := owes_enter (pdats m p c) 0 h0 hb
  iintro ⟨⟨Hbufs, Hg, HO⟩, -, -⟩
  ihave Hsplit := hcut $$ Hbufs
  icases Hsplit with ⟨Harr, Hrest⟩
  ihave HO' := hO $$ HO
  imodintro
  isplitl [Harr]
  · iexact Harr
  isplitr
  · unfold Pipeline.prefHeld
    rw [hK, BI.bigSep_empty]
    iempintro
  isplitl [HO']
  · iexact HO'
  isplitl [Hg]
  · iexact Hg
  iexact Hrest

set_option backward.isDefEq.respectTransparency.types false in
/-- EXIT.  The kernel's arrays at what its write-backs leave, beside the unscoped buffers that stayed outside at
    the entry valuation Wv, are every unscoped buffer at any valuation Wv' that has the arrays at those contents
    and agrees with Wv elsewhere; the last tallies are zero again, and the generator register comes back. -/
theorem leave (hw : Pipeline.WinFacts (Pipeline.pin (pcfgs (F := F)) adm p).spec)
    (harr : ∀ w, ((Pipeline.pin (pcfgs (F := F)) adm p).spec w).arr.IsWhole)
    (Wv Wv' : Valuation τ sig (Elt F))
    (hq : ∀ w, (pdats m p c).share w = fullShare)
    (hF : ∀ w, (pdats m p c).arrAt w (Pipeline.pin (pcfgs (F := F)) adm p).N
      = Wv' (Pipeline.arrRef (Pipeline.pin (pcfgs (F := F)) adm p).spec w))
    (hrest : ∀ b : Ref sig .tc, b ∉ Finset.univ.image (Pipeline.arrRef (Pipeline.pin (pcfgs (F := F)) adm p).spec)
      → Wv' b = Wv b)
    (hN : (pdats m p c).owed (Fin.last (Pipeline.pin (pcfgs (F := F)) adm p).N) = 0) :
    iprop((pdats m p c).arrays ((pdats m p c).arrAt · (Pipeline.pin (pcfgs (F := F)) adm p).N)
        ∗ (pdats m p c).owesAt () (Fin.last (Pipeline.pin (pcfgs (F := F)) adm p).N) ∗ (∃ r, prngReg c r)
        ∗ Pipeline.unscopedRest (Ix := Unit) (Name := ℕ) (U := UR sig nD τ) (Lvl := ℕ)
            (Pipeline.pin (pcfgs (F := F)) adm p).spec c (fun b => Wv b))
      ⊢ (|={Set.univ}=> iprop(StableHlo.held (c : Thread nD τ) (Pipeline.ucRefs τ sig) Wv' ∗ R c) : sProp 𝕄) := by
  have hglue := Pipeline.unscopedBufs_of_arrays (p := p) (pcfgs (F := F)) adm (Ix := Unit) (Name := ℕ) (U := UR sig nD τ)
    (Lvl := ℕ) hw harr c (pdats m) hq (fun b => Wv b) (fun b => Wv' b)
    ((pdats m p c).arrAt · (Pipeline.pin (pcfgs (F := F)) adm p).N) hF hrest
  rw [Pipeline.unscopedBufs_held] at hglue
  have hO := owes_leave (pdats m p c) (Fin.last (Pipeline.pin (pcfgs (F := F)) adm p).N) hN
  iintro ⟨Harr, HO, Hg, Hrest⟩
  ihave Hbufs := hglue $$ [Harr Hrest]
  · isplitl [Harr]
    · iexact Harr
    iexact Hrest
  ihave HO' := hO $$ HO
  imodintro
  isplitl [Hbufs]
  · iexact Hbufs
  isplitl [Hg]
  · iexact Hg
  iexact HO'

end EntryExit

/-! ## The four kernels as segments -/

set_option backward.isDefEq.respectTransparency.types false in
/-- The first linear kernel: entered from the valuation W3, left at W4.  It keeps nothing between its points, owes nothing and has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre := At (W3 m)
  post := At (W4 m)
  X c := iprop(∃ r, prngReg c r)
  Y c := iprop(∃ r, prngReg c r)
  Z c := Pipeline.unscopedRest (Ix := Unit) (Name := ℕ) (U := UR sig nD τ) (Lvl := ℕ) spec0 c (V3 m c)
  hentry c := enter m 0 c launch0.win launch0.arr_whole (W3 m c) ((pdats m 0 c).share_full fun _ => rfl)
    (fun _ => rfl) rfl (fun _ => Or.inl trivial) rfl
  hin c := phiA_enter spec0 _
  hout c := phiA_leave spec0
  hexit c := leave m 0 c launch0.win launch0.arr_whole (W3 m c) (W4 m c) ((pdats m 0 c).share_full fun _ => rfl)
    (hF0 m c) (hrest0 m c) rfl

set_option backward.isDefEq.respectTransparency.types false in
/-- The second linear kernel: entered from W5, left at W6; the same shape as the first. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre := At (W5 m)
  post := At (W6 m)
  X c := iprop(∃ r, prngReg c r)
  Y c := iprop(∃ r, prngReg c r)
  Z c := Pipeline.unscopedRest (Ix := Unit) (Name := ℕ) (U := UR sig nD τ) (Lvl := ℕ) spec1 c (V5 m c)
  hentry c := enter m 1 c launch1.win launch1.arr_whole (W5 m c) ((pdats m 1 c).share_full fun _ => rfl)
    (fun _ => rfl) rfl (fun _ => Or.inl trivial) rfl
  hin c := phiA_enter spec1 _
  hout c := phiA_leave spec1
  hexit c := leave m 1 c launch1.win launch1.arr_whole (W5 m c) (W6 m c) ((pdats m 1 c).share_full fun _ => rfl)
    (hF1 m c) (hrest1 m c) rfl

set_option backward.isDefEq.respectTransparency.types false in
/-- The third linear kernel: entered from W7, left at W8; the same shape as the first. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre := At (W7 m)
  post := At (W8 m)
  X c := iprop(∃ r, prngReg c r)
  Y c := iprop(∃ r, prngReg c r)
  Z c := Pipeline.unscopedRest (Ix := Unit) (Name := ℕ) (U := UR sig nD τ) (Lvl := ℕ) spec2 c (V7 m c)
  hentry c := enter m 2 c launch2.win launch2.arr_whole (W7 m c) ((pdats m 2 c).share_full fun _ => rfl)
    (fun _ => rfl) rfl (fun _ => Or.inl trivial) rfl
  hin c := phiA_enter spec2 _
  hout c := phiA_leave spec2
  hexit c := leave m 2 c launch2.win launch2.arr_whole (W7 m c) (W8 m c) ((pdats m 2 c).share_full fun _ => rfl)
    (hF2 m c) (hrest2 m c) rfl

set_option backward.isDefEq.respectTransparency.types false in
/-- The min-pool kernel: entered from W9, left at W10.  Between its points it keeps the accumulator in a scratch buffer, so its invariant is its own; before the first point and after the last it is the plain one again (the scratch at anything, beside the other scoped buffers and the generator register), which is what the entry offers and the exit takes back. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre := At (W9 m)
  post := At (W10 m)
  X c := iprop(∃ r, prngReg c r)
  Y c := iprop(∃ r, prngReg c r)
  Z c := Pipeline.unscopedRest (Ix := Unit) (Name := ℕ) (U := UR sig nD τ) (Lvl := ℕ) spec3 c (V9 m c)
  hentry c := enter m 3 c launch3.win launch3.arr_whole (W9 m c) ((pdats m 3 c).share_full fun _ => rfl)
    (fun _ => rfl) rfl (fun _ => Or.inl trivial) rfl
  hin c := (phiA_enter spec3 _).trans (hin3 (V9 m) c)
  hout c := (hout3 (V9 m) c).trans (phiA_leave spec3)
  hexit c := leave m 3 c launch3.win launch3.arr_whole (W9 m c) (W10 m c) ((pdats m 3 c).share_full fun _ => rfl)
    (hF3 m c) (hrest3 m c) rfl

/-! ## The host stretches as segments, and @main as the list of its items -/

/-- A stretch of host operations, run from the valuation W: it touches unscoped buffers only and allocates none, so
    it takes `At W` to `At` of the valuation after its operations, R untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (fun op h => List.forall_iff_forall_mem.mp hfresh op h) W R

/-- The eleven items, each entered from the valuation the one before it leaves. -/
abbrev segs : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region (reg0 m),
    .host (stretch hostOps1 hostOps1_sub hostOps1_fresh (W4 m)),
    .region (reg1 m),
    .host (stretch hostOps2 hostOps2_sub hostOps2_fresh (W6 m)),
    .region (reg2 m),
    .host (stretch hostOps3 hostOps3_sub hostOps3_fresh (W8 m)),
    .region (reg3 m),
    .host (stretch hostOps4 hostOps4_sub hostOps4_fresh (W10 m)) ]

/-- @main is the run of these items: it is the chain of its items' programs, and the run of a list of segments is
    the chain of theirs — a stretch's is the sequence of its operations, a kernel's its call. -/
theorem main_run (c : Dev nD) : main (F := F) c = Pipeline.Seg.run (segs m) := by
  rw [Pipeline.Seg.run_eq_chain]
  exact main_chain c

/-! ## The run -/

/-- An unscoped TensorCore reference is one of those the state between items holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state between items with the record of owing nothing set apart: the form the launch theorem wants the last
    state in (a run that ended still owing would not have terminated). -/
theorem At_apart (W : Dev nD → Valuation τ sig (Elt F)) (c : Dev nD) :
    At W c ⊢ (iprop(iprop(StableHlo.held (c : Thread nD τ) (Pipeline.ucRefs τ sig) (W c) ∗ ∃ r, prngReg c r)
      ∗ ∃ Wt, owes (c : Thread nD τ) (0 : CellTallies nD τ sig Unit) Wt) : sProp 𝕄) := by
  iintro ⟨Hbufs, Hg, HO⟩
  isplitr [HO]
  · isplitl [Hbufs]
    · iexact Hbufs
    iexact Hg
  iexact HO

-- the launch theorem's implicit arguments are found by unifying its conclusion with the statement, which takes
-- unfolding plain definitions inside a metavariable's type
set_option backward.isDefEq.respectTransparency.types false in
/-- From any memory m with every semaphore counter at zero and any generator registers, every weakly fair execution
    of @main on the TensorCores terminates, nothing faulting, and in every final state each unscoped buffer of each
    core holds what the fold of the eleven items over m gives it.

    The launch deals each core its unscoped buffers at m, its record of owing nothing and its generator register:
    the first state `At W0`.  The items' states chain by the very definition of the fold.  The last state, the
    buffers at W11, is read against the final memory buffer by buffer. -/
theorem run (ρ : Dev nD → PrngReg) : θ_run defs (onTc (τ := τ) (main (F := F))) ⟨m, fun _ => 0, ρ⟩
      (fun r => ∀ c : Dev nD, ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost element is the pipelines' own, and no core asks for another resource
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      ihave Hu' := hown $$ Hu
      imodintro
      isplitl [Hu']
      · iexact Hu'
      iapply hnone
      iempintro)
    (T₀ := At (W0 m))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => At_apart (W11 m) c⟩)
    (hinit := by
      refine Pipeline.initEach L lv fun c => ?_
      rw [show unscopedBufs c (fun b => m ((c : Thread nD τ).loc b))
          = StableHlo.held (c : Thread nD τ) (Pipeline.ucRefs τ sig) (W0 m c) from Pipeline.unscopedBufs_held c (W0 m c)]
      -- of what the launch deals a core, the semaphores at zero, the launch credit and the (empty) ghost resource are dropped
      iintro ⟨⟨Hbufs, -, HO, -, Hg, -⟩, -⟩
      imodintro
      isplitl [Hbufs]
      · iexact Hbufs
      isplitl [Hg]
      · iexists (ρ c); iexact Hg
      iexists ∅
      iexact HO)
    (QY := fun c s => ∀ b ∈ Pipeline.ucRefs τ sig, s.mem ((c : Thread nD τ).1, b) = W11 m c b)
    (hfin := fun c s' => by
      iintro ⟨⟨Hbufs, -⟩, HSI⟩
      unfold StableHlo.held
      imodintro
      iapply (pointsTo_read_all (Pipeline.ucRefs τ sig) (fun b => ((c : Thread nD τ).1, b)) (W11 m c) s')
      isplitl [Hbufs]
      · iexact Hbufs
      iexact HSI)
    (hQ := fun s h c => h c)

/-! ## No item writes an argument

A stretch of host operations rewrites the references its operations name as results and no other; a kernel's launch
changes its output windows' arrays and no other buffer.  A reference that is none of these, at every item, holds at
the end what the launch memory held: each of @main's eight arguments is such a reference (the node features are
the first kernel's first window, an input). -/

/-- The references the first stretch (self-loops appended to the edge list, the degrees counted, their reciprocal square roots) writes, in order. -/
abbrev wr0 : List (Ref sig .tc) := [main_v0, main_v1, main_v2, main_v3, main_v4, main_v5, main_v6, main_cst, main_v7, main_c, main_v8, main_v9, main_c_0, main_v10, main_v11, main_v12, main_v13, main_cst_1, main_v14, main_v15, main_cst_2, main_v16, main_v17, main_v18, main_cst_3]
theorem wr0_covers : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the second stretch (the reciprocal square root kept where the degree is positive, zero elsewhere) writes, in order. -/
abbrev wr0_1 : List (Ref sig .tc) := [main_call0_v0, main_call0_v1, main_v19]
theorem wr0_1_covers : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the third stretch (the normalisation as a column, the three weights rounded to bf16, a zero bias row) writes, in order. -/
abbrev wr0_2 : List (Ref sig .tc) := [main_v20, main_v21, main_v22, main_v23, main_cst_4, main_v24, main_v25]
theorem wr0_2_covers : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the stretch after the first kernel writes, in order. -/
abbrev wr1 : List (Ref sig .tc) := [main_c_5, main_v27, main_v28, main_c_6, main_v29, main_v30, main_v31, main_v32, main_v33, main_cst_7, main_v34, main_v35, main_c_8, main_v36, main_v37, main_c_9, main_v38, main_v39, main_v40, main_v41, main_v42, main_v43]
theorem wr1_covers : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the stretch after the second kernel writes, in order. -/
abbrev wr2 : List (Ref sig .tc) := [main_c_10, main_v45, main_v46, main_c_11, main_v47, main_v48, main_v49, main_v50, main_v51, main_cst_12, main_v52, main_v53, main_c_13, main_v54, main_v55, main_c_14, main_v56, main_v57, main_v58, main_v59, main_v60, main_v61]
theorem wr2_covers : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the stretch after the third kernel writes, in order. -/
abbrev wr3 : List (Ref sig .tc) := [main_c_15, main_v63, main_v64, main_c_16, main_v65, main_v66, main_v67, main_v68, main_v69, main_cst_17, main_v70, main_v71, main_c_18, main_v72, main_v73, main_c_19, main_v74, main_v75, main_v76, main_v77, main_v78]
theorem wr3_covers : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the closing stretch writes, in order. -/
abbrev wr4 : List (Ref sig .tc) := [main_v80, main_v81]
theorem wr4_covers : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- Kernel 0 leaves a reference as it found it unless it is the array of one of its output windows: another
    window's array is an input, held where the pipeline found it; any other buffer is outside the launch. -/
theorem W4_keeps (c : Dev nD) (r : Ref sig .tc) (h : ∀ w, Pipeline.arrRef spec0 w = r → (cfg0.win w).isOut = false) :
    W4 m c (Proc.devRef .tc r) = W3 m c (Proc.devRef .tc r) := by
  by_cases hr : ∃ w, Pipeline.arrRef spec0 w = r
  · obtain ⟨w, rfl⟩ := hr
    exact (W4_arr m c w).trans (((dat0 (V3 m) c).arrAt_in w (h w rfl) _).trans (A_eq0 (V3 m) c w))
  · exact W4_of_ne m c r fun w e => hr ⟨w, e⟩

/-- Kernel 1 leaves a reference as it found it unless it is the array of one of its output windows: another
    window's array is an input, held where the pipeline found it; any other buffer is outside the launch. -/
theorem W6_keeps (c : Dev nD) (r : Ref sig .tc) (h : ∀ w, Pipeline.arrRef spec1 w = r → (cfg1.win w).isOut = false) :
    W6 m c (Proc.devRef .tc r) = W5 m c (Proc.devRef .tc r) := by
  by_cases hr : ∃ w, Pipeline.arrRef spec1 w = r
  · obtain ⟨w, rfl⟩ := hr
    exact (W6_arr m c w).trans (((dat1 (V5 m) c).arrAt_in w (h w rfl) _).trans (A_eq1 (V5 m) c w))
  · exact W6_of_ne m c r fun w e => hr ⟨w, e⟩

/-- Kernel 2 leaves a reference as it found it unless it is the array of one of its output windows: another
    window's array is an input, held where the pipeline found it; any other buffer is outside the launch. -/
theorem W8_keeps (c : Dev nD) (r : Ref sig .tc) (h : ∀ w, Pipeline.arrRef spec2 w = r → (cfg2.win w).isOut = false) :
    W8 m c (Proc.devRef .tc r) = W7 m c (Proc.devRef .tc r) := by
  by_cases hr : ∃ w, Pipeline.arrRef spec2 w = r
  · obtain ⟨w, rfl⟩ := hr
    exact (W8_arr m c w).trans (((dat2 (V7 m) c).arrAt_in w (h w rfl) _).trans (A_eq2 (V7 m) c w))
  · exact W8_of_ne m c r fun w e => hr ⟨w, e⟩

/-- Kernel 3 leaves a reference as it found it unless it is the array of one of its output windows: another
    window's array is an input, held where the pipeline found it; any other buffer is outside the launch. -/
theorem W10_keeps (c : Dev nD) (r : Ref sig .tc) (h : ∀ w, Pipeline.arrRef spec3 w = r → (cfg3.win w).isOut = false) :
    W10 m c (Proc.devRef .tc r) = W9 m c (Proc.devRef .tc r) := by
  by_cases hr : ∃ w, Pipeline.arrRef spec3 w = r
  · obtain ⟨w, rfl⟩ := hr
    exact (W10_arr m c w).trans (((dat3 (V9 m) c).arrAt_in w (h w rfl) _).trans (A_eq3 (V9 m) c w))
  · exact W10_of_ne m c r fun w e => hr ⟨w, e⟩

/-- The walk back through the eleven items. -/
theorem W11_of_kept (c : Dev nD) (r : Ref sig .tc) (h0 : r ∉ wr0) (h0_1 : r ∉ wr0_1) (h0_2 : r ∉ wr0_2)
    (k0 : ∀ w, Pipeline.arrRef spec0 w = r → (cfg0.win w).isOut = false) (h1 : r ∉ wr1)
    (k1 : ∀ w, Pipeline.arrRef spec1 w = r → (cfg1.win w).isOut = false) (h2 : r ∉ wr2)
    (k2 : ∀ w, Pipeline.arrRef spec2 w = r → (cfg2.win w).isOut = false) (h3 : r ∉ wr3)
    (k3 : ∀ w, Pipeline.arrRef spec3 w = r → (cfg3.win w).isOut = false) (h4 : r ∉ wr4) :
    W11 m c (Proc.devRef .tc r) = m ((c : Thread nD τ).loc r) :=
  calc W11 m c (Proc.devRef .tc r)
    _ = W10 m c (Proc.devRef .tc r) := StableHlo.after_of_writes_sub hostOps4 _ wr4_covers h4
    _ = W9 m c (Proc.devRef .tc r) := W10_keeps m c r k3
    _ = W8 m c (Proc.devRef .tc r) := StableHlo.after_of_writes_sub hostOps3 _ wr3_covers h3
    _ = W7 m c (Proc.devRef .tc r) := W8_keeps m c r k2
    _ = W6 m c (Proc.devRef .tc r) := StableHlo.after_of_writes_sub hostOps2 _ wr2_covers h2
    _ = W5 m c (Proc.devRef .tc r) := W6_keeps m c r k1
    _ = W4 m c (Proc.devRef .tc r) := StableHlo.after_of_writes_sub hostOps1 _ wr1_covers h1
    _ = W3 m c (Proc.devRef .tc r) := W4_keeps m c r k0
    _ = W2 m c (Proc.devRef .tc r) := StableHlo.after_of_writes_sub hostOps0_2 _ wr0_2_covers h0_2
    _ = W1 m c (Proc.devRef .tc r) := StableHlo.after_of_writes_sub hostOps0_1 _ wr0_1_covers h0_1
    _ = W0 m c (Proc.devRef .tc r) := StableHlo.after_of_writes_sub hostOps0 _ wr0_covers h0
    _ = m ((c : Thread nD τ).loc r) := rfl

theorem W11_main_arg0 (c : Dev nD) : W11 m c (Proc.devRef .tc main_arg0) = m ((c : Thread nD τ).loc main_arg0) :=
  W11_of_kept m c main_arg0 (by decide) (by decide) (by decide) (by decide) (by decide) (by decide) (by decide) (by decide)
    (by decide) (by decide) (by decide)

theorem W11_main_arg1 (c : Dev nD) : W11 m c (Proc.devRef .tc main_arg1) = m ((c : Thread nD τ).loc main_arg1) :=
  W11_of_kept m c main_arg1 (by decide) (by decide) (by decide) (by decide) (by decide) (by decide) (by decide) (by decide)
    (by decide) (by decide) (by decide)

theorem W11_main_arg2 (c : Dev nD) : W11 m c (Proc.devRef .tc main_arg2) = m ((c : Thread nD τ).loc main_arg2) :=
  W11_of_kept m c main_arg2 (by decide) (by decide) (by decide) (by decide) (by decide) (by decide) (by decide) (by decide)
    (by decide) (by decide) (by decide)

theorem W11_main_arg3 (c : Dev nD) : W11 m c (Proc.devRef .tc main_arg3) = m ((c : Thread nD τ).loc main_arg3) :=
  W11_of_kept m c main_arg3 (by decide) (by decide) (by decide) (by decide) (by decide) (by decide) (by decide) (by decide)
    (by decide) (by decide) (by decide)

theorem W11_main_arg4 (c : Dev nD) : W11 m c (Proc.devRef .tc main_arg4) = m ((c : Thread nD τ).loc main_arg4) :=
  W11_of_kept m c main_arg4 (by decide) (by decide) (by decide) (by decide) (by decide) (by decide) (by decide) (by decide)
    (by decide) (by decide) (by decide)

theorem W11_main_arg5 (c : Dev nD) : W11 m c (Proc.devRef .tc main_arg5) = m ((c : Thread nD τ).loc main_arg5) :=
  W11_of_kept m c main_arg5 (by decide) (by decide) (by decide) (by decide) (by decide) (by decide) (by decide) (by decide)
    (by decide) (by decide) (by decide)

theorem W11_main_arg6 (c : Dev nD) : W11 m c (Proc.devRef .tc main_arg6) = m ((c : Thread nD τ).loc main_arg6) :=
  W11_of_kept m c main_arg6 (by decide) (by decide) (by decide) (by decide) (by decide) (by decide) (by decide) (by decide)
    (by decide) (by decide) (by decide)

theorem W11_main_arg7 (c : Dev nD) : W11 m c (Proc.devRef .tc main_arg7) = m ((c : Thread nD τ).loc main_arg7) :=
  W11_of_kept m c main_arg7 (by decide) (by decide) (by decide) (by decide) (by decide) (by decide) (by decide) (by decide)
    (by decide) (by decide) (by decide)

end Cert.Kernel.Hand

end
-- ==== Proof.KI.Lin0.lean ====
/-
  The first fused linear layer's kernel, one grid point at a time.  The grid has 20 points; point t works on rows
  5000·t … 5000·t+4999 of the node features x (a 5000×128 block), the matching 5000×1 block of the degree
  normalisation d, the bias row (unused by this layer) and the whole 128×128 weight W, and writes the 5000×128 block
  (x_blk · W) ∘ d of the output, d broadcast along the row.  Stated at an arbitrary contents V of the core's buffers at
  the moment the kernel is entered: what each window's staging buffer holds before and after the body, the body's
  Hoare triple, and the per-point obligation the pipelined launch asks for.
-/
import proofs.«132209_j48962627175096_2_alg».proof.Proof.Gen.KernelIdeal.Launch
import proofs.«132209_j48962627175096_2_alg».proof.Proof.Gen.KernelIdeal.Skeleton
import proofs.«132209_j48962627175096_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, cut out of its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index did not move). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev rX0 : Rect S5000x128 := Rect.unit (s := S5000x128) ![0, 0] S5000x128.size inb_S5000x128_S5000x128_0_0
abbrev rD0 : Rect S5000x1 := Rect.unit (s := S5000x1) ![0, 0] S5000x1.size inb_S5000x1_S5000x1_0_0
abbrev rW0 : Rect S128x128 := Rect.unit (s := S128x128) ![0, 0] S128x128.size inb_S128x128_S128x128_0_0
abbrev rO0 : Rect S5000x128 := Rect.unit (s := S5000x128) ![0, 0] S5000x128.size inb_S5000x128_S5000x128_0_0

/-- The output block the body leaves: its one store, of the product (x_blk · W) ∘ d, over the whole buffer. -/
def out0_4 (x0 : Vec F S5000x128 .f32) (x1 : Vec F S5000x1 .f32) (x3 : Vec F S128x128 .bf16) : Vec F S5000x128 .bf16 :=
  View.canon [⟨rO0, k0_pay1 (View.ld x0 rX0) (View.ld x1 rD0) (View.ld x3 rW0)⟩]

/-- The one store covers the buffer. -/
theorem cover0_4 (p0 : Vec F S5000x128 .bf16) (y : S5000x128.Idx) :
    ∃ pc ∈ ([⟨rO0, p0⟩] : List (View.Piece (Elt F) S5000x128 .bf16)), y ∈ pc.1.set :=
  View.cover_of_tiled [⟨rO0, p0⟩] S5000x128.size (by rfl) y

/-! ## The body's triple -/

set_option maxHeartbeats 1000000 in
/-- On whole staging buffers, the four inputs at contents x0 … x3 and the output at anything, the body runs to its end
    leaving the inputs as they were and the output at `out0_4 x0 x1 x3`. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S5000x128 .bf16) (harg5 : arg5.IsWhole)
    (x0 : Vec F S5000x128 .f32) (x1 : Vec F S5000x1 .f32) (x2 : Vec F S1x128 .f32) (x3 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x3)) -∗ K ⟨⟩))
      ⊢ wp frame (wpE (defs₀ (F := F)) Variants.none c none) E (cc0__fused_linear_kernel i arg1 harg1 arg2 harg2 arg3 harg3 arg4 harg4 arg5 harg5) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The launch's proof data -/

/-- Per core: the arrays as the kernel finds them; after the body at point t each input buffer still at its block and
    the output buffer at `out0_4` of the input blocks; beside them only what the kernel never touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The per-point obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin1.lean ====
/-
  The second fused linear layer's kernel, one grid point at a time.  Point t of the 20 works on rows 5000·t … 5000·t+4999:
  from the 5000×128 block a of the aggregated messages, the 5000×1 block d of the degree normalisation, the 1×128 bias
  row b and the whole 128×128 weight W it writes the 5000×128 block (max(d ∘ a + b, 0) · W) ∘ d of the output (d broadcast
  along the row, b down the column).  Stated at an arbitrary contents V of the core's buffers at the moment the kernel
  is entered: what each window's staging buffer holds before and after the body, the body's Hoare triple, and the
  per-point obligation the pipelined launch asks for.
-/
import proofs.«132209_j48962627175096_2_alg».proof.Proof.Gen.KernelIdeal.Launch
import proofs.«132209_j48962627175096_2_alg».proof.Proof.Gen.KernelIdeal.Skeleton
import proofs.«132209_j48962627175096_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, cut out of its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    kept it from the point before (its block index did not move). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rX1 : Rect S5000x128 := Rect.unit (s := S5000x128) ![0, 0] S5000x128.size inb_S5000x128_S5000x128_0_0
abbrev rD1 : Rect S5000x1 := Rect.unit (s := S5000x1) ![0, 0] S5000x1.size inb_S5000x1_S5000x1_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0
abbrev rO1 : Rect S5000x128 := Rect.unit (s := S5000x128) ![0, 0] S5000x128.size inb_S5000x128_S5000x128_0_0

/-- The output block the body leaves: its one store, of (max(d ∘ a + b, 0) · W) ∘ d, over the whole buffer. -/
def out1_4 (x0 : Vec F S5000x128 .f32) (x1 : Vec F S5000x1 .f32) (x2 : Vec F S1x128 .f32) (x3 : Vec F S128x128 .bf16) : Vec F S5000x128 .bf16 :=
  View.canon [⟨rO1, k1_pay1 (View.ld x0 rX1) (View.ld x1 rD1) (View.ld x2 rB1) (View.ld x3 rW1)⟩]

/-- The one store covers the buffer. -/
theorem cover1_4 (p0 : Vec F S5000x128 .bf16) (y : S5000x128.Idx) :
    ∃ pc ∈ ([⟨rO1, p0⟩] : List (View.Piece (Elt F) S5000x128 .bf16)), y ∈ pc.1.set :=
  View.cover_of_tiled [⟨rO1, p0⟩] S5000x128.size (by rfl) y

/-! ## The body's triple -/

set_option maxHeartbeats 1000000 in
/-- On whole staging buffers, the four inputs at contents x0 … x3 and the output at anything, the body runs to its end
    leaving the inputs as they were and the output at `out1_4 x0 x1 x2 x3`. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S5000x128 .bf16) (harg5 : arg5.IsWhole)
    (x0 : Vec F S5000x128 .f32) (x1 : Vec F S5000x1 .f32) (x2 : Vec F S1x128 .f32) (x3 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fused_linear_kernel i arg1 harg1 arg2 harg2 arg3 harg3 arg4 harg4 arg5 harg5) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The launch's proof data -/

/-- Per core: the arrays as the kernel finds them; after the body at point t each input buffer still at its block and
    the output buffer at `out1_4` of the input blocks; beside them only what the kernel never touches. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The per-point obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2.lean ====
/-
  The third fused linear layer's kernel, one grid point at a time.  Point t of the 20 works on rows 5000·t … 5000·t+4999:
  from the 5000×128 block a of the aggregated messages, the 5000×1 block d of the degree normalisation, the 1×128 bias
  row b and the whole 128×64 weight W it writes the 5000×64 block (max(d ∘ a + b, 0) · W) ∘ d of the output (d broadcast
  along the row, b down the column).  Stated at an arbitrary contents V of the core's buffers at the moment the kernel
  is entered: what each window's staging buffer holds before and after the body, the body's Hoare triple, and the
  per-point obligation the pipelined launch asks for.
-/
import proofs.«132209_j48962627175096_2_alg».proof.Proof.Gen.KernelIdeal.Launch
import proofs.«132209_j48962627175096_2_alg».proof.Proof.Gen.KernelIdeal.Skeleton
import proofs.«132209_j48962627175096_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, cut out of its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the pipeline fetched it there or
    kept it from the point before (its block index did not move). One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev rX2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rB2 : Rect S1x128 := Rect.unit (s := S1x128) ![0, 0] S1x128.size inb_S1x128_S1x128_0_0
abbrev rW2 : Rect S128x64 := Rect.unit (s := S128x64) ![0, 0] S128x64.size inb_S128x64_S128x64_0_0
abbrev rO2 : Rect S5000x64 := Rect.unit (s := S5000x64) ![0, 0] S5000x64.size inb_S5000x64_S5000x64_0_0

/-- The output block the body leaves: its one store, of (max(d ∘ a + b, 0) · W) ∘ d, over the whole buffer. -/
def out2_4 (x0 : Vec F S5000x128 .f32) (x1 : Vec F S5000x1 .f32) (x2 : Vec F S1x128 .f32) (x3 : Vec F S128x64 .bf16) : Vec F S5000x64 .bf16 :=
  View.canon [⟨rO2, k2_pay1 (View.ld x0 rX2) (View.ld x1 rD2) (View.ld x2 rB2) (View.ld x3 rW2)⟩]

/-- The one store covers the buffer. -/
theorem cover2_4 (p0 : Vec F S5000x64 .bf16) (y : S5000x64.Idx) :
    ∃ pc ∈ ([⟨rO2, p0⟩] : List (View.Piece (Elt F) S5000x64 .bf16)), y ∈ pc.1.set :=
  View.cover_of_tiled [⟨rO2, p0⟩] S5000x64.size (by rfl) y

/-! ## The body's triple -/

set_option maxHeartbeats 1000000 in
/-- On whole staging buffers, the four inputs at contents x0 … x3 and the output at anything, the body runs to its end
    leaving the inputs as they were and the output at `out2_4 x0 x1 x2 x3`. -/
theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x64 .bf16) (harg4 : arg4.IsWhole)
    (arg5 : Memref sig .tc .vmem S5000x64 .bf16) (harg5 : arg5.IsWhole)
    (x0 : Vec F S5000x128 .f32) (x1 : Vec F S5000x1 .f32) (x2 : Vec F S1x128 .f32) (x3 : Vec F S128x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__fused_linear_kernel i arg1 harg1 arg2 harg2 arg3 harg3 arg4 harg4 arg5 harg5) K := by
  simp only [cc2__fused_linear_kernel_eq_skeleton]; unfold cc2__fused_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The launch's proof data -/

/-- Per core: the arrays as the kernel finds them; after the body at point t each input buffer still at its block and
    the output buffer at `out2_4` of the input blocks; beside them only what the kernel never touches. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The per-point obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Pool.lean ====
/-
  The min-pool kernel, one grid point at a time.  Point t of the 20 takes the 5000×64 block a of the last layer's
  aggregate and the 5000×1 block d of the degree normalisation and folds the column minima of a ∘ d (d broadcast along
  the row) into a 1×64 accumulator that lives in a scratch buffer across the points: the first point resets the
  accumulator to +∞ before folding, every point replaces it by min(accumulator, column minima of this block), and the
  last point copies it into the 1×64 output block, the only point at which the output window is written back.
  Stated at an arbitrary contents V of the core's buffers when the kernel is entered.
-/
import proofs.«132209_j48962627175096_2_alg».proof.Proof.Gen.KernelIdeal.Launch
import proofs.«132209_j48962627175096_2_alg».proof.Proof.Gen.KernelIdeal.Skeleton
import proofs.«132209_j48962627175096_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and the accumulator -/

/-- Window w's block at point t, cut out of its array as the kernel finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S5000x64 := Rect.unit (s := S5000x64) ![0, 0] S5000x64.size inb_S5000x64_S5000x64_0_0
abbrev rD3 : Rect S5000x1 := Rect.unit (s := S5000x1) ![0, 0] S5000x1.size inb_S5000x1_S5000x1_0_0
abbrev rS3 : Rect S1x64 := Rect.unit (s := S1x64) ![0, 0] S1x64.size inb_S1x64_S1x64_0_0

/-- The accumulator as the first point's reset leaves it: +∞ in every lane. -/
def accInit : Vec F S1x64 .f32 := View.canon [⟨rS3, k3_pay1 (F := F)⟩]

/-- One point's fold: the accumulator s replaced by min(s, column minima of a ∘ d). -/
def accStep (a : Vec F S5000x64 .f32) (d : Vec F S5000x1 .f32) (s : Vec F S1x64 .f32) : Vec F S1x64 .f32 :=
  View.canon [⟨rS3, k3_pay2 (View.ld a rA3) (View.ld d rD3) (View.ld s rS3)⟩]

/-- The accumulator after point n: the fold of the blocks 0 … n from +∞. -/
def acc3 (c : Dev nD) : (n : ℕ) → n < cfg3.N → Vec F S1x64 .f32
  | 0, h => accStep (iblk3 V c 0 ⟨0, h⟩) (iblk3 V c 1 ⟨0, h⟩) accInit
  | n + 1, h => accStep (iblk3 V c 0 ⟨n + 1, h⟩) (iblk3 V c 1 ⟨n + 1, h⟩) (acc3 c n (Nat.lt_of_succ_lt h))

/-- What the last point stores into the output block: the accumulator read back. -/
def out3 (s : Vec F S1x64 .f32) : Vec F S1x64 .f32 := View.canon [⟨rS3, View.ld s rS3⟩]

/-! ## The invariant between points: the scratch holds the accumulator -/

/-- Before point t: the scratch buffer whole at the accumulator the points before left (at anything before the first
    point), beside the rest of the core's scoped buffers and its generator register, none of which the kernel touches. -/
def scratchAt (c : Dev nD) (t : Fin (cfg3.N + 1)) : sProp 𝕄 :=
  if h : t.val = 0 then iprop(∃ s : Vec F S1x64 .f32, owns (c : Thread nD τ) (Memref.whole cc3_scratch0) fullShare s)
  else owns (c : Thread nD τ) (Memref.whole cc3_scratch0) fullShare (acc3 V c (t.val - 1) (by have := t.isLt; omega))

def Phi3 (c : Dev nD) (t : Fin (cfg3.N + 1)) : sProp 𝕄 :=
  iprop(scratchAt V c t
    ∗ Pipeline.scopedRestBut (Ix := Unit) (Name := ℕ) (U := UR sig nD τ) (Lvl := ℕ) (Val := Elt F) spec3 c [cc3_scratch0]
    ∗ ∃ r, prngReg c r)

/-! ## The body's accesses -/

/-- One store through the whole 1×64 buffer covers it. -/
theorem cover3_1 (p0 : Vec F S1x64 .f32) (y : S1x64.Idx) :
    ∃ pc ∈ ([⟨rS3, p0⟩] : List (View.Piece (Elt F) S1x64 .f32)), y ∈ pc.1.set :=
  View.cover_of_tiled [⟨rS3, p0⟩] S1x64.size (by rfl) y

theorem hz3 : (![0, 0] : Fin S1x64.rank → Nat) = fun _ => 0 := by funext a; fin_cases a <;> rfl

/-- A last store through the whole 1×64 buffer covers it, whatever came before. -/
theorem cover3_cons (p0 : Vec F S1x64 .f32) (L : List (View.Piece (Elt F) S1x64 .f32)) (y : S1x64.Idx) :
    ∃ pc ∈ ((⟨rS3, p0⟩ : View.Piece (Elt F) S1x64 .f32) :: L), y ∈ pc.1.set :=
  ⟨_, List.mem_cons_self, View.mem_set_unit_zero hz3 inb_S1x64_S1x64_0_0 y⟩

abbrev condFirst3 (i : grid3.Coords) : Prop :=
  Scalar.cmpi .ne (Scalar.extui (Scalar.cmpi .eq (BitVec.ofNat 32 (i 0).val) 0#32)) 0#32 = 1#1

set_option maxHeartbeats 1000000 in
/-- A point that is neither the first nor the last: the accumulator is folded once, nothing else changes. -/
theorem sound_kernel3_mid (c : Dev nD) (E : Set ℕ) (i : grid3.Coords) (hfirst : ¬ condFirst3 i) (hlast : ¬ k3_cond2 i = 1#1)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (a : Vec F S5000x64 .f32) (d : Vec F S5000x1 .f32) (o : Vec F S1x64 .f32) (s : Vec F S1x64 .f32) (K : PUnit → sProp 𝕄) :
    iprop(owns (c : Thread nD τ) arg1 fullShare a ∗ owns (c : Thread nD τ) arg2 fullShare d ∗ owns (c : Thread nD τ) arg3 fullShare o
        ∗ owns (c : Thread nD τ) arg4 fullShare s
        ∗ (iprop(owns (c : Thread nD τ) arg1 fullShare a ∗ owns (c : Thread nD τ) arg2 fullShare d ∗ owns (c : Thread nD τ) arg3 fullShare o
            ∗ owns (c : Thread nD τ) arg4 fullShare (accStep a d s)) -∗ K ⟨⟩))
      ⊢ wp frame (wpE (defs₀ (F := F)) Variants.none c none) E (cc3__minpool_kernel i arg1 harg1 arg2 harg2 arg3 harg3 arg4 harg4) K := by
  simp only [cc3__minpool_kernel_eq_skeleton]; unfold cc3__minpool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_1 _)

set_option maxHeartbeats 1000000 in
/-- The first point: the accumulator, whatever it held, is reset to +∞ and folded once. -/
theorem sound_kernel3_first (c : Dev nD) (E : Set ℕ) (i : grid3.Coords) (hfirst : condFirst3 i) (hlast : ¬ k3_cond2 i = 1#1)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (a : Vec F S5000x64 .f32) (d : Vec F S5000x1 .f32) (o : Vec F S1x64 .f32) (K : PUnit → sProp 𝕄) :
    iprop(owns (c : Thread nD τ) arg1 fullShare a ∗ owns (c : Thread nD τ) arg2 fullShare d ∗ owns (c : Thread nD τ) arg3 fullShare o
        ∗ (∃ s, owns (c : Thread nD τ) arg4 fullShare s)
        ∗ (iprop(owns (c : Thread nD τ) arg1 fullShare a ∗ owns (c : Thread nD τ) arg2 fullShare d ∗ owns (c : Thread nD τ) arg3 fullShare o
            ∗ owns (c : Thread nD τ) arg4 fullShare (accStep a d accInit)) -∗ K ⟨⟩))
      ⊢ wp frame (wpE (defs₀ (F := F)) Variants.none c none) E (cc3__minpool_kernel i arg1 harg1 arg2 harg2 arg3 harg3 arg4 harg4) K := by
  simp only [cc3__minpool_kernel_eq_skeleton]; unfold cc3__minpool_kernel_skel
  unfold owns
  iintro ⟨⟨%f0, %hf0, H0⟩, ⟨%f1, %hf1, H1⟩, ⟨%f2, %hf2, H2⟩, ⟨%s3, %f3, -, H3⟩, Hk⟩
  subst hf0; subst hf1; subst hf2
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3_cons _ _)]
  unfold accStep accInit
  simp only [View.canon_cons_unit_zero (S := S1x64) hz3, View.readCov_unit_zero (S := S1x64) _ hz3, View.ld_unit_zero (S := S1x64) hz3,
    View.readAt_eq_ld]

set_option maxHeartbeats 1000000 in
/-- The last point: the accumulator is folded once and copied into the output block. -/
theorem sound_kernel3_last (c : Dev nD) (E : Set ℕ) (i : grid3.Coords) (hfirst : ¬ condFirst3 i) (hlast : k3_cond2 i = 1#1)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (a : Vec F S5000x64 .f32) (d : Vec F S5000x1 .f32) (s : Vec F S1x64 .f32) (K : PUnit → sProp 𝕄) :
    iprop(owns (c : Thread nD τ) arg1 fullShare a ∗ owns (c : Thread nD τ) arg2 fullShare d ∗ (∃ o, owns (c : Thread nD τ) arg3 fullShare o)
        ∗ owns (c : Thread nD τ) arg4 fullShare s
        ∗ (iprop(owns (c : Thread nD τ) arg1 fullShare a ∗ owns (c : Thread nD τ) arg2 fullShare d
            ∗ owns (c : Thread nD τ) arg3 fullShare (out3 (accStep a d s))
            ∗ owns (c : Thread nD τ) arg4 fullShare (accStep a d s)) -∗ K ⟨⟩))
      ⊢ wp frame (wpE (defs₀ (F := F)) Variants.none c none) E (cc3__minpool_kernel i arg1 harg1 arg2 harg2 arg3 harg3 arg4 harg4) K := by
  simp only [cc3__minpool_kernel_eq_skeleton]; unfold cc3__minpool_kernel_skel
  unfold owns
  iintro ⟨⟨%f0, %hf0, H0⟩, ⟨%f1, %hf1, H1⟩, ⟨%o2, %f2, -, H2⟩, ⟨%f3, %hf3, H3⟩, Hk⟩
  subst hf0; subst hf1; subst hf3
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3_cons _ _)]
    unfold out3 accStep
    simp only [View.canon_cons_unit_zero (S := S1x64) hz3, View.readCov_unit_zero (S := S1x64) _ hz3, View.ld_unit_zero (S := S1x64) hz3,
      View.readAt_eq_ld]
  iexists _; isplitr
  swap; · iexact H3
  ipureintro
  exact View.read_writes_eq_canon _ _ _ (cover3_1 _)

theorem scratchAt_zero (c : Dev nD) (t : Fin (cfg3.N + 1)) (h : t.val = 0) :
    scratchAt V c t = iprop(∃ s : Vec F S1x64 .f32, owns (c : Thread nD τ) (Memref.whole cc3_scratch0) fullShare s) := by
  unfold scratchAt; rw [dif_pos h]

theorem scratchAt_pos (c : Dev nD) (t : Fin (cfg3.N + 1)) (h : t.val ≠ 0) :
    scratchAt V c t = owns (c : Thread nD τ) (Memref.whole cc3_scratch0) fullShare
      (acc3 V c (t.val - 1) (by have := t.isLt; omega)) := by
  unfold scratchAt; rw [dif_neg h]

/-! ## The launch's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (acc3 V c t.val t.isLt)
  Φ t := Phi3 V c t
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (acc3 V c t.val t.isLt) := by dsimp only [dat3]

/-! ## What the input windows' staging buffers hold when the body runs -/

/-- An input window's staging buffer holds the window's block at every point, whether the pipeline fetched it there or
    kept it from the point before. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The branch conditions and the idle points, over the 20 points -/

/-- The reset is taken at the first point only. -/
theorem hcondF3 : ∀ t : Fin cfg3.N, condFirst3 (grid3.coords t) ↔ t.val % 20 = 0 :=
  (by decide +kernel : ∀ t : Fin grid3.N, condFirst3 (grid3.coords t) ↔ t.val % 20 = 0)
/-- The copy into the output block is taken at the last point only. -/
theorem hcondL3 : ∀ t : Fin cfg3.N, k3_cond2 (grid3.coords t) = 1#1 ↔ t.val % 20 = 19 :=
  (by decide +kernel : ∀ t : Fin grid3.N, k3_cond2 (grid3.coords t) = 1#1 ↔ t.val % 20 = 19)
/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- The output window is idle, and not written back, at every point but the last. -/
theorem idleAt3_2 : ∀ t : Fin cfg3.N, ¬ t.val % 20 = 19 → cfg3.idle 2 (grid3.coords t) = true :=
  (by decide +kernel : ∀ t : Fin grid3.N, ¬ t.val % 20 = 19 → cfg3.idle 2 (grid3.coords t) = true)
theorem liveAt3_2 : ∀ t : Fin cfg3.N, t.val % 20 = 19 → cfg3.idle 2 (grid3.coords t) = false :=
  (by decide +kernel : ∀ t : Fin grid3.N, t.val % 20 = 19 → cfg3.idle 2 (grid3.coords t) = false)
theorem noFlush3_2 : ∀ t : Fin cfg3.N, ¬ t.val % 20 = 19 → (cfg3.win 2).flush t = false :=
  (by decide +kernel : ∀ t : Fin grid3.N, ¬ t.val % 20 = 19 → win3_2.flush t = false)

/-! ## The accumulator, point by point -/

theorem acc3_zero (c : Dev nD) (t : Fin cfg3.N) (h : t.val = 0) :
    acc3 V c t.val t.isLt = accStep (iblk3 V c 0 t) (iblk3 V c 1 t) accInit := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt
      = accStep (iblk3 V c 0 t) (iblk3 V c 1 t) (acc3 V c (t.val - 1) (Nat.lt_of_le_of_lt (Nat.sub_le _ _) t.isLt)) := by
  obtain ⟨n, hn⟩ := t
  cases n with
  | zero => exact absurd rfl h
  | succ n => rfl

/-- After point t the scratch holds the accumulator after t. -/
theorem scratchAt_succ (c : Dev nD) (t : Fin cfg3.N) :
    scratchAt V c t.succ = owns (c : Thread nD τ) (Memref.whole cc3_scratch0) fullShare (acc3 V c t.val t.isLt) := by
  rw [scratchAt_pos V c t.succ (Nat.succ_ne_zero _)]; rfl

/-- Before a point that is not the first it holds the accumulator after the point before. -/
theorem scratchAt_castSucc_pos (c : Dev nD) (t : Fin cfg3.N) (h : t.val ≠ 0) :
    scratchAt V c t.castSucc = owns (c : Thread nD τ) (Memref.whole cc3_scratch0) fullShare
      (acc3 V c (t.val - 1) (Nat.lt_of_le_of_lt (Nat.sub_le _ _) t.isLt)) := by
  rw [scratchAt_pos V c t.castSucc h]; rfl

/-! ## The per-point obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 1000000 in
/-- The body at any point. The input buffers hold their blocks; the point is the first, the last or neither (20 points),
    and that case's triple applies: the invariant hands it the scratch at the accumulator the point before left (at
    anything at the first point) and takes it back at this point's; the output buffer is handed back as it was found
    except at the last point, where it holds the accumulator read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  have hΦs : (dat3 V c).Φ t.succ = Phi3 V c t.succ := by dsimp only [dat3]
  have hΦc : (dat3 V c).Φ t.castSucc = Phi3 V c t.castSucc := by dsimp only [dat3]
  rw [show (dat3 V c).owesAt () t.succ = (dat3 V c).owesAt () t.castSucc from rfl, hΦs, hΦc]
  unfold Phi3
  rw [scratchAt_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have hL : ¬ t.val % 20 = 19 := by omega
    rw [Dat.leavesExact_idle (dat3 V c) 2 t (idleAt3_2 t hL) (noFlush3_2 t hL)]
    rw [scratchAt_zero V c t.castSucc h0, acc3_zero V c t h0]
    iintro ⟨⟨HS, Hr, Hg⟩, Ho, ⟨%d0, H0⟩, ⟨%d1, H1⟩, ⟨%d2, H2⟩⟩
    iapply (sound_kernel3_first c Set.univ (grid3.coords t) ((hcondF3 t).mpr (by omega)) (fun h => hL ((hcondL3 t).mp h))
      _ _ _ _ _ _ _ _ (iblk3 V c 0 t) (iblk3 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · by_cases h19 : t.val = 19
    · have hL : t.val % 20 = 19 := by omega
      rw [show (dat3 V c).leavesExact 2 t = owns (c : Thread nD τ) (st3_2 t) fullShare ((dat3 V c).after 2 t) from by
        unfold Dat.leavesExact; rw [liveAt3_2 t hL], after3_2]
      rw [scratchAt_castSucc_pos V c t h0, acc3_pos V c t h0]
      iintro ⟨⟨HS, Hr, Hg⟩, Ho, ⟨%d0, H0⟩, ⟨%d1, H1⟩, ⟨%d2, H2⟩⟩
      iapply (sound_kernel3_last c Set.univ (grid3.coords t) (fun h => absurd ((hcondF3 t).mp h) (by omega)) ((hcondL3 t).mpr hL)
        _ _ _ _ _ _ _ _ (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hL : ¬ t.val % 20 = 19 := by omega
      rw [Dat.leavesExact_idle (dat3 V c) 2 t (idleAt3_2 t hL) (noFlush3_2 t hL)]
      rw [scratchAt_castSucc_pos V c t h0, acc3_pos V c t h0]
      iintro ⟨⟨HS, Hr, Hg⟩, Ho, ⟨%d0, H0⟩, ⟨%d1, H1⟩, ⟨%d2, H2⟩⟩
      iapply (sound_kernel3_mid c Set.univ (grid3.coords t) (fun h => absurd ((hcondF3 t).mp h) (by omega)) (fun h => hL ((hcondL3 t).mp h))
        _ _ _ _ _ _ _ _ (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The per-point obligation of the pipelined launch. -/
theorem body_obligation3 (c : Dev nD) : BodyObligation (dat3 (F := F) V c) (defs₀ (F := F)) Variants.none () Set.univ := fun t => by
  rw [bigSep_W3, bigSep_W3]
  exact sound_body3 V c t

/-- Entering: what the launch hands the kernel beside its windows gives the invariant before the first point. -/
theorem hin3 (c : Dev nD) : Pipeline.ΦA spec3 c ⊢ (dat3 V c).Φ 0 := by
  have hΦ : (dat3 V c).Φ 0 = Phi3 V c 0 := by dsimp only [dat3]
  rw [hΦ]
  unfold Phi3 Pipeline.ΦA
  rw [scratchAt_zero V c 0 rfl, scopedRest3_split]
  simp only [owns_whole]
  iintro ⟨⟨⟨%f, Hs⟩, Hr⟩, Hg⟩
  isplitl [Hs]
  · iexists f; iexact Hs
  isplitl [Hr]
  · iexact Hr
  iexact Hg

/-- Leaving: the invariant after the last point gives it back. -/
theorem hout3 (c : Dev nD) : (dat3 V c).Φ (Fin.last cfg3.N) ⊢ Pipeline.ΦA spec3 c := by
  have hΦ : (dat3 V c).Φ (Fin.last cfg3.N) = Phi3 V c (Fin.last cfg3.N) := by dsimp only [dat3]
  have hN : (Fin.last cfg3.N).val ≠ 0 := by rw [Fin.val_last]; have : cfg3.N = 20 := N_3; omega
  rw [hΦ]
  unfold Phi3 Pipeline.ΦA
  rw [scratchAt_pos V c _ hN, scopedRest3_split]
  simp only [owns_whole]
  iintro ⟨Hs, Hr, Hg⟩
  isplitl [Hs Hr]
  · isplitl [Hs]
    · iexists _; iexact Hs
    iexact Hr
  iexact Hg

end Cert.KernelIdeal.Hand

end
-- ==== Proof.KI.Vals.lean ====
/-
  The contents of the core's buffers at each boundary between two items of the program: the launch memory, then each
  stretch of host operations applied to what came before, then each kernel's arrays replaced by what its pipelined
  launch leaves in them (every other buffer as it was).  Twelve boundaries: three host stretches, the first linear
  kernel, a host stretch (gather and scatter-add of the messages), the second linear kernel, a host stretch, the third
  linear kernel, a host stretch, the min-pool kernel, and the closing host stretch (the bias added to the pooled row).
-/
import proofs.«132209_j48962627175096_2_alg».proof.Proof.Gen.KernelIdeal.Launch
import proofs.«132209_j48962627175096_2_alg».proof.Proof.Gen.KernelIdeal.Skeleton
import proofs.«132209_j48962627175096_2_alg».proof.Proof.Gen.KernelIdeal.Points
import proofs.«132209_j48962627175096_2_alg».proof.Proof.KI.Lin0
import proofs.«132209_j48962627175096_2_alg».proof.Proof.KI.Lin1
import proofs.«132209_j48962627175096_2_alg».proof.Proof.KI.Lin2
import proofs.«132209_j48962627175096_2_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core c's buffers at launch. -/
abbrev W0 : Dev nD → Valuation τ sig (Elt F) := fun c b => m ((c : Dev nD), b)

/-- After the host operations `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the host operations `hostOps0_1`. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- After the host operations `hostOps0_2`. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the launch's write-backs leave, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host operations `hostOps1`. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the launch's write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host operations `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the launch's write-backs leave, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the host operations `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the launch's write-backs leave, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- After the host operations `hostOps4`. -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b

/-! ## The proof data of the four launches, each at its kernel's entry contents -/

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c

/-! ## No host operation allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

end Cert.KernelIdeal.Hand

end
-- ==== Proof.KI.Run.lean ====
/-
  The program as one run.  @main is eleven items in a row: three stretches of host operations, the first linear kernel,
  a stretch (gather and scatter-add of the messages), the second linear kernel, a stretch, the third linear kernel, a
  stretch, the min-pool kernel, and the closing stretch.  Between two items a core holds every unscoped buffer whole at
  the contents the fold W0 … W11 gives it, beside its generator register at some state and the record that it owes
  nothing.  A stretch of host operations moves the buffers from one valuation to the next; a kernel takes its windows'
  arrays out of the unscoped buffers, runs its pipelined launch over them, and puts them back at what the write-backs
  leave.  Composed: from any memory with zero semaphore counters every weakly fair execution of @main terminates
  without fault and ends with every unscoped buffer at W11; and no item writes an argument.
-/
import proofs.«132209_j48962627175096_2_alg».proof.Proof.Gen.KernelIdeal.Launch
import proofs.«132209_j48962627175096_2_alg».proof.Proof.Gen.KernelIdeal.Skeleton
import proofs.«132209_j48962627175096_2_alg».proof.Proof.Gen.KernelIdeal.Points
import proofs.«132209_j48962627175096_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What rides beside the buffers -/

abbrev 𝒱₀ : Variants := Variants.none
/-- No core owes another anything, so no pair is given a level. -/
abbrev L : GSem nD τ sig → Finset Unit := fun _ => ∅
abbrev lv : GSem nD τ sig → Unit → ℕ := fun _ _ => 0
/-- Beside the buffers a core carries its generator register, at a state nobody tracks, and its record of what it
    owes other cores: nothing, with some set of recorded pairs. -/
abbrev R (c : Dev nD) : sProp 𝕄 := iprop((∃ r, prngReg c r) ∗ ∃ W, owes (c : Thread nD τ) (0 : CellTallies nD τ sig Unit) W)

/-- The state of core c between two items: every unscoped buffer whole at the valuation, and R. -/
abbrev At (W : Dev nD → Valuation τ sig (Elt F)) (c : Dev nD) : sProp 𝕄 :=
  iprop(StableHlo.held (c : Thread nD τ) (Pipeline.ucRefs τ sig) (W c) ∗ R c)

/-! ## The pieces every kernel's entry and exit are made of -/

section Pieces

variable {c : Dev nD}

/-- Owing nothing with some recorded set is owing the proof data's first tallies within its bound, when those
    tallies are zero and the bound excludes no pair. -/
theorem owes_enter {cfg : Cfg sig Λ₀} (dat : Dat τ (Elt F) Unit ℕ (UR sig nD τ) ℕ cfg c) (t : Fin (cfg.N + 1))
    (h0 : dat.owed t = 0) (hb : ∀ x, x ∈ dat.bound () t) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; exact fun x _ => hb x
  iexact HO

/-- And back: the bound on the recorded set is forgotten. -/
theorem owes_leave {cfg : Cfg sig Λ₀} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-- The invariant of a kernel that keeps nothing between its points is made of the generator register and the
    scoped buffers no window stages; whatever else is offered (the prefetched tables: there are none) is dropped. -/
theorem phiA_enter {gr W : Nat} (win : Fin W → Pipeline.WinSpec sig gr) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]
  · iexact Hs
  iexact Hg

/-- And it gives both back, beside the kernel's own semaphores at zero: it has none. -/
theorem phiA_leave {gr W : Nat} (win : Fin W → Pipeline.WinSpec sig gr) :
    (Pipeline.ΦA win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hs, Hg⟩
  isplitl [Hg]
  · iexact Hg
  isplitr
  · iempintro
  iexact Hs

end Pieces

/-! ## A kernel's entry and exit, for any of the four -/

section EntryExit

variable (p : Fin 4) (c : Dev nD)

-- the library's lemmas are stated over the pinned configuration of a pipeline: applying them takes unfolding plain
-- definitions inside a metavariable's type
set_option backward.isDefEq.respectTransparency.types false in
/-- ENTRY.  A core that holds every unscoped buffer at a valuation Wv, from which kernel p's proof data read their
    arrays' entry contents, hands the kernel those arrays, no table (it has none), its record of owing nothing as the
    first tallies, and its generator register; the unscoped buffers that are no array of the kernel stay outside. -/
theorem enter (hw : Pipeline.WinFacts (Pipeline.pin (pcfgs (F := F)) adm p).spec)
    (harr : ∀ w, ((Pipeline.pin (pcfgs (F := F)) adm p).spec w).arr.IsWhole)
    (Wv : Valuation τ sig (Elt F))
    (hq : ∀ w, (pdats m p c).share w = fullShare)
    (hA : ∀ w, (pdats m p c).A w = Wv (Pipeline.arrRef (Pipeline.pin (pcfgs (F := F)) adm p).spec w))
    (h0 : (pdats m p c).owed 0 = 0) (hb : ∀ x, x ∈ (pdats m p c).bound () 0)
    (hK : (Finset.univ : Finset (Fin (pcfgs (F := F) p).pre.K)) = ∅) :
    iprop(iprop(StableHlo.held (c : Thread nD τ) (Pipeline.ucRefs τ sig) Wv ∗ R c)
        ∗ Pipeline.ownSems0 (fun k : PEmpty => k.elim) c ∗ levAts L lv)
      ⊢ (|={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ)
              (Pipeline.pin (pcfgs (F := F)) adm p).spec c (fun b => Wv b)) : sProp 𝕄) := by
  have hcut := Pipeline.arrays_of_unscopedBufs (p := p) (pcfgs (F := F)) adm (pdats m) hw harr c hq (fun b => Wv b) hA
  rw [Pipeline.unscopedBufs_held] at hcut
  have hO := owes_enter (pdats m p c) 0 h0 hb
  iintro ⟨⟨Hbufs, Hg, HO⟩, -, -⟩
  ihave Hsplit := hcut $$ Hbufs
  icases Hsplit with ⟨Harr, Hrest⟩
  ihave HO' := hO $$ HO
  imodintro
  isplitl [Harr]
  · iexact Harr
  isplitr
  · unfold Pipeline.prefHeld
    rw [hK, BI.bigSep_empty]
    iempintro
  isplitl [HO']
  · iexact HO'
  isplitl [Hg]
  · iexact Hg
  iexact Hrest

set_option backward.isDefEq.respectTransparency.types false in
/-- EXIT.  The kernel's arrays at what its write-backs leave, beside the unscoped buffers that stayed outside at
    the entry valuation Wv, are every unscoped buffer at any valuation Wv' that has the arrays at those contents
    and agrees with Wv elsewhere; the last tallies are zero again, and the generator register comes back. -/
theorem leave (hw : Pipeline.WinFacts (Pipeline.pin (pcfgs (F := F)) adm p).spec)
    (harr : ∀ w, ((Pipeline.pin (pcfgs (F := F)) adm p).spec w).arr.IsWhole)
    (Wv Wv' : Valuation τ sig (Elt F))
    (hq : ∀ w, (pdats m p c).share w = fullShare)
    (hF : ∀ w, (pdats m p c).arrAt w (Pipeline.pin (pcfgs (F := F)) adm p).N
      = Wv' (Pipeline.arrRef (Pipeline.pin (pcfgs (F := F)) adm p).spec w))
    (hrest : ∀ b : Ref sig .tc, b ∉ Finset.univ.image (Pipeline.arrRef (Pipeline.pin (pcfgs (F := F)) adm p).spec)
      → Wv' b = Wv b)
    (hN : (pdats m p c).owed (Fin.last (Pipeline.pin (pcfgs (F := F)) adm p).N) = 0) :
    iprop((pdats m p c).arrays ((pdats m p c).arrAt · (Pipeline.pin (pcfgs (F := F)) adm p).N)
        ∗ (pdats m p c).owesAt () (Fin.last (Pipeline.pin (pcfgs (F := F)) adm p).N) ∗ (∃ r, prngReg c r)
        ∗ Pipeline.unscopedRest (Ix := Unit) (Name := ℕ) (U := UR sig nD τ) (Lvl := ℕ)
            (Pipeline.pin (pcfgs (F := F)) adm p).spec c (fun b => Wv b))
      ⊢ (|={Set.univ}=> iprop(StableHlo.held (c : Thread nD τ) (Pipeline.ucRefs τ sig) Wv' ∗ R c) : sProp 𝕄) := by
  have hglue := Pipeline.unscopedBufs_of_arrays (p := p) (pcfgs (F := F)) adm (Ix := Unit) (Name := ℕ) (U := UR sig nD τ)
    (Lvl := ℕ) hw harr c (pdats m) hq (fun b => Wv b) (fun b => Wv' b)
    ((pdats m p c).arrAt · (Pipeline.pin (pcfgs (F := F)) adm p).N) hF hrest
  rw [Pipeline.unscopedBufs_held] at hglue
  have hO := owes_leave (pdats m p c) (Fin.last (Pipeline.pin (pcfgs (F := F)) adm p).N) hN
  iintro ⟨Harr, HO, Hg, Hrest⟩
  ihave Hbufs := hglue $$ [Harr Hrest]
  · isplitl [Harr]
    · iexact Harr
    iexact Hrest
  ihave HO' := hO $$ HO
  imodintro
  isplitl [Hbufs]
  · iexact Hbufs
  isplitl [Hg]
  · iexact Hg
  iexact HO'

end EntryExit

/-! ## The four kernels as segments -/

set_option backward.isDefEq.respectTransparency.types false in
/-- The first linear kernel: entered from the valuation W3, left at W4.  It keeps nothing between its points, owes nothing and has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre := At (W3 m)
  post := At (W4 m)
  X c := iprop(∃ r, prngReg c r)
  Y c := iprop(∃ r, prngReg c r)
  Z c := Pipeline.unscopedRest (Ix := Unit) (Name := ℕ) (U := UR sig nD τ) (Lvl := ℕ) spec0 c (V3 m c)
  hentry c := enter m 0 c launch0.win launch0.arr_whole (W3 m c) ((pdats m 0 c).share_full fun _ => rfl)
    (fun _ => rfl) rfl (fun _ => Or.inl trivial) rfl
  hin c := phiA_enter spec0 _
  hout c := phiA_leave spec0
  hexit c := leave m 0 c launch0.win launch0.arr_whole (W3 m c) (W4 m c) ((pdats m 0 c).share_full fun _ => rfl)
    (hF0 m c) (hrest0 m c) rfl

set_option backward.isDefEq.respectTransparency.types false in
/-- The second linear kernel: entered from W5, left at W6; the same shape as the first. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre := At (W5 m)
  post := At (W6 m)
  X c := iprop(∃ r, prngReg c r)
  Y c := iprop(∃ r, prngReg c r)
  Z c := Pipeline.unscopedRest (Ix := Unit) (Name := ℕ) (U := UR sig nD τ) (Lvl := ℕ) spec1 c (V5 m c)
  hentry c := enter m 1 c launch1.win launch1.arr_whole (W5 m c) ((pdats m 1 c).share_full fun _ => rfl)
    (fun _ => rfl) rfl (fun _ => Or.inl trivial) rfl
  hin c := phiA_enter spec1 _
  hout c := phiA_leave spec1
  hexit c := leave m 1 c launch1.win launch1.arr_whole (W5 m c) (W6 m c) ((pdats m 1 c).share_full fun _ => rfl)
    (hF1 m c) (hrest1 m c) rfl

set_option backward.isDefEq.respectTransparency.types false in
/-- The third linear kernel: entered from W7, left at W8; the same shape as the first. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre := At (W7 m)
  post := At (W8 m)
  X c := iprop(∃ r, prngReg c r)
  Y c := iprop(∃ r, prngReg c r)
  Z c := Pipeline.unscopedRest (Ix := Unit) (Name := ℕ) (U := UR sig nD τ) (Lvl := ℕ) spec2 c (V7 m c)
  hentry c := enter m 2 c launch2.win launch2.arr_whole (W7 m c) ((pdats m 2 c).share_full fun _ => rfl)
    (fun _ => rfl) rfl (fun _ => Or.inl trivial) rfl
  hin c := phiA_enter spec2 _
  hout c := phiA_leave spec2
  hexit c := leave m 2 c launch2.win launch2.arr_whole (W7 m c) (W8 m c) ((pdats m 2 c).share_full fun _ => rfl)
    (hF2 m c) (hrest2 m c) rfl

set_option backward.isDefEq.respectTransparency.types false in
/-- The min-pool kernel: entered from W9, left at W10.  Between its points it keeps the accumulator in a scratch buffer, so its invariant is its own; before the first point and after the last it is the plain one again (the scratch at anything, beside the other scoped buffers and the generator register), which is what the entry offers and the exit takes back. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre := At (W9 m)
  post := At (W10 m)
  X c := iprop(∃ r, prngReg c r)
  Y c := iprop(∃ r, prngReg c r)
  Z c := Pipeline.unscopedRest (Ix := Unit) (Name := ℕ) (U := UR sig nD τ) (Lvl := ℕ) spec3 c (V9 m c)
  hentry c := enter m 3 c launch3.win launch3.arr_whole (W9 m c) ((pdats m 3 c).share_full fun _ => rfl)
    (fun _ => rfl) rfl (fun _ => Or.inl trivial) rfl
  hin c := (phiA_enter spec3 _).trans (hin3 (V9 m) c)
  hout c := (hout3 (V9 m) c).trans (phiA_leave spec3)
  hexit c := leave m 3 c launch3.win launch3.arr_whole (W9 m c) (W10 m c) ((pdats m 3 c).share_full fun _ => rfl)
    (hF3 m c) (hrest3 m c) rfl

/-! ## The host stretches as segments, and @main as the list of its items -/

/-- A stretch of host operations, run from the valuation W: it touches unscoped buffers only and allocates none, so
    it takes `At W` to `At` of the valuation after its operations, R untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (fun op h => List.forall_iff_forall_mem.mp hfresh op h) W R

/-- The eleven items, each entered from the valuation the one before it leaves. -/
abbrev segs : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region (reg0 m),
    .host (stretch hostOps1 hostOps1_sub hostOps1_fresh (W4 m)),
    .region (reg1 m),
    .host (stretch hostOps2 hostOps2_sub hostOps2_fresh (W6 m)),
    .region (reg2 m),
    .host (stretch hostOps3 hostOps3_sub hostOps3_fresh (W8 m)),
    .region (reg3 m),
    .host (stretch hostOps4 hostOps4_sub hostOps4_fresh (W10 m)) ]

/-- @main is the run of these items: it is the chain of its items' programs, and the run of a list of segments is
    the chain of theirs — a stretch's is the sequence of its operations, a kernel's its call. -/
theorem main_run (c : Dev nD) : main (F := F) c = Pipeline.Seg.run (segs m) := by
  rw [Pipeline.Seg.run_eq_chain]
  exact main_chain c

/-! ## The run -/

/-- An unscoped TensorCore reference is one of those the state between items holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state between items with the record of owing nothing set apart: the form the launch theorem wants the last
    state in (a run that ended still owing would not have terminated). -/
theorem At_apart (W : Dev nD → Valuation τ sig (Elt F)) (c : Dev nD) :
    At W c ⊢ (iprop(iprop(StableHlo.held (c : Thread nD τ) (Pipeline.ucRefs τ sig) (W c) ∗ ∃ r, prngReg c r)
      ∗ ∃ Wt, owes (c : Thread nD τ) (0 : CellTallies nD τ sig Unit) Wt) : sProp 𝕄) := by
  iintro ⟨Hbufs, Hg, HO⟩
  isplitr [HO]
  · isplitl [Hbufs]
    · iexact Hbufs
    iexact Hg
  iexact HO

-- the launch theorem's implicit arguments are found by unifying its conclusion with the statement, which takes
-- unfolding plain definitions inside a metavariable's type
set_option backward.isDefEq.respectTransparency.types false in
/-- From any memory m with every semaphore counter at zero and any generator registers, every weakly fair execution
    of @main on the TensorCores terminates, nothing faulting, and in every final state each unscoped buffer of each
    core holds what the fold of the eleven items over m gives it.

    The launch deals each core its unscoped buffers at m, its record of owing nothing and its generator register:
    the first state `At W0`.  The items' states chain by the very definition of the fold.  The last state, the
    buffers at W11, is read against the final memory buffer by buffer. -/
theorem run (ρ : Dev nD → PrngReg) : θ_run defs (onTc (τ := τ) (main (F := F))) ⟨m, fun _ => 0, ρ⟩
      (fun r => ∀ c : Dev nD, ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost element is the pipelines' own, and no core asks for another resource
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      ihave Hu' := hown $$ Hu
      imodintro
      isplitl [Hu']
      · iexact Hu'
      iapply hnone
      iempintro)
    (T₀ := At (W0 m))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => At_apart (W11 m) c⟩)
    (hinit := by
      refine Pipeline.initEach L lv fun c => ?_
      rw [show unscopedBufs c (fun b => m ((c : Thread nD τ).loc b))
          = StableHlo.held (c : Thread nD τ) (Pipeline.ucRefs τ sig) (W0 m c) from Pipeline.unscopedBufs_held c (W0 m c)]
      -- of what the launch deals a core, the semaphores at zero, the launch credit and the (empty) ghost resource are dropped
      iintro ⟨⟨Hbufs, -, HO, -, Hg, -⟩, -⟩
      imodintro
      isplitl [Hbufs]
      · iexact Hbufs
      isplitl [Hg]
      · iexists (ρ c); iexact Hg
      iexists ∅
      iexact HO)
    (QY := fun c s => ∀ b ∈ Pipeline.ucRefs τ sig, s.mem ((c : Thread nD τ).1, b) = W11 m c b)
    (hfin := fun c s' => by
      iintro ⟨⟨Hbufs, -⟩, HSI⟩
      unfold StableHlo.held
      imodintro
      iapply (pointsTo_read_all (Pipeline.ucRefs τ sig) (fun b => ((c : Thread nD τ).1, b)) (W11 m c) s')
      isplitl [Hbufs]
      · iexact Hbufs
      iexact HSI)
    (hQ := fun s h c => h c)

/-! ## No item writes an argument

A stretch of host operations rewrites the references its operations name as results and no other; a kernel's launch
changes its output windows' arrays and no other buffer.  A reference that is none of these, at every item, holds at
the end what the launch memory held: each of @main's eight arguments is such a reference (the node features are
the first kernel's first window, an input). -/

/-- The references the first stretch (self-loops appended to the edge list, the degrees counted, their reciprocal square roots) writes, in order. -/
abbrev wr0 : List (Ref sig .tc) := [main_v0, main_v1, main_v2, main_v3, main_v4, main_v5, main_v6, main_cst, main_v7, main_c, main_v8, main_v9, main_c_0, main_v10, main_v11, main_v12, main_v13, main_cst_1, main_v14, main_v15, main_cst_2, main_v16, main_v17, main_v18, main_cst_3]
theorem wr0_covers : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the second stretch (the reciprocal square root kept where the degree is positive, zero elsewhere) writes, in order. -/
abbrev wr0_1 : List (Ref sig .tc) := [main_call0_v0, main_call0_v1, main_v19]
theorem wr0_1_covers : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the third stretch (the normalisation as a column, the three weights rounded to bf16, a zero bias row) writes, in order. -/
abbrev wr0_2 : List (Ref sig .tc) := [main_v20, main_v21, main_v22, main_v23, main_cst_4, main_v24, main_v25]
theorem wr0_2_covers : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the stretch after the first kernel writes, in order. -/
abbrev wr1 : List (Ref sig .tc) := [main_c_5, main_v27, main_v28, main_c_6, main_v29, main_v30, main_v31, main_v32, main_v33, main_cst_7, main_v34, main_v35, main_c_8, main_v36, main_v37, main_c_9, main_v38, main_v39, main_v40, main_v41, main_v42, main_v43]
theorem wr1_covers : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the stretch after the second kernel writes, in order. -/
abbrev wr2 : List (Ref sig .tc) := [main_c_10, main_v45, main_v46, main_c_11, main_v47, main_v48, main_v49, main_v50, main_v51, main_cst_12, main_v52, main_v53, main_c_13, main_v54, main_v55, main_c_14, main_v56, main_v57, main_v58, main_v59, main_v60, main_v61]
theorem wr2_covers : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the stretch after the third kernel writes, in order. -/
abbrev wr3 : List (Ref sig .tc) := [main_c_15, main_v63, main_v64, main_c_16, main_v65, main_v66, main_v67, main_v68, main_v69, main_cst_17, main_v70, main_v71, main_c_18, main_v72, main_v73, main_c_19, main_v74, main_v75, main_v76, main_v77, main_v78]
theorem wr3_covers : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references the closing stretch writes, in order. -/
abbrev wr4 : List (Ref sig .tc) := [main_v80, main_v81]
theorem wr4_covers : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- Kernel 0 leaves a reference as it found it unless it is the array of one of its output windows: another
    window's array is an input, held where the pipeline found it; any other buffer is outside the launch. -/
theorem W4_keeps (c : Dev nD) (r : Ref sig .tc) (h : ∀ w, Pipeline.arrRef spec0 w = r → (cfg0.win w).isOut = false) :
    W4 m c (Proc.devRef .tc r) = W3 m c (Proc.devRef .tc r) := by
  by_cases hr : ∃ w, Pipeline.arrRef spec0 w = r
  · obtain ⟨w, rfl⟩ := hr
    exact (W4_arr m c w).trans (((dat0 (V3 m) c).arrAt_in w (h w rfl) _).trans (A_eq0 (V3 m) c w))
  · exact W4_of_ne m c r fun w e => hr ⟨w, e⟩

/-- Kernel 1 leaves a reference as it found it unless it is the array of one of its output windows: another
    window's array is an input, held where the pipeline found it; any other buffer is outside the launch. -/
theorem W6_keeps (c : Dev nD) (r : Ref sig .tc) (h : ∀ w, Pipeline.arrRef spec1 w = r → (cfg1.win w).isOut = false) :
    W6 m c (Proc.devRef .tc r) = W5 m c (Proc.devRef .tc r) := by
  by_cases hr : ∃ w, Pipeline.arrRef spec1 w = r
  · obtain ⟨w, rfl⟩ := hr
    exact (W6_arr m c w).trans (((dat1 (V5 m) c).arrAt_in w (h w rfl) _).trans (A_eq1 (V5 m) c w))
  · exact W6_of_ne m c r fun w e => hr ⟨w, e⟩

/-- Kernel 2 leaves a reference as it found it unless it is the array of one of its output windows: another
    window's array is an input, held where the pipeline found it; any other buffer is outside the launch. -/
theorem W8_keeps (c : Dev nD) (r : Ref sig .tc) (h : ∀ w, Pipeline.arrRef spec2 w = r → (cfg2.win w).isOut = false) :
    W8 m c (Proc.devRef .tc r) = W7 m c (Proc.devRef .tc r) := by
  by_cases hr : ∃ w, Pipeline.arrRef spec2 w = r
  · obtain ⟨w, rfl⟩ := hr
    exact (W8_arr m c w).trans (((dat2 (V7 m) c).arrAt_in w (h w rfl) _).trans (A_eq2 (V7 m) c w))
  · exact W8_of_ne m c r fun w e => hr ⟨w, e⟩

/-- Kernel 3 leaves a reference as it found it unless it is the array of one of its output windows: another
    window's array is an input, held where the pipeline found it; any other buffer is outside the launch. -/
theorem W10_keeps (c : Dev nD) (r : Ref sig .tc) (h : ∀ w, Pipeline.arrRef spec3 w = r → (cfg3.win w).isOut = false) :
    W10 m c (Proc.devRef .tc r) = W9 m c (Proc.devRef .tc r) := by
  by_cases hr : ∃ w, Pipeline.arrRef spec3 w = r
  · obtain ⟨w, rfl⟩ := hr
    exact (W10_arr m c w).trans (((dat3 (V9 m) c).arrAt_in w (h w rfl) _).trans (A_eq3 (V9 m) c w))
  · exact W10_of_ne m c r fun w e => hr ⟨w, e⟩

/-- The walk back through the eleven items. -/
theorem W11_of_kept (c : Dev nD) (r : Ref sig .tc) (h0 : r ∉ wr0) (h0_1 : r ∉ wr0_1) (h0_2 : r ∉ wr0_2)
    (k0 : ∀ w, Pipeline.arrRef spec0 w = r → (cfg0.win w).isOut = false) (h1 : r ∉ wr1)
    (k1 : ∀ w, Pipeline.arrRef spec1 w = r → (cfg1.win w).isOut = false) (h2 : r ∉ wr2)
    (k2 : ∀ w, Pipeline.arrRef spec2 w = r → (cfg2.win w).isOut = false) (h3 : r ∉ wr3)
    (k3 : ∀ w, Pipeline.arrRef spec3 w = r → (cfg3.win w).isOut = false) (h4 : r ∉ wr4) :
    W11 m c (Proc.devRef .tc r) = m ((c : Thread nD τ).loc r) :=
  calc W11 m c (Proc.devRef .tc r)
    _ = W10 m c (Proc.devRef .tc r) := StableHlo.after_of_writes_sub hostOps4 _ wr4_covers h4
    _ = W9 m c (Proc.devRef .tc r) := W10_keeps m c r k3
    _ = W8 m c (Proc.devRef .tc r) := StableHlo.after_of_writes_sub hostOps3 _ wr3_covers h3
    _ = W7 m c (Proc.devRef .tc r) := W8_keeps m c r k2
    _ = W6 m c (Proc.devRef .tc r) := StableHlo.after_of_writes_sub hostOps2 _ wr2_covers h2
    _ = W5 m c (Proc.devRef .tc r) := W6_keeps m c r k1
    _ = W4 m c (Proc.devRef .tc r) := StableHlo.after_of_writes_sub hostOps1 _ wr1_covers h1
    _ = W3 m c (Proc.devRef .tc r) := W4_keeps m c r k0
    _ = W2 m c (Proc.devRef .tc r) := StableHlo.after_of_writes_sub hostOps0_2 _ wr0_2_covers h0_2
    _ = W1 m c (Proc.devRef .tc r) := StableHlo.after_of_writes_sub hostOps0_1 _ wr0_1_covers h0_1
    _ = W0 m c (Proc.devRef .tc r) := StableHlo.after_of_writes_sub hostOps0 _ wr0_covers h0
    _ = m ((c : Thread nD τ).loc r) := rfl

theorem W11_main_arg0 (c : Dev nD) : W11 m c (Proc.devRef .tc main_arg0) = m ((c : Thread nD τ).loc main_arg0) :=
  W11_of_kept m c main_arg0 (by decide) (by decide) (by decide) (by decide) (by decide) (by decide) (by decide) (by decide)
    (by decide) (by decide) (by decide)

theorem W11_main_arg1 (c : Dev nD) : W11 m c (Proc.devRef .tc main_arg1) = m ((c : Thread nD τ).loc main_arg1) :=
  W11_of_kept m c main_arg1 (by decide) (by decide) (by decide) (by decide) (by decide) (by decide) (by decide) (by decide)
    (by decide) (by decide) (by decide)

theorem W11_main_arg2 (c : Dev nD) : W11 m c (Proc.devRef .tc main_arg2) = m ((c : Thread nD τ).loc main_arg2) :=
  W11_of_kept m c main_arg2 (by decide) (by decide) (by decide) (by decide) (by decide) (by decide) (by decide) (by decide)
    (by decide) (by decide) (by decide)

theorem W11_main_arg3 (c : Dev nD) : W11 m c (Proc.devRef .tc main_arg3) = m ((c : Thread nD τ).loc main_arg3) :=
  W11_of_kept m c main_arg3 (by decide) (by decide) (by decide) (by decide) (by decide) (by decide) (by decide) (by decide)
    (by decide) (by decide) (by decide)

theorem W11_main_arg4 (c : Dev nD) : W11 m c (Proc.devRef .tc main_arg4) = m ((c : Thread nD τ).loc main_arg4) :=
  W11_of_kept m c main_arg4 (by decide) (by decide) (by decide) (by decide) (by decide) (by decide) (by decide) (by decide)
    (by decide) (by decide) (by decide)

theorem W11_main_arg5 (c : Dev nD) : W11 m c (Proc.devRef .tc main_arg5) = m ((c : Thread nD τ).loc main_arg5) :=
  W11_of_kept m c main_arg5 (by decide) (by decide) (by decide) (by decide) (by decide) (by decide) (by decide) (by decide)
    (by decide) (by decide) (by decide)

theorem W11_main_arg6 (c : Dev nD) : W11 m c (Proc.devRef .tc main_arg6) = m ((c : Thread nD τ).loc main_arg6) :=
  W11_of_kept m c main_arg6 (by decide) (by decide) (by decide) (by decide) (by decide) (by decide) (by decide) (by decide)
    (by decide) (by decide) (by decide)

theorem W11_main_arg7 (c : Dev nD) : W11 m c (Proc.devRef .tc main_arg7) = m ((c : Thread nD τ).loc main_arg7) :=
  W11_of_kept m c main_arg7 (by decide) (by decide) (by decide) (by decide) (by decide) (by decide) (by decide) (by decide)
    (by decide) (by decide) (by decide)

end Cert.KernelIdeal.Hand

end
-- ==== Proof.Spec.lean ====
/-
  The mathematics that joins the two programs, on the extended reals, with no program in sight.

  A graph-convolution layer sums, into each node n, the transformed features of its in-neighbours, each weighted by
  d(source) · d(n), where d is the inverse square root of the in-degree: a non-negative real.  The reference multiplies
  every message by that weight before the sum; the kernel scales each source row by d(source) once, sums the scaled
  rows, and multiplies the sum by d(n) afterwards.  The two agree because a NON-NEGATIVE REAL factor moves out of a
  finite sum of extended reals (for such a factor multiplication distributes over addition even at the infinities),
  and multiplication of extended reals is commutative and associative.  No entry needs to be finite for this.

  The last layer is followed by a minimum over the nodes; the kernel adds the bias after the minimum, the reference
  before: adding a constant commutes with a minimum of extended reals over a non-empty finite set.
-/
import Mathlib.Data.EReal.Inv
import Mathlib.Algebra.BigOperators.Group.Finset.Basic
import Mathlib.Algebra.Order.Monoid.Unbundled.MinMax
import Mathlib.Order.CompleteLattice.Finset

open scoped BigOperators

namespace Cert.Spec

/-- A non-negative real factor moves out of a finite sum of extended reals. -/
theorem mul_sum_of_nonneg {J : Type} [DecidableEq J] (S : Finset J) (q : EReal) (h0 : 0 ≤ q) (ht : q ≠ ⊤) (f : J → EReal) :
    q * ∑ j ∈ S, f j = ∑ j ∈ S, q * f j := by
  induction S using Finset.induction_on with
  | empty => simp
  | insert a s ha ih => rw [Finset.sum_insert ha, Finset.sum_insert ha, EReal.left_distrib_of_nonneg_of_ne_top h0 ht, ih]

/-- THE LAYER LAW.  Messages `a j` weighted by `p j · r j`, where on the messages that land (`j ∈ S`) the second weight
    is one non-negative real `q` (the receiving node's normalisation): the weighted sum is `q` times the sum of the
    messages weighted by `p` alone. -/
theorem sum_weighted {J : Type} [DecidableEq J] (S : Finset J) (q : EReal) (h0 : 0 ≤ q) (ht : q ≠ ⊤) (a p r : J → EReal)
    (hr : ∀ j ∈ S, r j = q) : ∑ j ∈ S, a j * (p j * r j) = q * ∑ j ∈ S, a j * p j := by
  rw [mul_sum_of_nonneg S q h0 ht]
  refine Finset.sum_congr rfl fun j hj => ?_
  rw [hr j hj, ← mul_assoc, mul_comm]

/-- The same with the scatter's zero start value and the bias in place: the reference's aggregate plus bias is the
    kernel's normalisation times its raw aggregate, plus bias. -/
theorem layer_law {J : Type} [DecidableEq J] (S : Finset J) (q : EReal) (h0 : 0 ≤ q) (ht : q ≠ ⊤) (a p r : J → EReal)
    (hr : ∀ j ∈ S, r j = q) (b : EReal) :
    (0 + ∑ j ∈ S, a j * (p j * r j)) + b = q * (0 + ∑ j ∈ S, a j * p j) + b := by
  rw [zero_add, zero_add, sum_weighted S q h0 ht a p r hr]

/-- Adding a constant commutes with the minimum over a non-empty finite set. -/
theorem inf_add_const {ι : Type} (S : Finset ι) (hS : S.Nonempty) (f : ι → EReal) (b : EReal) :
    S.inf (fun n => f n + b) = S.inf f + b := by
  induction hS using Finset.Nonempty.cons_induction with
  | singleton a => simp
  | cons a s ha hs ih => rw [Finset.inf_cons, Finset.inf_cons, ih]; exact min_add_add_right _ _ _

/-- A sum of ones over a finite set is a real: its number of elements. -/
theorem sum_ones {J : Type} (S : Finset J) : (∑ _j ∈ S, (1 : EReal)) = ((S.card : ℝ) : EReal) := by
  induction S using Finset.cons_induction with
  | empty => simp
  | cons a s ha ih =>
    rw [Finset.sum_cons, ih, Finset.card_cons, Nat.cast_add, Nat.cast_one, EReal.coe_add, EReal.coe_one, add_comm]

end Cert.Spec
-- ==== Proof.Forms.lean ====
/-
  The two arrangements of the three-layer graph convolution with min-pooling, as closed forms on the extended reals,
  and the proof that they are one function.

  Nodes n < 100000 carry feature rows; messages j (one per edge and channel) each read one entry `src j` of the
  transformed features and are added into the entry `i` with `lands j i`.  `d` is the degree normalisation, one
  extended real per node.  REFERENCE arrangement of a layer: entry i of the aggregate is the sum over the messages
  landing at i of  (h·W)[src j] · (d[srow j] · d[drow j]), plus the bias, where srow j / drow j are the source and
  destination nodes of message j's edge as the normalisation is gathered.  KERNEL arrangement: the rows of h·W are scaled
  by d first, the scaled entries are summed, the sum at node n is scaled by d[n], then the bias is added.  They agree
  when (1) the node row of the entry a message reads is the edge's source node, (2) a message that lands at an entry
  of node n has n as its edge's destination node, and (3) every d[n] is a non-negative real.  After the third layer the
  reference adds the bias and takes the minimum over the nodes; the kernel takes the minimum first.
-/
import proofs.«132209_j48962627175096_2_alg».proof.Proof.Spec
import Idealize.ShloMosaic.Lib.ValueIdx

noncomputable section

open scoped BigOperators
open Idealize.ShloMosaic Idealize.ShloMosaic.ValueIdx

namespace Cert.Forms

abbrev SN : Shape := ⟨1, ![100000]⟩
abbrev SX : Shape := ⟨2, ![100000, 128]⟩
abbrev SY : Shape := ⟨2, ![100000, 64]⟩
abbrev SW : Shape := ⟨2, ![128, 128]⟩
abbrev SW3 : Shape := ⟨2, ![128, 64]⟩
abbrev SB : Shape := ⟨1, ![128]⟩
abbrev SB3 : Shape := ⟨1, ![64]⟩
abbrev SEX : Shape := ⟨2, ![1700000, 128]⟩
abbrev SEY : Shape := ⟨2, ![1700000, 64]⟩

/-! ## The pieces -/

/-- Features times a 128×128 weight. -/
def mmX (h : SX.Idx → EReal) (w : SW.Idx → EReal) : SX.Idx → EReal :=
  fun i => ∑ k : Fin 128, h (ix2 (i 0) k) * w (ix2 k (i 1))
/-- Features times the 128×64 weight. -/
def mmY (h : SX.Idx → EReal) (w : SW3.Idx → EReal) : SY.Idx → EReal :=
  fun i => ∑ k : Fin 128, h (ix2 (i 0) k) * w (ix2 k (i 1))

section Layer
variable {J I : Type} [Fintype J] (lands : J → I → Prop) [∀ j i, Decidable (lands j i)] (src : J → I)

/-- The aggregate, reference arrangement: each message weighted by the product of two normalisations. -/
def refAgg (a : I → EReal) (ws wd : J → EReal) : I → EReal :=
  fun i => 0 + ∑ j ∈ Finset.univ.filter (fun j => lands j i), a (src j) * (ws j * wd j)
/-- The raw aggregate, kernel arrangement: the (already scaled) entries summed as they are. -/
def kerAgg (t : I → EReal) : I → EReal :=
  fun i => 0 + ∑ j ∈ Finset.univ.filter (fun j => lands j i), t (src j)

/-- One layer's two arrangements agree at an entry i of node `row i`. -/
theorem agg_eq [DecidableEq J] (a : I → EReal) (row : I → Fin 100000) (d : SN.Idx → EReal) (srow drow : J → Fin 100000)
    (h1 : ∀ j, row (src j) = srow j) (h2 : ∀ j i, lands j i → drow j = row i)
    (hd : ∀ n, 0 ≤ d n ∧ d n ≠ ⊤) (b : EReal) (i : I) :
    refAgg lands src a (fun j => d (ix1 (srow j))) (fun j => d (ix1 (drow j))) i + b
      = d (ix1 (row i)) * kerAgg lands src (fun i' => a i' * d (ix1 (row i'))) i + b := by
  unfold refAgg kerAgg
  have := Cert.Spec.layer_law (Finset.univ.filter (fun j => lands j i)) (d (ix1 (row i))) (hd _).1 (hd _).2
    (fun j => a (src j)) (fun j => d (ix1 (srow j))) (fun j => d (ix1 (drow j)))
    (fun j hj => by rw [h2 j i (Finset.mem_filter.mp hj).2]) b
  rw [this]
  congr 2
  refine congrArg _ (Finset.sum_congr rfl fun j _ => ?_)
  show a (src j) * d (ix1 (srow j)) = a (src j) * d (ix1 (row (src j)))
  rw [h1 j]

end Layer

/-! ## The whole computation, both ways -/

section Whole
variable (d : SN.Idx → EReal)
variable (landsX : SEX.Idx → SX.Idx → Prop) [∀ j i, Decidable (landsX j i)] (srcX : SEX.Idx → SX.Idx)
variable (landsY : SEY.Idx → SY.Idx → Prop) [∀ j i, Decidable (landsY j i)] (srcY : SEY.Idx → SY.Idx)
variable (srow drow : Fin 1700000 → Fin 100000)
variable (x : SX.Idx → EReal) (W1 : SW.Idx → EReal) (b1 : SB.Idx → EReal) (W2 : SW.Idx → EReal) (b2 : SB.Idx → EReal)
  (W3 : SW3.Idx → EReal) (b3 : SB3.Idx → EReal)

/-- A hidden layer of the reference: aggregate, bias, then the positive part. -/
def refHidden (h : SX.Idx → EReal) (W : SW.Idx → EReal) (b : SB.Idx → EReal) : SX.Idx → EReal :=
  fun i => max (refAgg landsX srcX (mmX h W) (fun j => d (ix1 (srow (j 0)))) (fun j => d (ix1 (drow (j 0)))) i + b (ix1 (i 1))) 0
/-- The reference's last layer before pooling. -/
def refLast (h : SX.Idx → EReal) : SY.Idx → EReal :=
  fun i => refAgg landsY srcY (mmY h W3) (fun j => d (ix1 (srow (j 0)))) (fun j => d (ix1 (drow (j 0)))) i + b3 (ix1 (i 1))
/-- The reference's result: per channel the minimum over the nodes. -/
def refOut : SB3.Idx → EReal :=
  fun c => Finset.univ.inf fun n : Fin 100000 =>
    refLast d landsY srcY srow drow W3 b3 (refHidden d landsX srcX srow drow (refHidden d landsX srcX srow drow x W1 b1) W2 b2) (ix2 n (c 0))

/-- What a linear kernel writes: the product's rows scaled by the normalisation. -/
def kerScaledX (h : SX.Idx → EReal) (W : SW.Idx → EReal) : SX.Idx → EReal := fun i => mmX h W i * d (ix1 (i 0))
def kerScaledY (h : SX.Idx → EReal) : SY.Idx → EReal := fun i => mmY h W3 i * d (ix1 (i 0))
/-- What the next linear kernel makes of a raw aggregate before its product: scale by the normalisation, add the
    bias, take the positive part. -/
def kerNext (agg : SX.Idx → EReal) (b : SB.Idx → EReal) : SX.Idx → EReal :=
  fun i => max (d (ix1 (i 0)) * agg i + b (ix1 (i 1))) 0
/-- The kernel program's result: the pooled minimum of the scaled raw aggregate, then the bias. -/
def kerOut : SB3.Idx → EReal :=
  fun c => (Finset.univ.inf fun n : Fin 100000 =>
      kerAgg landsY srcY (kerScaledY d W3
        (kerNext d (kerAgg landsX srcX (kerScaledX d
          (kerNext d (kerAgg landsX srcX (kerScaledX d x W1)) b1) W2)) b2)) (ix2 n (c 0)) * d (ix1 n))
    + b3 c

variable (h1X : ∀ j, (srcX j) 0 = srow (j 0)) (h2X : ∀ j i, landsX j i → drow (j 0) = i 0)
  (h1Y : ∀ j, (srcY j) 0 = srow (j 0)) (h2Y : ∀ j i, landsY j i → drow (j 0) = i 0)
  (hd : ∀ n, 0 ≤ d n ∧ d n ≠ ⊤)
include h1X h2X hd in
/-- A hidden layer, both ways. -/
theorem hidden_eq (h : SX.Idx → EReal) (W : SW.Idx → EReal) (b : SB.Idx → EReal) :
    refHidden d landsX srcX srow drow h W b = kerNext d (kerAgg landsX srcX (kerScaledX d h W)) b := by
  funext i
  unfold refHidden kerNext kerScaledX
  rw [agg_eq landsX srcX (mmX h W) (fun i => i 0) d (fun j => srow (j 0)) (fun j => drow (j 0)) h1X h2X hd]

include h1X h2X h1Y h2Y hd in
/-- THE BRIDGE: the reference's arrangement and the kernel's are one function. -/
theorem refOut_eq_kerOut :
    refOut d landsX srcX landsY srcY srow drow x W1 b1 W2 b2 W3 b3 = kerOut d landsX srcX landsY srcY x W1 b1 W2 b2 W3 b3 := by
  funext c
  unfold refOut kerOut
  rw [hidden_eq d landsX srcX srow drow h1X h2X hd x W1 b1, hidden_eq d landsX srcX srow drow h1X h2X hd _ W2 b2]
  have hc : c = ix1 (c 0) := eq_ix1 c
  rw [← Cert.Spec.inf_add_const Finset.univ ⟨⟨0, by decide⟩, Finset.mem_univ _⟩]
  refine congrArg _ (funext fun n => ?_)
  unfold refLast kerScaledY
  rw [agg_eq landsY srcY (mmY _ W3) (fun i => i 0) d (fun j => srow (j 0)) (fun j => drow (j 0)) h1Y h2Y hd, mul_comm]
  conv_rhs => rw [hc]
  rfl

end Whole

end Cert.Forms

end
-- ==== Proof.KIV.Arr.lean ====
/-
  What each of the four kernels leaves in its output array, at the ideal (extended-real) reading, as one whole-array
  function of the arrays the kernel finds when it is entered.  The 20 grid points each write one block of 5000 rows
  (the min-pool folds them into one row); the blocks tile the array, so the array after the launch is the blocks'
  common formula read at every index.
-/
import proofs.«132209_j48962627175096_2_alg».proof.Proof.KI.Vals
import proofs.«132209_j48962627175096_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b)) (c : Dev nD)

/-! ## Layout operations of the bodies, read at an index -/

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The bodies' matrix product, read at an index -/

theorem lhs_lin_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_lin_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_lin_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_lin_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000×128 block times the 128×128 weight into a zero accumulator: entry `(p, q)` is the sum over `k` of the
    products of row `p` of the block and column `q` of the weight. -/
theorem matmul_lin_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs_lin_0 _ _
      | ⟨1, _⟩ => exact (lhs_lin_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (rhs_lin_0 _ _).trans hk
      | ⟨1, _⟩ => exact rhs_lin_1 _ _)
  rw [el, er]

/-! ## The first kernel's payload at an index -/

/-- Entry `(p, q)` of what the first kernel stores: row `p` of the feature block times column `q` of the weight,
    scaled by the normalisation of row `p`. -/
theorem lin0_pay_apply (x0 : Vec Ideal S5000x128 .f32) (x1 : Vec Ideal S5000x1 .f32) (x3 : Vec Ideal S128x128 .bf16)
    (p : Fin 5000) (q : Fin 128) :
    k0_pay1 (F := Ideal) x0 x1 x3 (ix2 p q) = (∑ k : Fin 128, x0 (ix2 p k) * x3 (ix2 k q)) * x1 (ix2 p (0 : Fin 1)) := by
  unfold k0_pay1
  simp only [shapeCast_self]
  rw [truncf_apply, mulf_apply, matmul_lin_apply, broadcastTo_a1_ab_apply]
  rfl

/-! ## The third kernel's matrix product, read at an index -/

theorem lhs_lin2_0 (i : S5000x64.Idx) (r : dot_S5000x128_S128x64_S5000x64_1_0_0_1_n_n.contr.Idx) :
    (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_lin2_1 (i : S5000x64.Idx) (r : dot_S5000x128_S128x64_S5000x64_1_0_0_1_n_n.contr.Idx) :
    (dot_S5000x128_S128x64_S5000x64_1_0_0_1_n_n.lhsIdx i r 1).val = (r ⟨0, by decide⟩).val :=
  dot_S5000x128_S128x64_S5000x64_1_0_0_1_n_n.lhsIdx_val_of_single rfl i r
theorem rhs_lin2_0 (i : S5000x64.Idx) (r : dot_S5000x128_S128x64_S5000x64_1_0_0_1_n_n.contr.Idx) :
    (dot_S5000x128_S128x64_S5000x64_1_0_0_1_n_n.rhsIdx i r 0).val = (r ⟨0, by decide⟩).val :=
  dot_S5000x128_S128x64_S5000x64_1_0_0_1_n_n.rhsIdx_val_of_single rfl i r
theorem rhs_lin2_1 (i : S5000x64.Idx) (r : dot_S5000x128_S128x64_S5000x64_1_0_0_1_n_n.contr.Idx) :
    (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A 5000×128 block times the 128×64 weight into a zero accumulator: entry `(p, q)` is the sum over `k` of the
    products of row `p` of the block and column `q` of the weight. -/
theorem matmul_lin2_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k :=
    funext fun ax => Fin.ext (by
      match ax with
      | ⟨0, _⟩ => exact lhs_lin2_0 _ _
      | ⟨1, _⟩ => exact (lhs_lin2_1 _ _).trans hk)
  have er : dot_S5000x128_S128x64_S5000x64_1_0_0_1_n_n.rhsIdx (ix2 p q)
      ((contrEquiv1 dot_S5000x128_S128x64_S5000x64_1_0_0_1_n_n 128 rfl rfl).symm k) = ix2 k q :=
    funext fun ax => Fin.ext (by
      match ax with
      | ⟨0, _⟩ => exact (rhs_lin2_0 _ _).trans hk
      | ⟨1, _⟩ => exact rhs_lin2_1 _ _)
  rw [el, er]

/-! ## The second kernel's payload at an index -/

/-- Entry `(p, q)` of what the second kernel stores: row `p` of max(dc∘a + br, 0) times column `q` of the weight,
    scaled by the normalisation of row `p`. -/
theorem lin1_pay_apply (x0 : Vec Ideal S5000x128 .f32) (x1 : Vec Ideal S5000x1 .f32) (x2 : Vec Ideal S1x128 .f32)
    (x3 : Vec Ideal S128x128 .bf16) (p : Fin 5000) (q : Fin 128) :
    k1_pay1 (F := Ideal) x0 x1 x2 x3 (ix2 p q)
      = (∑ k : Fin 128, max (x1 (ix2 p (0 : Fin 1)) * x0 (ix2 p k) + x2 (ix2 (0 : Fin 1) k)) 0 * x3 (ix2 k q))
        * x1 (ix2 p (0 : Fin 1)) := by
  unfold k1_pay1
  simp only [shapeCast_self]
  rw [truncf_apply, mulf_apply, matmul_lin_apply, broadcastTo_a1_ab_apply]
  refine congrArg (· * x1 (ix2 p (0 : Fin 1))) (Finset.sum_congr rfl fun k _ => congrArg (· * x3 (ix2 k q)) ?_)
  rw [truncf_apply, maximumf_apply, addf_apply, mulf_apply, broadcastTo_a1_ab_apply, broadcastTo_1b_ab_apply,
    broadcast_apply]
  show max _ (Ideal.ofBits .f32 0x00000000#32) = _
  rw [Ideal.ofBits_zero_f32]

/-! ## The third kernel's payload at an index -/

/-- Entry `(p, q)` of what the third kernel stores: row `p` of max(dc∘a + br, 0) times column `q` of the weight,
    scaled by the normalisation of row `p`. -/
theorem lin2_pay_apply (x0 : Vec Ideal S5000x128 .f32) (x1 : Vec Ideal S5000x1 .f32) (x2 : Vec Ideal S1x128 .f32)
    (x3 : Vec Ideal S128x64 .bf16) (p : Fin 5000) (q : Fin 64) :
    k2_pay1 (F := Ideal) x0 x1 x2 x3 (ix2 p q)
      = (∑ k : Fin 128, max (x1 (ix2 p (0 : Fin 1)) * x0 (ix2 p k) + x2 (ix2 (0 : Fin 1) k)) 0 * x3 (ix2 k q))
        * x1 (ix2 p (0 : Fin 1)) := by
  unfold k2_pay1
  simp only [shapeCast_self]
  rw [truncf_apply, mulf_apply, matmul_lin2_apply, broadcastTo_a1_ab_apply]
  refine congrArg (· * x1 (ix2 p (0 : Fin 1))) (Finset.sum_congr rfl fun k _ => congrArg (· * x3 (ix2 k q)) ?_)
  rw [truncf_apply, maximumf_apply, addf_apply, mulf_apply, broadcastTo_a1_ab_apply, broadcastTo_1b_ab_apply,
    broadcast_apply]
  show max _ (Ideal.ofBits .f32 0x00000000#32) = _
  rw [Ideal.ofBits_zero_f32]

/-! ## From blocks to the array -/

theorem zero_offsets : (![0, 0] : Fin 2 → Nat) = fun _ => 0 := funext fun a => by fin_cases a <;> rfl

/-- Row `p` of the block of 5000 rows that grid point `n` works on, as a row of the whole array. -/
def rowAt (n : Nat) (hn : n < 20) (p : Fin 5000) : Fin 100000 := ⟨5000 * n + p.val, by have := p.isLt; omega⟩

/-! ### The first kernel -/

/-- The first kernel's output array as one function of the arrays it finds: (x·w) with row n scaled by dc[n]. -/
def lin0 (x : Forms.SX.Idx → EReal) (dc : S100000x1.Idx → EReal) (w : Forms.SW.Idx → EReal) : Forms.SX.Idx → EReal :=
  fun i => Forms.mmX x w i * dc (ix2 (i 0) 0)

/-- The block indices over the grid: the row-blocked windows (features, normalisation, output) are at block `t` of
    the rows at point `t`, the weight is whole. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature block at point `t` holds rows 5000·t … of the features. -/
theorem blk0_0 (x : Forms.SX.Idx → EReal) (hx : V c main_arg0 = x) (t : Fin cfg0.N) (ht : t.val < 20) (p : Fin 5000) (k : Fin 128) :
    (iblk0 V c 0 t : Vec Ideal S5000x128 .f32) (ix2 p k) = x (ix2 (rowAt t.val ht p) k) := by
  subst hx
  obtain ⟨e0, e1, -⟩ := index0 t
  show V c main_arg0 (((cfg0.win 0).blk t).view.emb (ix2 p k)) = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The normalisation block at point `t` holds rows 5000·t … of the normalisation column. -/
theorem blk0_1 (dc : S100000x1.Idx → EReal) (hdc : V c main_v20 = dc) (t : Fin cfg0.N) (ht : t.val < 20) (p : Fin 5000) :
    (iblk0 V c 1 t : Vec Ideal S5000x1 .f32) (ix2 p (0 : Fin 1)) = dc (ix2 (rowAt t.val ht p) (0 : Fin 1)) := by
  subst hdc
  obtain ⟨-, -, e0, e1, -⟩ := index0 t
  show V c main_v20 (((cfg0.win 1).blk t).view.emb (ix2 p (0 : Fin 1))) = _
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

/-- The weight's block is the whole weight at every point. -/
theorem blk0_3 (w : Forms.SW.Idx → EReal) (hw : V c main_v21 = w) (t : Fin cfg0.N) (k : Fin 128) (q : Fin 128) :
    (iblk0 V c 3 t : Vec Ideal S128x128 .bf16) (ix2 k q) = w (ix2 k q) := by
  subst hw
  obtain ⟨-, -, -, -, e0, e1, -⟩ := index0 t
  show V c main_v21 (((cfg0.win 3).blk t).view.emb (ix2 k q)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- What point `t` writes back is block `t` of `lin0` of the arrays the kernel finds. -/
theorem flushed0_eq (x : Forms.SX.Idx → EReal) (dc : S100000x1.Idx → EReal) (w : Forms.SW.Idx → EReal)
    (hx : V c main_arg0 = x) (hdc : V c main_v20 = dc) (hw : V c main_v21 = w) (t : Fin cfg0.N) :
    (dat0 (F := Ideal) V c).flushed 4 t = ((cfg0.win 4).blk t).view.read (Elt Ideal) (lin0 x dc w) := by
  have ht : t.val < 20 := Nat.lt_of_lt_of_eq t.isLt N_0
  obtain ⟨-, -, -, -, -, -, e0, e1⟩ := index0 t
  show (cfg0.win 4).cut (grid0.coords t) ((dat0 V c).after 4 t) = _
  rw [after0_4]
  unfold out0_4
  rw [View.canon_unit_zero zero_offsets]
  simp only [View.ld_unit_zero (S := S5000x128) zero_offsets, View.ld_unit_zero (S := S5000x1) zero_offsets,
    View.ld_unit_zero (S := S128x128) zero_offsets]
  funext j
  obtain ⟨p, q, rfl⟩ : ∃ (p : Fin 5000) (q : Fin 128), j = ix2 p q := ⟨j 0, j 1, eq_ix2 j⟩
  have hemb : (((cfg0.win 4).blk t).view.emb (ix2 p q) : S100000x128.Idx) = ix2 (rowAt t.val ht p) q :=
    funext fun a => Fin.ext (by
      match a with
      | ⟨0, _⟩ => show win0_4.index t (0 : Fin 2) * 5000 + 1 * p.val = 5000 * t.val + p.val; rw [e0]; omega
      | ⟨1, _⟩ => show win0_4.index t (1 : Fin 2) * 128 + 1 * q.val = q.val; rw [e1]; omega)
  show k0_pay1 (F := Ideal) (iblk0 V c 0 t) (iblk0 V c 1 t) (iblk0 V c 3 t) (ix2 p q)
    = lin0 x dc w (((cfg0.win 4).blk t).view.emb (ix2 p q))
  rw [hemb]
  refine (lin0_pay_apply _ _ _ p q).trans ?_
  show _ = (∑ k : Fin 128, x (ix2 (rowAt t.val ht p) k) * w (ix2 k q)) * dc (ix2 (rowAt t.val ht p) (0 : Fin 1))
  exact congrArg₂ (· * ·)
    (Finset.sum_congr rfl fun k _ => congrArg₂ (· * ·) (blk0_0 V c x hx t ht p k) (blk0_3 V c w hw t k q))
    (blk0_1 V c dc hdc t ht p)

/-- An index of the output array is in point `t`'s block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v26).slice (win0_4.rect t)).set ↔ _
  rw [View.set_slice_whole, Rect.mem_set_unit]
  exact Iff.rfl

/-- Every row of the output is in the block of the point that is its quotient by 5000. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := index0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

/-- First linear kernel: features `x` (window 0), normalisation column `dc` (window 1), weight `w` (window 3):
    the output array is (x·w) with row n scaled by dc[n]. -/
theorem arr0 (x : Forms.SX.Idx → EReal) (dc : S100000x1.Idx → EReal) (w : Forms.SW.Idx → EReal)
    (hx : V c main_arg0 = x) (hdc : V c main_v20 = dc) (hw : V c main_v21 = w) :
    (dat0 (F := Ideal) V c).arrAt 4 cfg0.N = fun i : Forms.SX.Idx => Forms.mmX x w i * dc (ix2 (i 0) 0) := by
  exact (dat0 V c).arrAt_eq_of_cover 4 (lin0 x dc w) (fun t _ => flushed0_eq V c x dc w hx hdc hw t) cover0

/-! ### The second kernel -/

/-- The second kernel's output array as one function of the arrays it finds: (max(dc∘a + br, 0)·w) with row n scaled
    by dc[n]. -/
def lin1 (a : Forms.SX.Idx → EReal) (dc : S100000x1.Idx → EReal) (br : S1x128.Idx → EReal) (w : Forms.SW.Idx → EReal) :
    Forms.SX.Idx → EReal :=
  fun i => Forms.mmX (fun i' => max (dc (ix2 (i' 0) 0) * a i' + br (ix2 0 (i' 1))) 0) w i * dc (ix2 (i 0) 0)

/-- The block indices over the grid: the row-blocked windows (aggregate, normalisation, output) are at block `t` of
    the rows at point `t`, the bias row and the weight are whole. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` holds rows 5000·t … of the aggregate. -/
theorem blk1_0 (a : Forms.SX.Idx → EReal) (ha : V c main_v42 = a) (t : Fin cfg1.N) (ht : t.val < 20) (p : Fin 5000)
    (k : Fin 128) : (iblk1 V c 0 t : Vec Ideal S5000x128 .f32) (ix2 p k) = a (ix2 (rowAt t.val ht p) k) := by
  subst ha
  obtain ⟨e0, e1, -⟩ := index1 t
  show V c main_v42 (((cfg1.win 0).blk t).view.emb (ix2 p k)) = _
  refine congrArg _ (funext fun ax => Fin.ext ?_)
  match ax with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The normalisation block at point `t` holds rows 5000·t … of the normalisation column. -/
theorem blk1_1 (dc : S100000x1.Idx → EReal) (hdc : V c main_v20 = dc) (t : Fin cfg1.N) (ht : t.val < 20) (p : Fin 5000) :
    (iblk1 V c 1 t : Vec Ideal S5000x1 .f32) (ix2 p (0 : Fin 1)) = dc (ix2 (rowAt t.val ht p) (0 : Fin 1)) := by
  subst hdc
  obtain ⟨-, -, e0, e1, -⟩ := index1 t
  show V c main_v20 (((cfg1.win 1).blk t).view.emb (ix2 p (0 : Fin 1))) = _
  refine congrArg _ (funext fun ax => Fin.ext ?_)
  match ax with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

/-- The bias row's block is the whole row at every point. -/
theorem blk1_2 (br : S1x128.Idx → EReal) (hbr : V c main_v43 = br) (t : Fin cfg1.N) (k : Fin 128) :
    (iblk1 V c 2 t : Vec Ideal S1x128 .f32) (ix2 (0 : Fin 1) k) = br (ix2 (0 : Fin 1) k) := by
  subst hbr
  obtain ⟨-, -, -, -, e0, e1, -⟩ := index1 t
  show V c main_v43 (((cfg1.win 2).blk t).view.emb (ix2 (0 : Fin 1) k)) = _
  refine congrArg _ (funext fun ax => Fin.ext ?_)
  match ax with
  | ⟨0, _⟩ => show win1_2.index t (0 : Fin 2) * 1 + 1 * 0 = 0; rw [e0]
  | ⟨1, _⟩ => show win1_2.index t (1 : Fin 2) * 128 + 1 * k.val = k.val; rw [e1]; omega

/-- The weight's block is the whole weight at every point. -/
theorem blk1_3 (w : Forms.SW.Idx → EReal) (hw : V c main_v22 = w) (t : Fin cfg1.N) (k : Fin 128) (q : Fin 128) :
    (iblk1 V c 3 t : Vec Ideal S128x128 .bf16) (ix2 k q) = w (ix2 k q) := by
  subst hw
  obtain ⟨-, -, -, -, -, -, e0, e1, -⟩ := index1 t
  show V c main_v22 (((cfg1.win 3).blk t).view.emb (ix2 k q)) = _
  refine congrArg _ (funext fun ax => Fin.ext ?_)
  match ax with
  | ⟨0, _⟩ => show win1_3.index t (0 : Fin 2) * 128 + 1 * k.val = k.val; rw [e0]; omega
  | ⟨1, _⟩ => show win1_3.index t (1 : Fin 2) * 128 + 1 * q.val = q.val; rw [e1]; omega

/-- What point `t` writes back is block `t` of `lin1` of the arrays the kernel finds. -/
theorem flushed1_eq (a : Forms.SX.Idx → EReal) (dc : S100000x1.Idx → EReal) (br : S1x128.Idx → EReal)
    (w : Forms.SW.Idx → EReal) (ha : V c main_v42 = a) (hdc : V c main_v20 = dc) (hbr : V c main_v43 = br)
    (hw : V c main_v22 = w) (t : Fin cfg1.N) :
    (dat1 (F := Ideal) V c).flushed 4 t = ((cfg1.win 4).blk t).view.read (Elt Ideal) (lin1 a dc br w) := by
  have ht : t.val < 20 := Nat.lt_of_lt_of_eq t.isLt N_1
  obtain ⟨-, -, -, -, -, -, -, -, e0, e1⟩ := index1 t
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x128) zero_offsets]
  funext j
  obtain ⟨p, q, rfl⟩ : ∃ (p : Fin 5000) (q : Fin 128), j = ix2 p q := ⟨j 0, j 1, eq_ix2 j⟩
  have hemb : (((cfg1.win 4).blk t).view.emb (ix2 p q) : S100000x128.Idx) = ix2 (rowAt t.val ht p) q :=
    funext fun ax => Fin.ext (by
      match ax with
      | ⟨0, _⟩ => show win1_4.index t (0 : Fin 2) * 5000 + 1 * p.val = 5000 * t.val + p.val; rw [e0]; omega
      | ⟨1, _⟩ => show win1_4.index t (1 : Fin 2) * 128 + 1 * q.val = q.val; rw [e1]; omega)
  show k1_pay1 (F := Ideal) (iblk1 V c 0 t) (iblk1 V c 1 t) (iblk1 V c 2 t) (iblk1 V c 3 t) (ix2 p q)
    = lin1 a dc br w (((cfg1.win 4).blk t).view.emb (ix2 p q))
  rw [hemb]
  refine (lin1_pay_apply _ _ _ _ p q).trans ?_
  show _ = (∑ k : Fin 128, max (dc (ix2 (rowAt t.val ht p) (0 : Fin 1)) * a (ix2 (rowAt t.val ht p) k)
      + br (ix2 (0 : Fin 1) k)) 0 * w (ix2 k q)) * dc (ix2 (rowAt t.val ht p) (0 : Fin 1))
  exact congrArg₂ (· * ·)
    (Finset.sum_congr rfl fun k _ => congrArg₂ (· * ·)
      (congrArg (fun z : EReal => max z 0) (congrArg₂ (· + ·)
        (congrArg₂ (· * ·) (blk1_1 V c dc hdc t ht p) (blk1_0 V c a ha t ht p k)) (blk1_2 V c br hbr t k)))
      (blk1_3 V c w hw t k q))
    (blk1_1 V c dc hdc t ht p)

/-- An index of the output array is in point `t`'s block iff each coordinate is in the block's range on its axis. -/
theorem mem_blk1 (t : Fin cfg1.N) (i : S100000x128.Idx) :
    i ∈ ((cfg1.win 4).blk t).view.set ↔ ∀ ax : Fin 2, win1_4.index t ax * S5000x128.size ax ≤ (i ax).val
      ∧ (i ax).val < win1_4.index t ax * S5000x128.size ax + S5000x128.size ax := by
  show i ∈ ((View.whole main_v44).slice (win1_4.rect t)).set ↔ _
  rw [View.set_slice_whole, Rect.mem_set_unit]
  exact Iff.rfl

/-- Every row of the output is in the block of the point that is its quotient by 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := index1 t
  refine ⟨t, flush1_4 t, ?_⟩
  rw [mem_blk1]
  intro ax
  match ax with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- Second linear kernel: raw aggregate `a` (window 0), `dc`, bias row `br` (window 2), weight `w`:
    (max(dc∘a + br, 0)·w) with row n scaled by dc[n]. -/
theorem arr1 (a : Forms.SX.Idx → EReal) (dc : S100000x1.Idx → EReal) (br : S1x128.Idx → EReal) (w : Forms.SW.Idx → EReal)
    (ha : V c main_v42 = a) (hdc : V c main_v20 = dc) (hbr : V c main_v43 = br) (hw : V c main_v22 = w) :
    (dat1 (F := Ideal) V c).arrAt 4 cfg1.N
      = fun i : Forms.SX.Idx => Forms.mmX (fun i' => max (dc (ix2 (i' 0) 0) * a i' + br (ix2 0 (i' 1))) 0) w i * dc (ix2 (i 0) 0) := by
  exact (dat1 V c).arrAt_eq_of_cover 4 (lin1 a dc br w) (fun t _ => flushed1_eq V c a dc br w ha hdc hbr hw t) cover1

/-! ### The third kernel -/

/-- The third kernel's output array as one function of the arrays it finds: (max(dc∘a + br, 0)·w) with row n scaled
    by dc[n]. -/
def lin2 (a : Forms.SX.Idx → EReal) (dc : S100000x1.Idx → EReal) (br : S1x128.Idx → EReal) (w : Forms.SW3.Idx → EReal) :
    Forms.SY.Idx → EReal :=
  fun i => Forms.mmY (fun i' => max (dc (ix2 (i' 0) 0) * a i' + br (ix2 0 (i' 1))) 0) w i * dc (ix2 (i 0) 0)

/-- The block indices over the grid: the row-blocked windows (aggregate, normalisation, output) are at block `t` of
    the rows at point `t`, the bias row and the weight are whole. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregate's block at point `t` holds rows 5000·t … of the aggregate. -/
theorem blk2_0 (a : Forms.SX.Idx → EReal) (ha : V c main_v60 = a) (t : Fin cfg2.N) (ht : t.val < 20) (p : Fin 5000)
    (k : Fin 128) : (iblk2 V c 0 t : Vec Ideal S5000x128 .f32) (ix2 p k) = a (ix2 (rowAt t.val ht p) k) := by
  subst ha
  obtain ⟨e0, e1, -⟩ := index2 t
  show V c main_v60 (((cfg2.win 0).blk t).view.emb (ix2 p k)) = _
  refine congrArg _ (funext fun ax => Fin.ext ?_)
  match ax with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The normalisation block at point `t` holds rows 5000·t … of the normalisation column. -/
theorem blk2_1 (dc : S100000x1.Idx → EReal) (hdc : V c main_v20 = dc) (t : Fin cfg2.N) (ht : t.val < 20) (p : Fin 5000) :
    (iblk2 V c 1 t : Vec Ideal S5000x1 .f32) (ix2 p (0 : Fin 1)) = dc (ix2 (rowAt t.val ht p) (0 : Fin 1)) := by
  subst hdc
  obtain ⟨-, -, e0, e1, -⟩ := index2 t
  show V c main_v20 (((cfg2.win 1).blk t).view.emb (ix2 p (0 : Fin 1))) = _
  refine congrArg _ (funext fun ax => Fin.ext ?_)
  match ax with
  | ⟨0, _⟩ => show win2_1.index t (0 : Fin 2) * 5000 + 1 * p.val = 5000 * t.val + p.val; rw [e0]; omega
  | ⟨1, _⟩ => show win2_1.index t (1 : Fin 2) * 1 + 1 * 0 = 0; rw [e1]

/-- The bias row's block is the whole row at every point. -/
theorem blk2_2 (br : S1x128.Idx → EReal) (hbr : V c main_v61 = br) (t : Fin cfg2.N) (k : Fin 128) :
    (iblk2 V c 2 t : Vec Ideal S1x128 .f32) (ix2 (0 : Fin 1) k) = br (ix2 (0 : Fin 1) k) := by
  subst hbr
  obtain ⟨-, -, -, -, e0, e1, -⟩ := index2 t
  show V c main_v61 (((cfg2.win 2).blk t).view.emb (ix2 (0 : Fin 1) k)) = _
  refine congrArg _ (funext fun ax => Fin.ext ?_)
  match ax with
  | ⟨0, _⟩ => show win2_2.index t (0 : Fin 2) * 1 + 1 * 0 = 0; rw [e0]
  | ⟨1, _⟩ => show win2_2.index t (1 : Fin 2) * 128 + 1 * k.val = k.val; rw [e1]; omega

/-- The weight's block is the whole weight at every point. -/
theorem blk2_3 (w : Forms.SW3.Idx → EReal) (hw : V c main_v23 = w) (t : Fin cfg2.N) (k : Fin 128) (q : Fin 64) :
    (iblk2 V c 3 t : Vec Ideal S128x64 .bf16) (ix2 k q) = w (ix2 k q) := by
  subst hw
  obtain ⟨-, -, -, -, -, -, e0, e1, -⟩ := index2 t
  show V c main_v23 (((cfg2.win 3).blk t).view.emb (ix2 k q)) = _
  refine congrArg _ (funext fun ax => Fin.ext ?_)
  match ax with
  | ⟨0, _⟩ => show win2_3.index t (0 : Fin 2) * 128 + 1 * k.val = k.val; rw [e0]; omega
  | ⟨1, _⟩ => show win2_3.index t (1 : Fin 2) * 64 + 1 * q.val = q.val; rw [e1]; omega

/-- What point `t` writes back is block `t` of `lin2` of the arrays the kernel finds. -/
theorem flushed2_eq (a : Forms.SX.Idx → EReal) (dc : S100000x1.Idx → EReal) (br : S1x128.Idx → EReal)
    (w : Forms.SW3.Idx → EReal) (ha : V c main_v60 = a) (hdc : V c main_v20 = dc) (hbr : V c main_v61 = br)
    (hw : V c main_v23 = w) (t : Fin cfg2.N) :
    (dat2 (F := Ideal) V c).flushed 4 t = ((cfg2.win 4).blk t).view.read (Elt Ideal) (lin2 a dc br w) := by
  have ht : t.val < 20 := Nat.lt_of_lt_of_eq t.isLt N_2
  obtain ⟨-, -, -, -, -, -, -, -, e0, e1⟩ := index2 t
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x64) zero_offsets]
  funext j
  obtain ⟨p, q, rfl⟩ : ∃ (p : Fin 5000) (q : Fin 64), j = ix2 p q := ⟨j 0, j 1, eq_ix2 j⟩
  have hemb : (((cfg2.win 4).blk t).view.emb (ix2 p q) : S100000x64.Idx) = ix2 (rowAt t.val ht p) q :=
    funext fun ax => Fin.ext (by
      match ax with
      | ⟨0, _⟩ => show win2_4.index t (0 : Fin 2) * 5000 + 1 * p.val = 5000 * t.val + p.val; rw [e0]; omega
      | ⟨1, _⟩ => show win2_4.index t (1 : Fin 2) * 64 + 1 * q.val = q.val; rw [e1]; omega)
  show k2_pay1 (F := Ideal) (iblk2 V c 0 t) (iblk2 V c 1 t) (iblk2 V c 2 t) (iblk2 V c 3 t) (ix2 p q)
    = lin2 a dc br w (((cfg2.win 4).blk t).view.emb (ix2 p q))
  rw [hemb]
  refine (lin2_pay_apply _ _ _ _ p q).trans ?_
  show _ = (∑ k : Fin 128, max (dc (ix2 (rowAt t.val ht p) (0 : Fin 1)) * a (ix2 (rowAt t.val ht p) k)
      + br (ix2 (0 : Fin 1) k)) 0 * w (ix2 k q)) * dc (ix2 (rowAt t.val ht p) (0 : Fin 1))
  exact congrArg₂ (· * ·)
    (Finset.sum_congr rfl fun k _ => congrArg₂ (· * ·)
      (congrArg (fun z : EReal => max z 0) (congrArg₂ (· + ·)
        (congrArg₂ (· * ·) (blk2_1 V c dc hdc t ht p) (blk2_0 V c a ha t ht p k)) (blk2_2 V c br hbr t k)))
      (blk2_3 V c w hw t k q))
    (blk2_1 V c dc hdc t ht p)

/-- An index of the output array is in point `t`'s block iff each coordinate is in the block's range on its axis. -/
theorem mem_blk2 (t : Fin cfg2.N) (i : S100000x64.Idx) :
    i ∈ ((cfg2.win 4).blk t).view.set ↔ ∀ ax : Fin 2, win2_4.index t ax * S5000x64.size ax ≤ (i ax).val
      ∧ (i ax).val < win2_4.index t ax * S5000x64.size ax + S5000x64.size ax := by
  show i ∈ ((View.whole main_v62).slice (win2_4.rect t)).set ↔ _
  rw [View.set_slice_whole, Rect.mem_set_unit]
  exact Iff.rfl

/-- Every row of the output is in the block of the point that is its quotient by 5000. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := index2 t
  refine ⟨t, flush2_4 t, ?_⟩
  rw [mem_blk2]
  intro ax
  match ax with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 64 ≤ (i 1).val ∧ (i 1).val < win2_4.index t (1 : Fin 2) * 64 + 64
    rw [e1]; omega

/-- Third linear kernel: the same with the 128×64 weight. -/
theorem arr2 (a : Forms.SX.Idx → EReal) (dc : S100000x1.Idx → EReal) (br : S1x128.Idx → EReal) (w : Forms.SW3.Idx → EReal)
    (ha : V c main_v60 = a) (hdc : V c main_v20 = dc) (hbr : V c main_v61 = br) (hw : V c main_v23 = w) :
    (dat2 (F := Ideal) V c).arrAt 4 cfg2.N
      = fun i : Forms.SY.Idx => Forms.mmY (fun i' => max (dc (ix2 (i' 0) 0) * a i' + br (ix2 0 (i' 1))) 0) w i * dc (ix2 (i 0) 0) := by
  exact (dat2 V c).arrAt_eq_of_cover 4 (lin2 a dc br w) (fun t _ => flushed2_eq V c a dc br w ha hdc hbr hw t) cover2

/-! ## The min-pool kernel -/

/-- The +∞ word denotes ⊤. -/
theorem pool_ofBits_inf : Ideal.ofBits .f32 0x7F800000#32 = (⊤ : EReal) := by
  simp [Ideal.ofBits, Ideal.ieee]

/-- A fold of min from ⊤ is the infimum. -/
theorem pool_fold_min_top {ι : Type} (s : Finset ι) (f : ι → EReal) : s.fold min ⊤ f = s.inf f := by
  rfl

theorem pool_pay1_apply (j : S1x64.Idx) : k3_pay1 (F := Ideal) j = (⊤ : EReal) := by
  unfold k3_pay1
  simp only [shapeCast_self]
  show Ideal.ofBits .f32 0x7F800000#32 = ⊤
  exact pool_ofBits_inf

/-- A minimum-reduction over one axis, at the ideal reading: the fold of min from the accumulator's value over that
    axis's coordinates. -/
theorem pool_multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index over lane k with row r inserted. -/
theorem pool_lift_rows (h : S5000x64.Reduces [0] S64) (k : Fin 64) (r : Fin 5000) :
    h.lift (ix1 k) r = (ix2 r k : S5000x64.Idx) := by
  funext c
  apply Fin.ext
  show h.liftVal (ix1 k) r.val c = _
  match c with
  | ⟨0, _⟩ => simp [Shape.Reduces.liftVal]
  | ⟨1, _⟩ => simp [Shape.Reduces.liftVal]

/-- One point's payload at lane k: the minimum of the accumulator's lane and of the block's column k scaled by d. -/
theorem pool_pay2_apply (a : Vec Ideal S5000x64 .f32) (d : Vec Ideal S5000x1 .f32) (s : Vec Ideal S1x64 .f32) (k : Fin 64) :
    k3_pay2 a d s (ix2 (0 : Fin 1) k)
      = min (s (ix2 (0 : Fin 1) k)) (Finset.univ.inf fun r : Fin 5000 => a (ix2 r k) * d (ix2 r (0 : Fin 1))) := by
  unfold k3_pay2
  simp only [shapeCast_self]
  rw [minimumf_apply]
  refine congrArg (min (s (ix2 (0 : Fin 1) k))) ?_
  refine (shapeCast_apply _ _ (ix2 (0 : Fin 1) k) (ix1 k) (by rw [Shape.rowMajor_val_one, Shape.rowMajor_val_two]; simp)).trans ?_
  refine (pool_multiReduction_minimumf_single _ _ _ _ _ _).trans ?_
  rw [show FloatOps.ofBits (F := Ideal) .f32 2139095040#32 = (⊤ : EReal) from pool_ofBits_inf]
  refine (pool_fold_min_top (ι := Fin 5000) Finset.univ _).trans ?_
  refine Finset.inf_congr rfl fun r _ => ?_
  show (mulf (a : FVec Ideal S5000x64 .f32) (broadcastTo S5000x64 (d : FVec Ideal S5000x1 .f32) broadcasts_S5000x1_S5000x64) : FVec Ideal S5000x64 .f32)
    (reduces_S5000x64_S64.lift (ix1 k) r) = _
  rw [pool_lift_rows, mulf_apply]
  refine congrArg (a (ix2 r k) * ·) ?_
  exact broadcastTo_apply d _ _ (ix2 r 0) (fun c => by
    match c with
    | ⟨0, _⟩ => simp
    | ⟨1, _⟩ => simp)

theorem pool_hz2 : (![0, 0] : Fin 2 → Nat) = fun _ => 0 := funext fun a => by fin_cases a <;> rfl

/-- The last point's copy leaves the accumulator itself. -/
theorem pool_out3_eq (s : Vec Ideal S1x64 .f32) : out3 s = s := by
  unfold out3
  rw [View.canon_unit_zero pool_hz2, View.ld_unit_zero pool_hz2]

/-- The reset accumulator is ⊤ in every lane. -/
theorem pool_accInit_apply (j : S1x64.Idx) : accInit (F := Ideal) j = (⊤ : EReal) := by
  unfold accInit
  rw [View.canon_unit_zero pool_hz2]
  exact pool_pay1_apply j

/-- One point's fold at lane k. -/
theorem pool_accStep_apply (a : Vec Ideal S5000x64 .f32) (d : Vec Ideal S5000x1 .f32) (s : Vec Ideal S1x64 .f32) (k : Fin 64) :
    accStep a d s (ix2 (0 : Fin 1) k)
      = min (s (ix2 (0 : Fin 1) k)) (Finset.univ.inf fun r : Fin 5000 => a (ix2 r k) * d (ix2 r (0 : Fin 1))) := by
  unfold accStep
  rw [View.canon_unit_zero pool_hz2, View.ld_unit_zero pool_hz2, View.ld_unit_zero pool_hz2, View.ld_unit_zero pool_hz2]
  exact pool_pay2_apply a d s k

/-- The infimum over the rows below 5000·(n+1) is the minimum of the one over the rows below 5000·n and the
    one over block n's 5000 rows. -/
theorem pool_inf_rows_succ (f : Fin 100000 → EReal) (n : ℕ) (hn : n < 20) :
    (Finset.univ.filter fun m : Fin 100000 => m.val < 5000 * (n + 1)).inf f
      = min ((Finset.univ.filter fun m : Fin 100000 => m.val < 5000 * n).inf f)
          (Finset.univ.inf fun r : Fin 5000 => f ⟨5000 * n + r.val, by have := r.isLt; omega⟩) := by
  apply le_antisymm
  · apply le_min
    · exact Finset.inf_mono (fun m hm => by
        rw [Finset.mem_filter] at hm ⊢; exact ⟨hm.1, by omega⟩)
    · exact Finset.le_inf fun r _ => Finset.inf_le (by
        rw [Finset.mem_filter]
        exact ⟨Finset.mem_univ _, by have := r.isLt; show 5000 * n + r.val < 5000 * (n + 1); omega⟩)
  · refine Finset.le_inf fun m hm => ?_
    rw [Finset.mem_filter] at hm
    by_cases h : m.val < 5000 * n
    · exact (min_le_left _ _).trans (Finset.inf_le (by rw [Finset.mem_filter]; exact ⟨Finset.mem_univ _, h⟩))
    · refine (min_le_right _ _).trans ?_
      have hr : m.val - 5000 * n < 5000 := by omega
      refine (Finset.inf_le (Finset.mem_univ (⟨m.val - 5000 * n, hr⟩ : Fin 5000))).trans_eq ?_
      exact congrArg f (Fin.ext (by show 5000 * n + (m.val - 5000 * n) = m.val; omega))

/-- The index maps over the grid: both inputs' block index is the point on the row axis and zero on the other;
    the output's is zero on both. -/
theorem pool_idx3 : ∀ t : Fin cfg3.N, win3_0.index t 0 = t.val ∧ win3_0.index t 1 = 0 ∧ win3_1.index t 0 = t.val ∧ win3_1.index t 1 = 0
      ∧ win3_2.index t 0 = 0 ∧ win3_2.index t 1 = 0 :=
  (by decide +kernel : ∀ t : Fin grid3.N, win3_0.index t 0 = t.val ∧ win3_0.index t 1 = 0 ∧ win3_1.index t 0 = t.val ∧ win3_1.index t 1 = 0
      ∧ win3_2.index t 0 = 0 ∧ win3_2.index t 1 = 0)

/-- Row r of the aggregate's block at point t is the array's row 5000·t + r. -/
theorem pool_iblkA_apply (t : Fin cfg3.N) (r : Fin 5000) (k : Fin 64) (h : 5000 * t.val + r.val < 100000) :
    iblk3 V c 0 t (ix2 r k) = V c main_v78 (ix2 ⟨5000 * t.val + r.val, h⟩ k) := by
  unfold iblk3
  rw [View.read_apply]
  show V c main_v78 (((cfg3.win 0).blk t).view.emb (ix2 r k)) = _
  refine congrArg (V c main_v78) (funext fun a => Fin.ext ?_)
  match a with
  | ⟨0, _⟩ => show win3_0.index t 0 * 5000 + 1 * r.val = 5000 * t.val + r.val; rw [(pool_idx3 t).1]; omega
  | ⟨1, _⟩ => show win3_0.index t 1 * 64 + 1 * k.val = k.val; rw [(pool_idx3 t).2.1]; omega

/-- Row r of the normalisation column's block at point t is the column's row 5000·t + r. -/
theorem pool_iblkD_apply (t : Fin cfg3.N) (r : Fin 5000) (h : 5000 * t.val + r.val < 100000) :
    iblk3 V c 1 t (ix2 r (0 : Fin 1)) = V c main_v20 (ix2 ⟨5000 * t.val + r.val, h⟩ (0 : Fin 1)) := by
  unfold iblk3
  rw [View.read_apply]
  show V c main_v20 (((cfg3.win 1).blk t).view.emb (ix2 r (0 : Fin 1))) = _
  refine congrArg (V c main_v20) (funext fun a => Fin.ext ?_)
  match a with
  | ⟨0, _⟩ => show win3_1.index t 0 * 5000 + 1 * r.val = 5000 * t.val + r.val; rw [(pool_idx3 t).2.2.1]; omega
  | ⟨1, _⟩ => show win3_1.index t 1 * 1 + 1 * 0 = 0; rw [(pool_idx3 t).2.2.2.1]

/-- The accumulator after point n, at lane k: the minimum over the rows below 5000·(n+1) of a[m,k]·dc[m]. -/
theorem pool_acc3_apply (a : Forms.SY.Idx → EReal) (dc : S100000x1.Idx → EReal)
    (ha : V c main_v78 = a) (hdc : V c main_v20 = dc) (k : Fin 64) :
    ∀ (n : ℕ) (h : n < cfg3.N), acc3 V c n h (ix2 (0 : Fin 1) k)
      = (Finset.univ.filter fun m : Fin 100000 => m.val < 5000 * (n + 1)).inf fun m => a (ix2 m k) * dc (ix2 m (0 : Fin 1))
  | 0, h => by
    rw [pool_inf_rows_succ _ 0 (by omega)]
    rw [show acc3 V c 0 h = accStep (iblk3 V c 0 ⟨0, h⟩) (iblk3 V c 1 ⟨0, h⟩) accInit from rfl, pool_accStep_apply, pool_accInit_apply]
    refine congrArg₂ min ?_ (Finset.inf_congr rfl fun r _ => ?_)
    · rw [show (Finset.univ.filter fun m : Fin 100000 => m.val < 5000 * 0) = ∅ from
        Finset.filter_eq_empty_iff.mpr fun m _ => by omega]
      rfl
    · rw [pool_iblkA_apply V c ⟨0, h⟩ r k (by have := r.isLt; show 5000 * 0 + r.val < 100000; omega),
        pool_iblkD_apply V c ⟨0, h⟩ r (by have := r.isLt; show 5000 * 0 + r.val < 100000; omega), ha, hdc]
  | n + 1, h => by
    have hN : cfg3.N = 20 := N_3
    rw [pool_inf_rows_succ _ (n + 1) (by omega)]
    rw [show acc3 V c (n + 1) h = accStep (iblk3 V c 0 ⟨n + 1, h⟩) (iblk3 V c 1 ⟨n + 1, h⟩) (acc3 V c n (Nat.lt_of_succ_lt h)) from rfl,
      pool_accStep_apply, pool_acc3_apply a dc ha hdc k n]
    refine congrArg (min _) (Finset.inf_congr rfl fun r _ => ?_)
    rw [pool_iblkA_apply V c ⟨n + 1, h⟩ r k (by have := r.isLt; show 5000 * (n + 1) + r.val < 100000; omega),
      pool_iblkD_apply V c ⟨n + 1, h⟩ r (by have := r.isLt; show 5000 * (n + 1) + r.val < 100000; omega), ha, hdc]

/-- The min-pool kernel: raw aggregate `a` (window 0) and `dc`: per channel the minimum over all nodes of a[n,·]·dc[n]. -/
theorem arr3 (a : Forms.SY.Idx → EReal) (dc : S100000x1.Idx → EReal)
    (ha : V c main_v78 = a) (hdc : V c main_v20 = dc) :
    (dat3 (F := Ideal) V c).arrAt 2 cfg3.N
      = fun i : S1x64.Idx => Finset.univ.inf fun n : Fin 100000 => a (ix2 n (i 1)) * dc (ix2 n 0) := by
  have hN : cfg3.N = 20 := N_3
  have h19 : 19 < cfg3.N := by omega
  -- the one write-back, at the last point, covers the whole 1×64 array with the accumulator
  have final : (dat3 (F := Ideal) V c).arrAt 2 cfg3.N = acc3 V c 19 h19 := by
    refine (dat3 (F := Ideal) V c).arrAt_eq_of_cover 2 (acc3 V c 19 h19) (fun t hf => ?_)
      (fun i => ⟨⟨19, h19⟩, (flush3_2 _).mpr rfl, ?_⟩)
    · have ht : t.val = 19 := by have := (flush3_2 t).mp hf; have := t.isLt; omega
      obtain rfl : t = ⟨19, h19⟩ := Fin.ext ht
      show (cfg3.win 2).cut (grid3.coords ⟨19, h19⟩) ((dat3 (F := Ideal) V c).after 2 ⟨19, h19⟩) = _
      rw [after3_2, pool_out3_eq]
      have hz' : (fun a => win3_2.index ⟨19, h19⟩ a * main_v79.ty.shape.size a) = fun _ => 0 :=
        funext fun a => by
          match a with
          | ⟨0, _⟩ => show win3_2.index ⟨19, h19⟩ 0 * _ = 0; rw [(pool_idx3 _).2.2.2.2.1, Nat.zero_mul]
          | ⟨1, _⟩ => show win3_2.index ⟨19, h19⟩ 1 * _ = 0; rw [(pool_idx3 _).2.2.2.2.2, Nat.zero_mul]
      exact (Memref.read_access_unit_zero (Elt Ideal) main_v79 hz' (fun a => by rw [congrFun hz' a]; simp) _).symm
    · show i ∈ ((View.whole main_v79).slice (win3_2.rect ⟨19, h19⟩)).set
      rw [View.set_slice_whole, Rect.mem_set_unit]
      intro a
      have h0 : (i 0 : Nat) < 1 := (i 0).isLt
      have h1 : (i 1 : Nat) < 64 := (i 1).isLt
      match a with
      | ⟨0, _⟩ =>
        show win3_2.index ⟨19, h19⟩ 0 * win3_2.size 0 ≤ (i 0 : Nat) ∧ (i 0 : Nat) < win3_2.index ⟨19, h19⟩ 0 * win3_2.size 0 + win3_2.xsize (grid3.coords ⟨19, h19⟩) 0
        rw [(pool_idx3 _).2.2.2.2.1, show win3_2.xsize (grid3.coords ⟨19, h19⟩) 0 = 1 from rfl]; omega
      | ⟨1, _⟩ =>
        show win3_2.index ⟨19, h19⟩ 1 * win3_2.size 1 ≤ (i 1 : Nat) ∧ (i 1 : Nat) < win3_2.index ⟨19, h19⟩ 1 * win3_2.size 1 + win3_2.xsize (grid3.coords ⟨19, h19⟩) 1
        rw [(pool_idx3 _).2.2.2.2.2, show win3_2.xsize (grid3.coords ⟨19, h19⟩) 1 = 64 from rfl]; omega
  rw [final]
  funext i
  obtain ⟨i0, k, rfl⟩ : ∃ (i0 : Fin 1) (k : Fin 64), i = ix2 i0 k := ⟨i 0, i 1, eq_ix2 i⟩
  obtain rfl : i0 = 0 := Subsingleton.elim _ _
  rw [pool_acc3_apply V c a dc ha hdc k 19 h19]
  show _ = Finset.univ.inf fun n : Fin 100000 => a (ix2 n k) * dc (ix2 n 0)
  rw [Finset.filter_true_of_mem fun m _ => by have := m.isLt; omega]

end Cert.KernelIdeal.HandV

end
-- ==== Proof.KIV.KerValue.lean ====
/-
  The kernel program's result as a closed form, at the ideal (extended-real) reading: walking the eleven items of the
  program — host operations that build the index columns and the degree normalisation d, the first linear kernel
  (rows of x·W1 scaled by d), the gather / scatter-add of the scaled rows along the edges, the second and third linear
  kernels (each first scaling the raw aggregate by d, adding the bias and taking the positive part), the min-pool
  kernel and the closing bias — the result buffer holds `Forms.kerOut` of the argument arrays.
-/
import proofs.«132209_j48962627175096_2_alg».proof.Proof.KIV.Arr
import Idealize.ShloMosaic.Lib.StableHlo.Run

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem Idealize.ShloMosaic.StableHlo
open scoped BigOperators

variable (m : (ℓ : Loc nD τ sig) → Buf (Elt Ideal) ℓ) (c : Dev nD)

/-! ## The plumbing as the kernel program computes it -/

/-- The degree normalisation vector, as the first host stretches leave it. -/
def dvecK : Forms.SN.Idx → EReal := W3 (F := Ideal) m c (Proc.devRef .tc main_v19)
/-- The source and destination index columns (negative indices wrapped), as the host stretch before the second
    kernel computes them. -/
def srcCK : IVec S1700000x1 32 := W5 (F := Ideal) m c (Proc.devRef .tc main_v32)
def dstCK : IVec S1700000x1 32 := W5 (F := Ideal) m c (Proc.devRef .tc main_v41)

def landsXK (j : Forms.SEX.Idx) (i : Forms.SX.Idx) : Prop :=
  scatter_S100000x128_S1700000x1_S1700000x128_1_0_0_1.resultIdx? j (dstCK m c) = some i
instance (j : Forms.SEX.Idx) (i : Forms.SX.Idx) : Decidable (landsXK m c j i) := by unfold landsXK; infer_instance
def srcXK (j : Forms.SEX.Idx) : Forms.SX.Idx :=
  gather_S100000x128_S1700000x1_S1700000x128_1_0_n_n_0_1_1128.operandIdx j (srcCK m c)
def landsYK (j : Forms.SEY.Idx) (i : Forms.SY.Idx) : Prop :=
  scatter_S100000x64_S1700000x1_S1700000x64_1_0_0_1.resultIdx? j (dstCK m c) = some i
instance (j : Forms.SEY.Idx) (i : Forms.SY.Idx) : Decidable (landsYK m c j i) := by unfold landsYK; infer_instance
def srcYK (j : Forms.SEY.Idx) : Forms.SY.Idx :=
  gather_S100000x64_S1700000x1_S1700000x64_1_0_n_n_0_1_164.operandIdx j (srcCK m c)

/-! ## The argument arrays and the closed forms between the items -/

abbrev argX : Forms.SX.Idx → EReal := m ((c.tc : Thread nD τ).loc main_arg0)
abbrev argW1 : Forms.SW.Idx → EReal := m ((c.tc : Thread nD τ).loc main_arg2)
abbrev argB1 : Forms.SB.Idx → EReal := m ((c.tc : Thread nD τ).loc main_arg3)
abbrev argW2 : Forms.SW.Idx → EReal := m ((c.tc : Thread nD τ).loc main_arg4)
abbrev argB2 : Forms.SB.Idx → EReal := m ((c.tc : Thread nD τ).loc main_arg5)
abbrev argW3 : Forms.SW3.Idx → EReal := m ((c.tc : Thread nD τ).loc main_arg6)
abbrev argB3 : Forms.SB3.Idx → EReal := m ((c.tc : Thread nD τ).loc main_arg7)

/-- The first kernel's output: the rows of x·W1 scaled by the normalisation. -/
def sc1 : Forms.SX.Idx → EReal := Forms.kerScaledX (dvecK m c) (argX m c) (argW1 m c)
/-- Its raw aggregate along the edges. -/
def ag1 : Forms.SX.Idx → EReal := Forms.kerAgg (landsXK m c) (srcXK m c) (sc1 m c)
/-- The second kernel's output. -/
def sc2 : Forms.SX.Idx → EReal :=
  Forms.kerScaledX (dvecK m c) (Forms.kerNext (dvecK m c) (ag1 m c) (argB1 m c)) (argW2 m c)
def ag2 : Forms.SX.Idx → EReal := Forms.kerAgg (landsXK m c) (srcXK m c) (sc2 m c)
/-- The third kernel's output (64 channels). -/
def sc3 : Forms.SY.Idx → EReal :=
  Forms.kerScaledY (dvecK m c) (argW3 m c) (Forms.kerNext (dvecK m c) (ag2 m c) (argB2 m c))
def ag3 : Forms.SY.Idx → EReal := Forms.kerAgg (landsYK m c) (srcYK m c) (sc3 m c)
/-- The pooled row: per channel the minimum over the nodes of the scaled raw aggregate. -/
def pooled : S1x64.Idx → EReal :=
  fun i => Finset.univ.inf fun n : Fin 100000 => ag3 m c (ix2 n (i 1)) * dvecK m c (ix1 n)

/-! ## The chain, item by item -/

/-- The buffers the chain reads, each at the boundary after the item that writes it, as functions of their literal
    index types. -/
abbrev b26 : Forms.SX.Idx → EReal := W4 (F := Ideal) m c (Proc.devRef .tc main_v26)
abbrev b42 : Forms.SX.Idx → EReal := W5 (F := Ideal) m c (Proc.devRef .tc main_v42)
abbrev b44 : Forms.SX.Idx → EReal := W6 (F := Ideal) m c (Proc.devRef .tc main_v44)
abbrev b60 : Forms.SX.Idx → EReal := W7 (F := Ideal) m c (Proc.devRef .tc main_v60)
abbrev b62 : Forms.SY.Idx → EReal := W8 (F := Ideal) m c (Proc.devRef .tc main_v62)
abbrev b78 : Forms.SY.Idx → EReal := W9 (F := Ideal) m c (Proc.devRef .tc main_v78)
abbrev b79 : S1x64.Idx → EReal := W10 (F := Ideal) m c (Proc.devRef .tc main_v79)
abbrev b81 : Forms.SB3.Idx → EReal := W11 (F := Ideal) m c (Proc.devRef .tc main_v81)

/-! ### Reading a host stretch, and what the items leave alone -/

/-- The normalisation as the column the kernels read. -/
abbrev dcK : S100000x1.Idx → EReal := W3 (F := Ideal) m c (Proc.devRef .tc main_v20)
/-- The bias rows the second and third kernels read. -/
abbrev rowB1 : S1x128.Idx → EReal := W5 (F := Ideal) m c (Proc.devRef .tc main_v43)
abbrev rowB2 : S1x128.Idx → EReal := W7 (F := Ideal) m c (Proc.devRef .tc main_v61)

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column is the normalisation vector with a unit axis added. -/
theorem dcK_apply (n : Fin 100000) (u : Fin 1) : dcK m c (ix2 n u) = dvecK m c (ix1 n) := by
  have e : dcK m c = shapeCast S100000x1 (dvecK m c) shapeCasts_S100000_S100000x1 := by
    unfold dvecK
    show StableHlo.after hostOps0_2 (W2 (F := Ideal) m c) (Proc.devRef .tc main_v20)
      = shapeCast S100000x1 (StableHlo.after hostOps0_2 (W2 (F := Ideal) m c) (Proc.devRef .tc main_v19)) shapeCasts_S100000_S100000x1
    after_results_simp <;> rfl
  rw [e]
  exact shapeCast_a_a1_apply _ _ n u

/-- The first three host stretches leave the arguments alone, and cast the weights to a narrower float format, which at
    the extended reals changes nothing. -/
theorem W3_arg0 : W3 (F := Ideal) m c (Proc.devRef .tc main_arg0) = argX m c := by
  show StableHlo.after hostOps0_2 (StableHlo.after hostOps0_1 (StableHlo.after hostOps0 (W0 (F := Ideal) m c))) (Proc.devRef .tc main_arg0) = _
  after_results_simp <;> rfl
theorem W3_arg3 : W3 (F := Ideal) m c (Proc.devRef .tc main_arg3) = argB1 m c := by
  show StableHlo.after hostOps0_2 (StableHlo.after hostOps0_1 (StableHlo.after hostOps0 (W0 (F := Ideal) m c))) (Proc.devRef .tc main_arg3) = _
  after_results_simp <;> rfl
theorem W3_arg5 : W3 (F := Ideal) m c (Proc.devRef .tc main_arg5) = argB2 m c := by
  show StableHlo.after hostOps0_2 (StableHlo.after hostOps0_1 (StableHlo.after hostOps0 (W0 (F := Ideal) m c))) (Proc.devRef .tc main_arg5) = _
  after_results_simp <;> rfl
theorem W3_arg7 : W3 (F := Ideal) m c (Proc.devRef .tc main_arg7) = argB3 m c := by
  show StableHlo.after hostOps0_2 (StableHlo.after hostOps0_1 (StableHlo.after hostOps0 (W0 (F := Ideal) m c))) (Proc.devRef .tc main_arg7) = _
  after_results_simp <;> rfl
theorem W3_v21 : W3 (F := Ideal) m c (Proc.devRef .tc main_v21) = argW1 m c := by
  show StableHlo.after hostOps0_2 (StableHlo.after hostOps0_1 (StableHlo.after hostOps0 (W0 (F := Ideal) m c))) (Proc.devRef .tc main_v21) = _
  after_results_simp <;> rfl
theorem W3_v22 : W3 (F := Ideal) m c (Proc.devRef .tc main_v22) = argW2 m c := by
  show StableHlo.after hostOps0_2 (StableHlo.after hostOps0_1 (StableHlo.after hostOps0 (W0 (F := Ideal) m c))) (Proc.devRef .tc main_v22) = _
  after_results_simp <;> rfl
theorem W3_v23 : W3 (F := Ideal) m c (Proc.devRef .tc main_v23) = argW3 m c := by
  show StableHlo.after hostOps0_2 (StableHlo.after hostOps0_1 (StableHlo.after hostOps0 (W0 (F := Ideal) m c))) (Proc.devRef .tc main_v23) = _
  after_results_simp <;> rfl

theorem step_sc1 : b26 m c = sc1 m c := by
  have h := arr0 (V3 (F := Ideal) m) c (argX m c) (dcK m c) (argW1 m c) (W3_arg0 m c) rfl (W3_v21 m c)
  refine ((W4_arr (F := Ideal) m c 4).trans h).trans ?_
  funext i
  unfold sc1 Forms.kerScaledX
  rw [dcK_apply m c (i 0) 0]

/-! ### A scatter-add of gathered entries -/

/-- At the extended reals an accumulating scatter, into zeros, of the entries a gather reads is at each entry the sum,
    over the messages landing there, of the entries they read. -/
theorem scatterAdd_gather_zero {s si sg su : Shape} {w : Nat} (sd : ScatterDims s si su) (gd : GatherDims s sg su)
    (t : s.Idx → EReal) (dst : IVec si w) (src : IVec sg w) (z : s.Idx → EReal) (hz : ∀ i, z i = 0) :
    Ideal.hostScatterAdd sd z dst (Host.gather gd t src)
      = fun i => 0 + ∑ j ∈ Finset.univ.filter (fun j => sd.resultIdx? j dst = some i), t (gd.operandIdx j src) := by
  funext i
  unfold Ideal.hostScatterAdd
  rw [hz i]
  rfl

theorem zerosX_apply (i : S100000x128.Idx) :
    (broadcastInDim S100000x128 ![] bcast_S_S100000x128 (constant (F := Ideal) S_ .f32 0x00000000#32) : S100000x128.Idx → EReal) i = 0 :=
  Ideal.ofBits_zero_f32
theorem zerosY_apply (i : S100000x64.Idx) :
    (broadcastInDim S100000x64 ![] bcast_S_S100000x64 (constant (F := Ideal) S_ .f32 0x00000000#32) : S100000x64.Idx → EReal) i = 0 :=
  Ideal.ofBits_zero_f32

/-- The raw aggregate of 128-channel entries `t` as the host stretches compute it. -/
theorem aggX_eq (t : Forms.SX.Idx → EReal) :
    (Host.scatterAdd (F := Ideal) scatter_S100000x128_S1700000x1_S1700000x128_1_0_0_1
      (broadcastInDim S100000x128 ![] bcast_S_S100000x128 (constant (F := Ideal) S_ .f32 0x00000000#32))
      (dstCK m c)
      (extf .f32 (Host.gather gather_S100000x128_S1700000x1_S1700000x128_1_0_n_n_0_1_1128 t (srcCK m c) : FVec Ideal S1700000x128 .bf16) bitsLt_bf16_f32)
        : Forms.SX.Idx → EReal)
      = Forms.kerAgg (landsXK m c) (srcXK m c) t := by
  refine (scatterAdd_gather_zero scatter_S100000x128_S1700000x1_S1700000x128_1_0_0_1 gather_S100000x128_S1700000x1_S1700000x128_1_0_n_n_0_1_1128
    t (dstCK m c) (srcCK m c) _ (zerosX_apply)).trans ?_
  funext i
  unfold Forms.kerAgg
  refine congrArg _ (Finset.sum_congr (Finset.ext fun j => ?_) fun _ _ => rfl)
  rw [Finset.mem_filter, Finset.mem_filter]
  exact Iff.rfl

/-- The same for the 64-channel entries. -/
theorem aggY_eq (t : Forms.SY.Idx → EReal) :
    (Host.scatterAdd (F := Ideal) scatter_S100000x64_S1700000x1_S1700000x64_1_0_0_1
      (broadcastInDim S100000x64 ![] bcast_S_S100000x64 (constant (F := Ideal) S_ .f32 0x00000000#32))
      (dstCK m c)
      (extf .f32 (Host.gather gather_S100000x64_S1700000x1_S1700000x64_1_0_n_n_0_1_164 t (srcCK m c) : FVec Ideal S1700000x64 .bf16) bitsLt_bf16_f32)
        : Forms.SY.Idx → EReal)
      = Forms.kerAgg (landsYK m c) (srcYK m c) t := by
  refine (scatterAdd_gather_zero scatter_S100000x64_S1700000x1_S1700000x64_1_0_0_1 gather_S100000x64_S1700000x1_S1700000x64_1_0_n_n_0_1_164
    t (dstCK m c) (srcCK m c) _ (zerosY_apply)).trans ?_
  funext i
  unfold Forms.kerAgg
  refine congrArg _ (Finset.sum_congr (Finset.ext fun j => ?_) fun _ _ => rfl)
  rw [Finset.mem_filter, Finset.mem_filter]
  exact Iff.rfl

theorem step_ag1 : b42 m c = ag1 m c := by
  have e : b42 m c = Host.scatterAdd (F := Ideal) scatter_S100000x128_S1700000x1_S1700000x128_1_0_0_1
      (broadcastInDim S100000x128 ![] bcast_S_S100000x128 (constant (F := Ideal) S_ .f32 0x00000000#32))
      (dstCK m c)
      (extf .f32 (Host.gather gather_S100000x128_S1700000x1_S1700000x128_1_0_n_n_0_1_1128 (b26 m c) (srcCK m c) : FVec Ideal S1700000x128 .bf16) bitsLt_bf16_f32) := by
    show StableHlo.after hostOps1 (W4 (F := Ideal) m c) (Proc.devRef .tc main_v42)
      = Host.scatterAdd (F := Ideal) scatter_S100000x128_S1700000x1_S1700000x128_1_0_0_1
        (broadcastInDim S100000x128 ![] bcast_S_S100000x128 (constant (F := Ideal) S_ .f32 0x00000000#32))
        (StableHlo.after hostOps1 (W4 (F := Ideal) m c) (Proc.devRef .tc main_v41))
        (extf .f32 (Host.gather gather_S100000x128_S1700000x1_S1700000x128_1_0_n_n_0_1_1128
          (W4 (F := Ideal) m c (Proc.devRef .tc main_v26)) (StableHlo.after hostOps1 (W4 (F := Ideal) m c) (Proc.devRef .tc main_v32)) : FVec Ideal S1700000x128 .bf16) bitsLt_bf16_f32)
    after_results_simp
  rw [e, step_sc1]
  exact aggX_eq m c (sc1 m c)
/-! ### What the later items leave alone -/

theorem W4_v20 : W4 (F := Ideal) m c (Proc.devRef .tc main_v20) = dcK m c :=
  (W4_arr (F := Ideal) m c 1).trans (((dat0 (V3 (F := Ideal) m) c).arrAt_in 1 rfl _).trans (A_eq0 (V3 (F := Ideal) m) c 1))
theorem W5_v20 : W5 (F := Ideal) m c (Proc.devRef .tc main_v20) = dcK m c := by
  refine Eq.trans ?_ (W4_v20 m c)
  show StableHlo.after hostOps1 (W4 (F := Ideal) m c) (Proc.devRef .tc main_v20) = _
  after_results_simp <;> rfl

theorem W6_v20 : W6 (F := Ideal) m c (Proc.devRef .tc main_v20) = dcK m c :=
  (W6_arr (F := Ideal) m c 1).trans (((dat1 (V5 (F := Ideal) m) c).arrAt_in 1 rfl _).trans ((A_eq1 (V5 (F := Ideal) m) c 1).trans (W5_v20 m c)))
theorem W7_v20 : W7 (F := Ideal) m c (Proc.devRef .tc main_v20) = dcK m c := by
  refine Eq.trans ?_ (W6_v20 m c)
  show StableHlo.after hostOps2 (W6 (F := Ideal) m c) (Proc.devRef .tc main_v20) = _
  after_results_simp <;> rfl

theorem W8_v20 : W8 (F := Ideal) m c (Proc.devRef .tc main_v20) = dcK m c :=
  (W8_arr (F := Ideal) m c 1).trans (((dat2 (V7 (F := Ideal) m) c).arrAt_in 1 rfl _).trans ((A_eq2 (V7 (F := Ideal) m) c 1).trans (W7_v20 m c)))
theorem W9_v20 : W9 (F := Ideal) m c (Proc.devRef .tc main_v20) = dcK m c := by
  refine Eq.trans ?_ (W8_v20 m c)
  show StableHlo.after hostOps3 (W8 (F := Ideal) m c) (Proc.devRef .tc main_v20) = _
  after_results_simp <;> rfl

theorem W5_v22 : W5 (F := Ideal) m c (Proc.devRef .tc main_v22) = argW2 m c := by
  refine Eq.trans ?_ ((W4_of_ne (F := Ideal) m c main_v22 (by decide)).trans (W3_v22 m c))
  show StableHlo.after hostOps1 (W4 (F := Ideal) m c) (Proc.devRef .tc main_v22) = _
  after_results_simp <;> rfl

theorem W5_v23 : W5 (F := Ideal) m c (Proc.devRef .tc main_v23) = argW3 m c := by
  refine Eq.trans ?_ ((W4_of_ne (F := Ideal) m c main_v23 (by decide)).trans (W3_v23 m c))
  show StableHlo.after hostOps1 (W4 (F := Ideal) m c) (Proc.devRef .tc main_v23) = _
  after_results_simp <;> rfl

theorem W7_v23 : W7 (F := Ideal) m c (Proc.devRef .tc main_v23) = argW3 m c := by
  refine Eq.trans ?_ ((W6_of_ne (F := Ideal) m c main_v23 (by decide)).trans (W5_v23 m c))
  show StableHlo.after hostOps2 (W6 (F := Ideal) m c) (Proc.devRef .tc main_v23) = _
  after_results_simp <;> rfl

theorem W5_arg5 : W5 (F := Ideal) m c (Proc.devRef .tc main_arg5) = argB2 m c := by
  refine Eq.trans ?_ ((W4_of_ne (F := Ideal) m c main_arg5 (by decide)).trans (W3_arg5 m c))
  show StableHlo.after hostOps1 (W4 (F := Ideal) m c) (Proc.devRef .tc main_arg5) = _
  after_results_simp <;> rfl

theorem W5_arg7 : W5 (F := Ideal) m c (Proc.devRef .tc main_arg7) = argB3 m c := by
  refine Eq.trans ?_ ((W4_of_ne (F := Ideal) m c main_arg7 (by decide)).trans (W3_arg7 m c))
  show StableHlo.after hostOps1 (W4 (F := Ideal) m c) (Proc.devRef .tc main_arg7) = _
  after_results_simp <;> rfl

theorem W7_arg7 : W7 (F := Ideal) m c (Proc.devRef .tc main_arg7) = argB3 m c := by
  refine Eq.trans ?_ ((W6_of_ne (F := Ideal) m c main_arg7 (by decide)).trans (W5_arg7 m c))
  show StableHlo.after hostOps2 (W6 (F := Ideal) m c) (Proc.devRef .tc main_arg7) = _
  after_results_simp <;> rfl

theorem W9_arg7 : W9 (F := Ideal) m c (Proc.devRef .tc main_arg7) = argB3 m c := by
  refine Eq.trans ?_ ((W8_of_ne (F := Ideal) m c main_arg7 (by decide)).trans (W7_arg7 m c))
  show StableHlo.after hostOps3 (W8 (F := Ideal) m c) (Proc.devRef .tc main_arg7) = _
  after_results_simp <;> rfl

theorem W10_arg7 : W10 (F := Ideal) m c (Proc.devRef .tc main_arg7) = argB3 m c :=
  (W10_of_ne (F := Ideal) m c main_arg7 (by decide)).trans (W9_arg7 m c)

/-- The edge lists, which every later stretch reads again, stay as the first stretch left them. -/
theorem W5_v3 : W5 (F := Ideal) m c (Proc.devRef .tc main_v3) = W4 (F := Ideal) m c (Proc.devRef .tc main_v3) := by
  refine Eq.trans ?_ (rfl)
  show StableHlo.after hostOps1 (W4 (F := Ideal) m c) (Proc.devRef .tc main_v3) = _
  after_results_simp <;> rfl

theorem W5_v6 : W5 (F := Ideal) m c (Proc.devRef .tc main_v6) = W4 (F := Ideal) m c (Proc.devRef .tc main_v6) := by
  refine Eq.trans ?_ (rfl)
  show StableHlo.after hostOps1 (W4 (F := Ideal) m c) (Proc.devRef .tc main_v6) = _
  after_results_simp <;> rfl

theorem W6_v3 : W6 (F := Ideal) m c (Proc.devRef .tc main_v3) = W4 (F := Ideal) m c (Proc.devRef .tc main_v3) :=
  (W6_of_ne (F := Ideal) m c main_v3 (by decide)).trans (W5_v3 m c)
theorem W6_v6 : W6 (F := Ideal) m c (Proc.devRef .tc main_v6) = W4 (F := Ideal) m c (Proc.devRef .tc main_v6) :=
  (W6_of_ne (F := Ideal) m c main_v6 (by decide)).trans (W5_v6 m c)
theorem W7_v3 : W7 (F := Ideal) m c (Proc.devRef .tc main_v3) = W4 (F := Ideal) m c (Proc.devRef .tc main_v3) := by
  refine Eq.trans ?_ (W6_v3 m c)
  show StableHlo.after hostOps2 (W6 (F := Ideal) m c) (Proc.devRef .tc main_v3) = _
  after_results_simp <;> rfl

theorem W7_v6 : W7 (F := Ideal) m c (Proc.devRef .tc main_v6) = W4 (F := Ideal) m c (Proc.devRef .tc main_v6) := by
  refine Eq.trans ?_ (W6_v6 m c)
  show StableHlo.after hostOps2 (W6 (F := Ideal) m c) (Proc.devRef .tc main_v6) = _
  after_results_simp <;> rfl

theorem W8_v3 : W8 (F := Ideal) m c (Proc.devRef .tc main_v3) = W4 (F := Ideal) m c (Proc.devRef .tc main_v3) :=
  (W8_of_ne (F := Ideal) m c main_v3 (by decide)).trans (W7_v3 m c)
theorem W8_v6 : W8 (F := Ideal) m c (Proc.devRef .tc main_v6) = W4 (F := Ideal) m c (Proc.devRef .tc main_v6) :=
  (W8_of_ne (F := Ideal) m c main_v6 (by decide)).trans (W7_v6 m c)

/-- So the index columns the later stretches recompute are the ones the first aggregate used. -/
theorem W7_v50 : W7 (F := Ideal) m c (Proc.devRef .tc main_v50) = srcCK m c := by
  unfold srcCK
  show StableHlo.after hostOps2 (W6 (F := Ideal) m c) (Proc.devRef .tc main_v50) = StableHlo.after hostOps1 (W4 (F := Ideal) m c) (Proc.devRef .tc main_v32)
  after_results_simp
  rw [W6_v3]
theorem W7_v59 : W7 (F := Ideal) m c (Proc.devRef .tc main_v59) = dstCK m c := by
  unfold dstCK
  show StableHlo.after hostOps2 (W6 (F := Ideal) m c) (Proc.devRef .tc main_v59) = StableHlo.after hostOps1 (W4 (F := Ideal) m c) (Proc.devRef .tc main_v41)
  after_results_simp
  rw [W6_v6]
theorem W9_v68 : W9 (F := Ideal) m c (Proc.devRef .tc main_v68) = srcCK m c := by
  unfold srcCK
  show StableHlo.after hostOps3 (W8 (F := Ideal) m c) (Proc.devRef .tc main_v68) = StableHlo.after hostOps1 (W4 (F := Ideal) m c) (Proc.devRef .tc main_v32)
  after_results_simp
  rw [W8_v3]
theorem W9_v77 : W9 (F := Ideal) m c (Proc.devRef .tc main_v77) = dstCK m c := by
  unfold dstCK
  show StableHlo.after hostOps3 (W8 (F := Ideal) m c) (Proc.devRef .tc main_v77) = StableHlo.after hostOps1 (W4 (F := Ideal) m c) (Proc.devRef .tc main_v41)
  after_results_simp
  rw [W8_v6]

/-- The bias rows are the bias vectors with a unit axis added. -/
theorem rowB1_apply (u : Fin 1) (k : Fin 128) : rowB1 m c (ix2 u k) = argB1 m c (ix1 k) := by
  have e : rowB1 m c = shapeCast S1x128 (argB1 m c) shapeCasts_S128_S1x128 := by
    refine Eq.trans ?_ (congrArg (fun x : Forms.SB.Idx → EReal => shapeCast S1x128 x shapeCasts_S128_S1x128)
      ((W4_of_ne (F := Ideal) m c main_arg3 (by decide)).trans (W3_arg3 m c)))
    show StableHlo.after hostOps1 (W4 (F := Ideal) m c) (Proc.devRef .tc main_v43) = _
    after_results_simp <;> rfl
  rw [e]
  exact shapeCast_a_1a_apply _ _ u k
theorem rowB2_apply (u : Fin 1) (k : Fin 128) : rowB2 m c (ix2 u k) = argB2 m c (ix1 k) := by
  have e : rowB2 m c = shapeCast S1x128 (argB2 m c) shapeCasts_S128_S1x128 := by
    refine Eq.trans ?_ (congrArg (fun x : Forms.SB.Idx → EReal => shapeCast S1x128 x shapeCasts_S128_S1x128)
      ((W6_of_ne (F := Ideal) m c main_arg5 (by decide)).trans (W5_arg5 m c)))
    show StableHlo.after hostOps2 (W6 (F := Ideal) m c) (Proc.devRef .tc main_v61) = _
    after_results_simp <;> rfl
  rw [e]
  exact shapeCast_a_1a_apply _ _ u k

/-! ### The remaining items -/

theorem step_sc2 : b44 m c = sc2 m c := by
  have h := arr1 (V5 (F := Ideal) m) c (ag1 m c) (dcK m c) (rowB1 m c) (argW2 m c) (step_ag1 m c) (W5_v20 m c) rfl (W5_v22 m c)
  refine ((W6_arr (F := Ideal) m c 4).trans h).trans ?_
  funext i
  unfold sc2 Forms.kerScaledX
  have hk : ∀ i' : Forms.SX.Idx, max (dcK m c (ix2 (i' 0) 0) * ag1 m c i' + rowB1 m c (ix2 0 (i' 1))) 0
      = Forms.kerNext (dvecK m c) (ag1 m c) (argB1 m c) i' := fun i' => by
    unfold Forms.kerNext
    rw [dcK_apply m c (i' 0) 0, rowB1_apply m c 0 (i' 1)]
  simp only [hk]
  rw [dcK_apply m c (i 0) 0]

theorem step_ag2 : b60 m c = ag2 m c := by
  have e : b60 m c = Host.scatterAdd (F := Ideal) scatter_S100000x128_S1700000x1_S1700000x128_1_0_0_1 (broadcastInDim S100000x128 ![] bcast_S_S100000x128 (constant (F := Ideal) S_ .f32 0x00000000#32))
      (W7 (F := Ideal) m c (Proc.devRef .tc main_v59))
      (extf .f32 (Host.gather gather_S100000x128_S1700000x1_S1700000x128_1_0_n_n_0_1_1128 (b44 m c) (W7 (F := Ideal) m c (Proc.devRef .tc main_v50)) : FVec Ideal S1700000x128 .bf16) bitsLt_bf16_f32) := by
    show StableHlo.after hostOps2 (W6 (F := Ideal) m c) (Proc.devRef .tc main_v60)
      = Host.scatterAdd (F := Ideal) scatter_S100000x128_S1700000x1_S1700000x128_1_0_0_1 (broadcastInDim S100000x128 ![] bcast_S_S100000x128 (constant (F := Ideal) S_ .f32 0x00000000#32))
        (StableHlo.after hostOps2 (W6 (F := Ideal) m c) (Proc.devRef .tc main_v59))
        (extf .f32 (Host.gather gather_S100000x128_S1700000x1_S1700000x128_1_0_n_n_0_1_1128
          (W6 (F := Ideal) m c (Proc.devRef .tc main_v44)) (StableHlo.after hostOps2 (W6 (F := Ideal) m c) (Proc.devRef .tc main_v50)) : FVec Ideal S1700000x128 .bf16) bitsLt_bf16_f32)
    after_results_simp
  rw [e, W7_v59, W7_v50, step_sc2]
  exact aggX_eq m c (sc2 m c)

theorem step_sc3 : b62 m c = sc3 m c := by
  have h := arr2 (V7 (F := Ideal) m) c (ag2 m c) (dcK m c) (rowB2 m c) (argW3 m c) (step_ag2 m c) (W7_v20 m c) rfl (W7_v23 m c)
  refine ((W8_arr (F := Ideal) m c 4).trans h).trans ?_
  funext i
  unfold sc3 Forms.kerScaledY
  have hk : ∀ i' : Forms.SX.Idx, max (dcK m c (ix2 (i' 0) 0) * ag2 m c i' + rowB2 m c (ix2 0 (i' 1))) 0
      = Forms.kerNext (dvecK m c) (ag2 m c) (argB2 m c) i' := fun i' => by
    unfold Forms.kerNext
    rw [dcK_apply m c (i' 0) 0, rowB2_apply m c 0 (i' 1)]
  simp only [hk]
  rw [dcK_apply m c (i 0) 0]

theorem step_ag3 : b78 m c = ag3 m c := by
  have e : b78 m c = Host.scatterAdd (F := Ideal) scatter_S100000x64_S1700000x1_S1700000x64_1_0_0_1 (broadcastInDim S100000x64 ![] bcast_S_S100000x64 (constant (F := Ideal) S_ .f32 0x00000000#32))
      (W9 (F := Ideal) m c (Proc.devRef .tc main_v77))
      (extf .f32 (Host.gather gather_S100000x64_S1700000x1_S1700000x64_1_0_n_n_0_1_164 (b62 m c) (W9 (F := Ideal) m c (Proc.devRef .tc main_v68)) : FVec Ideal S1700000x64 .bf16) bitsLt_bf16_f32) := by
    show StableHlo.after hostOps3 (W8 (F := Ideal) m c) (Proc.devRef .tc main_v78)
      = Host.scatterAdd (F := Ideal) scatter_S100000x64_S1700000x1_S1700000x64_1_0_0_1 (broadcastInDim S100000x64 ![] bcast_S_S100000x64 (constant (F := Ideal) S_ .f32 0x00000000#32))
        (StableHlo.after hostOps3 (W8 (F := Ideal) m c) (Proc.devRef .tc main_v77))
        (extf .f32 (Host.gather gather_S100000x64_S1700000x1_S1700000x64_1_0_n_n_0_1_164
          (W8 (F := Ideal) m c (Proc.devRef .tc main_v62)) (StableHlo.after hostOps3 (W8 (F := Ideal) m c) (Proc.devRef .tc main_v68)) : FVec Ideal S1700000x64 .bf16) bitsLt_bf16_f32)
    after_results_simp
  rw [e, W9_v77, W9_v68, step_sc3]
  exact aggY_eq m c (sc3 m c)

theorem step_pool : b79 m c = pooled m c := by
  have h := arr3 (V9 (F := Ideal) m) c (ag3 m c) (dcK m c) (step_ag3 m c) (W9_v20 m c)
  refine ((W10_arr (F := Ideal) m c 2).trans h).trans ?_
  funext i
  unfold pooled
  refine Finset.inf_congr rfl fun n _ => ?_
  rw [dcK_apply m c n 0]

theorem step_out : b81 m c = fun k => b79 m c (ix2 0 (k 0)) + argB3 m c k := by
  have e : b81 m c = addf (F := Ideal) (s := S64) (φ := .f32) (shapeCast S64 (b79 m c) shapeCasts_S1x64_S64) (argB3 m c) := by
    refine Eq.trans ?_ (congrArg (fun x : Forms.SB3.Idx → EReal => addf (F := Ideal) (s := S64) (φ := .f32) (shapeCast S64 (b79 m c) shapeCasts_S1x64_S64) x)
      (W10_arg7 m c))
    show StableHlo.after hostOps4 (W10 (F := Ideal) m c) (Proc.devRef .tc main_v81) = _
    after_results_simp <;> rfl
  rw [e]
  funext k
  obtain ⟨q, rfl⟩ : ∃ q : Fin 64, k = ix1 q := ⟨k 0, eq_ix1 k⟩
  rw [addf_apply, shapeCast_1a_a_apply]

/-! ## The result -/

/-- The result buffer `main_v81` after the last item is `Forms.kerOut` of the argument arrays. -/
theorem ker_value :
    W11 (F := Ideal) m c (Proc.devRef .tc main_v81)
      = Forms.kerOut (dvecK m c) (landsXK m c) (srcXK m c) (landsYK m c) (srcYK m c)
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) := by
  refine (step_out m c).trans ?_
  rw [step_pool]
  funext k
  unfold pooled ag3 sc3 ag2 sc2 ag1 sc1 Forms.kerOut
  rfl

end Cert.KernelIdeal.HandV

end
-- ==== Proof.RV.Plumb.lean ====
/-
  The message plumbing of the graph convolution as the reference program computes it from the edge list: the degree
  normalisation d (one extended real per node), the source and destination index columns (self-loops appended,
  negative indices wrapped), which entry of the transformed features a message reads, at which entry of the aggregate
  it lands, and the source and destination node rows at which the normalisation is gathered for it.
-/
import proofs.«132209_j48962627175096_2_alg».proof.Proof.RefRead
import proofs.«132209_j48962627175096_2_alg».proof.Proof.Forms
import Idealize.ShloMosaic.Lib.ValueIdx

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem
open scoped BigOperators

variable (x1 : (⟨S2x1600000, .i32⟩ : BufTy).Contents (Elt Ideal))

/-- The degree normalisation: the inverse square root of the in-degree (self-loop counted), zero where the degree is not positive. -/
def dvec : Forms.SN.Idx → EReal := val_main_v19 (F := Ideal) x1
/-- The source index column (one start index per edge and self-loop). -/
def srcC : IVec S1700000x1 32 := val_main_v25 (F := Ideal) x1
/-- The destination index column. -/
def dstC : IVec S1700000x1 32 := val_main_v13 (F := Ideal) x1

/-- Message j (edge and channel) is added into entry i of a 128-wide aggregate. -/
def landsX (j : Forms.SEX.Idx) (i : Forms.SX.Idx) : Prop :=
  scatter_S100000x128_S1700000x1_S1700000x128_1_0_0_1.resultIdx? j (dstC x1) = some i
instance (j : Forms.SEX.Idx) (i : Forms.SX.Idx) : Decidable (landsX x1 j i) := by unfold landsX; infer_instance
/-- The entry of the 128-wide transformed features message j reads. -/
def srcX (j : Forms.SEX.Idx) : Forms.SX.Idx :=
  gather_S100000x128_S1700000x1_S1700000x128_1_0_n_n_0_1_1128.operandIdx j (srcC x1)
/-- The same for the 64-wide last layer. -/
def landsY (j : Forms.SEY.Idx) (i : Forms.SY.Idx) : Prop :=
  scatter_S100000x64_S1700000x1_S1700000x64_1_0_0_1.resultIdx? j (dstC x1) = some i
instance (j : Forms.SEY.Idx) (i : Forms.SY.Idx) : Decidable (landsY x1 j i) := by unfold landsY; infer_instance
def srcY (j : Forms.SEY.Idx) : Forms.SY.Idx :=
  gather_S100000x64_S1700000x1_S1700000x64_1_0_n_n_0_1_164.operandIdx j (srcC x1)
/-- The node row at which the normalisation is gathered for edge e's source, and for its destination. -/
def srow (e : Fin 1700000) : Fin 100000 :=
  (gather_S100000_S1700000x1_S1700000_n_0_n_n_0_1_1.operandIdx (ix1 e : S1700000.Idx) (srcC x1)) 0
def drow (e : Fin 1700000) : Fin 100000 :=
  (gather_S100000_S1700000x1_S1700000_n_0_n_n_0_1_1.operandIdx (ix1 e : S1700000.Idx) (dstC x1)) 0

end Cert.ReferenceIdeal.RefVal

end
-- ==== Proof.RV.RefValue.lean ====
/-
  The reference program's result as a closed form: three graph-convolution layers in the reference arrangement (every
  message weighted by both normalisations before the sum, then the bias, then the positive part for the two hidden
  layers) and, per output channel, the minimum over the nodes.
-/
import proofs.«132209_j48962627175096_2_alg».proof.Proof.RV.Plumb
import Idealize.ShloMosaic.Lib.Pipeline.Value
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem
open scoped BigOperators

/-! ## The minimum over the nodes -/

/-- Folding `min` from `⊤` over a finite set gives the set's infimum. -/
theorem fold_min_top {ι : Type} (s : Finset ι) (f : ι → EReal) : s.fold min ⊤ f = s.inf f := rfl

/-- The positive-infinity word is the top element of the extended reals. -/
theorem inf_word : Ideal.ofBits .f32 0x7F800000#32 = (⊤ : EReal) := by simp [Ideal.ofBits, Ideal.ieee]

/-- Channel `c` with node `k` put back on the node axis is the entry (k, c). -/
theorem lift_node (h : S100000x64.Reduces [0] S64) (c : S64.Idx) (k : Fin (S100000x64.size 0)) :
    h.lift c k = ix2 (⟨k.val, k.isLt⟩ : Fin 100000) (c 0) := by
  funext a; apply Fin.ext
  match a with
  | ⟨0, _⟩ => rfl
  | ⟨1, _⟩ => rfl

/-- The reduce with a minimum body from +∞ along the node axis is, per channel, the infimum over the nodes. -/
theorem min_over_nodes (y : FVec Ideal S100000x64 .f32) (c : S64.Idx) :
    Host.reduce (FloatOps.minimumf (F := Ideal) (φ := .f32)) y (val_main_cst_23 (F := Ideal)) reducesTo_S100000x64_S64_d0 h_S_ c
      = Finset.univ.inf fun n : Fin 100000 => y (ix2 n (c 0)) := by
  have h : S100000x64.Reduces [0] S64 := by decide
  rw [Host.reduce_eq_fold_single (FloatOps.minimumf (F := Ideal) (φ := .f32)) y _ reducesTo_S100000x64_S64_d0 h h_S_]
  have hy : (y ∘ h.lift c) = fun k : Fin 100000 => y (ix2 k (c 0)) := funext fun k => congrArg y (lift_node h c k)
  refine Eq.trans ?_ (fold_min_top Finset.univ fun n : Fin 100000 => y (ix2 n (c 0)))
  rw [← inf_word]
  exact congrArg (fun f => Finset.fold min (Ideal.ofBits .f32 0x7F800000#32) f (Finset.univ : Finset (Fin 100000))) hy

/-! ## The index columns and the message weights -/

variable (x1 : (⟨S2x1600000, .i32⟩ : BufTy).Contents (Elt Ideal))

/-- The source column recomputed before each gather of features is the one source column. -/
theorem src42 : val_main_v42 (F := Ideal) x1 = srcC x1 := rfl
theorem src64 : val_main_v64 (F := Ideal) x1 = srcC x1 := rfl
theorem src86 : val_main_v86 (F := Ideal) x1 = srcC x1 := rfl
/-- The destination column recomputed before the second gather of the normalisation and before each scatter is the
    one destination column. -/
theorem dst32 : val_main_v32 (F := Ideal) x1 = dstC x1 := rfl
theorem dst52 : val_main_v52 (F := Ideal) x1 = dstC x1 := rfl
theorem dst74 : val_main_v74 (F := Ideal) x1 = dstC x1 := rfl
theorem dst96 : val_main_v96 (F := Ideal) x1 = dstC x1 := rfl

/-- The weight of edge `e`: the normalisation at its source node times the normalisation at its destination node. -/
theorem edge_weight (e : S1700000.Idx) :
    val_main_v34 (F := Ideal) x1 e = dvec x1 (ix1 (srow x1 (e 0))) * dvec x1 (ix1 (drow x1 (e 0))) := by
  rw [val_main_v34_apply]
  unfold val_main_v26 val_main_v33
  rw [dst32]
  have he : e = ix1 (e 0) := eq_ix1 e
  show val_main_v19 (F := Ideal) x1 (gather_S100000_S1700000x1_S1700000_n_0_n_n_0_1_1.operandIdx e (val_main_v25 (F := Ideal) x1))
      * val_main_v19 (F := Ideal) x1 (gather_S100000_S1700000x1_S1700000_n_0_n_n_0_1_1.operandIdx e (dstC x1)) = _
  rw [eq_ix1 (gather_S100000_S1700000x1_S1700000_n_0_n_n_0_1_1.operandIdx e (val_main_v25 (F := Ideal) x1)),
    eq_ix1 (gather_S100000_S1700000x1_S1700000_n_0_n_n_0_1_1.operandIdx e (dstC x1))]
  conv_lhs => rw [he]
  rfl

/-- The weight broadcast along 128 channels. -/
theorem weight44 (j : S1700000x128.Idx) :
    val_main_v44 (F := Ideal) x1 j = dvec x1 (ix1 (srow x1 (j 0))) * dvec x1 (ix1 (drow x1 (j 0))) := by
  rw [val_main_v44_apply, val_main_v35_apply]
  exact edge_weight x1 _
theorem weight66 (j : S1700000x128.Idx) :
    val_main_v66 (F := Ideal) x1 j = dvec x1 (ix1 (srow x1 (j 0))) * dvec x1 (ix1 (drow x1 (j 0))) := by
  rw [val_main_v66_apply, val_main_v35_apply]
  exact edge_weight x1 _
/-- The weight broadcast along 64 channels. -/
theorem weight88 (j : S1700000x64.Idx) :
    val_main_v88 (F := Ideal) x1 j = dvec x1 (ix1 (srow x1 (j 0))) * dvec x1 (ix1 (drow x1 (j 0))) := by
  rw [val_main_v88_apply, val_main_v35_apply]
  exact edge_weight x1 _

/-! ## One aggregation -/

/-- The 128-wide aggregation: into zeros, at each entry, the sum over the messages landing there of the gathered
    entry of `a` times the message's weight. -/
theorem aggX (a z : FVec Ideal S100000x128 .f32) (hz : ∀ i, z i = 0) (w : FVec Ideal S1700000x128 .f32)
    (ws wd : S1700000x128.Idx → EReal) (hw : ∀ j, w j = ws j * wd j) (i : S100000x128.Idx) :
    Host.scatterAdd (F := Ideal) scatter_S100000x128_S1700000x1_S1700000x128_1_0_0_1 z (dstC x1)
        (mulf (Host.gather gather_S100000x128_S1700000x1_S1700000x128_1_0_n_n_0_1_1128 a (srcC x1)) w) i
      = Forms.refAgg (landsX x1) (srcX x1) a ws wd i := by
  unfold Forms.refAgg
  show z i + ∑ j ∈ Finset.univ.filter (fun j => scatter_S100000x128_S1700000x1_S1700000x128_1_0_0_1.resultIdx? j (dstC x1) = some i),
      (a (gather_S100000x128_S1700000x1_S1700000x128_1_0_n_n_0_1_1128.operandIdx j (srcC x1)) * w j) = _
  rw [hz i]
  have hset : (Finset.univ.filter fun j => scatter_S100000x128_S1700000x1_S1700000x128_1_0_0_1.resultIdx? j (dstC x1) = some i)
      = Finset.univ.filter (fun j => landsX x1 j i) := by
    ext j; simp only [Finset.mem_filter, Finset.mem_univ, true_and]; exact Iff.rfl
  rw [hset]
  refine congrArg (fun t => (0 : EReal) + t) (Finset.sum_congr rfl fun j _ => ?_)
  rw [hw j]; rfl

/-- The 64-wide aggregation, likewise. -/
theorem aggY (a z : FVec Ideal S100000x64 .f32) (hz : ∀ i, z i = 0) (w : FVec Ideal S1700000x64 .f32)
    (ws wd : S1700000x64.Idx → EReal) (hw : ∀ j, w j = ws j * wd j) (i : S100000x64.Idx) :
    Host.scatterAdd (F := Ideal) scatter_S100000x64_S1700000x1_S1700000x64_1_0_0_1 z (dstC x1)
        (mulf (Host.gather gather_S100000x64_S1700000x1_S1700000x64_1_0_n_n_0_1_164 a (srcC x1)) w) i
      = Forms.refAgg (landsY x1) (srcY x1) a ws wd i := by
  unfold Forms.refAgg
  show z i + ∑ j ∈ Finset.univ.filter (fun j => scatter_S100000x64_S1700000x1_S1700000x64_1_0_0_1.resultIdx? j (dstC x1) = some i),
      (a (gather_S100000x64_S1700000x1_S1700000x64_1_0_n_n_0_1_164.operandIdx j (srcC x1)) * w j) = _
  rw [hz i]
  have hset : (Finset.univ.filter fun j => scatter_S100000x64_S1700000x1_S1700000x64_1_0_0_1.resultIdx? j (dstC x1) = some i)
      = Finset.univ.filter (fun j => landsY x1 j i) := by
    ext j; simp only [Finset.mem_filter, Finset.mem_univ, true_and]; exact Iff.rfl
  rw [hset]
  refine congrArg (fun t => (0 : EReal) + t) (Finset.sum_congr rfl fun j _ => ?_)
  rw [hw j]; rfl

/-! ## The products, the biases, the zeros -/

/-- Features times the first weight matrix. -/
theorem mm36 (x0 : FVec Ideal S100000x128 .f32) (x2 : FVec Ideal S128x128 .f32) :
    val_main_v36 (F := Ideal) x0 x2 = Forms.mmX x0 x2 := by
  funext i
  rw [val_main_v36_apply]
  unfold Forms.mmX
  refine Finset.sum_congr rfl fun k _ => ?_
  have el : lidx_main_v36 i k = ix2 (i 0) k := funext fun a => Fin.ext (by match a with | ⟨0, _⟩ => rfl | ⟨1, _⟩ => rfl)
  have er : ridx_main_v36 i k = ix2 k (i 1) := funext fun a => Fin.ext (by match a with | ⟨0, _⟩ => rfl | ⟨1, _⟩ => rfl)
  rw [el, er]; rfl

/-- The first hidden layer's output times the second weight matrix. -/
theorem mm58 (x0 : FVec Ideal S100000x128 .f32) (x2 : FVec Ideal S128x128 .f32) (x3 : FVec Ideal S128 .f32)
    (x4 : FVec Ideal S128x128 .f32) :
    val_main_v58 (F := Ideal) x0 x1 x2 x3 x4 = Forms.mmX (val_main_v57 (F := Ideal) x0 x1 x2 x3) x4 := by
  funext i
  rw [val_main_v58_apply]
  unfold Forms.mmX
  refine Finset.sum_congr rfl fun k _ => ?_
  have el : lidx_main_v58 i k = ix2 (i 0) k := funext fun a => Fin.ext (by match a with | ⟨0, _⟩ => rfl | ⟨1, _⟩ => rfl)
  have er : ridx_main_v58 i k = ix2 k (i 1) := funext fun a => Fin.ext (by match a with | ⟨0, _⟩ => rfl | ⟨1, _⟩ => rfl)
  rw [el, er]; rfl

/-- The second hidden layer's output times the last weight matrix. -/
theorem mm80 (x0 : FVec Ideal S100000x128 .f32) (x2 : FVec Ideal S128x128 .f32) (x3 : FVec Ideal S128 .f32)
    (x4 : FVec Ideal S128x128 .f32) (x5 : FVec Ideal S128 .f32) (x6 : FVec Ideal S128x64 .f32) :
    val_main_v80 (F := Ideal) x0 x1 x2 x3 x4 x5 x6 = Forms.mmY (val_main_v79 (F := Ideal) x0 x1 x2 x3 x4 x5) x6 := by
  funext i
  rw [val_main_v80_apply]
  unfold Forms.mmY
  refine Finset.sum_congr rfl fun k _ => ?_
  have el : lidx_main_v80 i k = ix2 (i 0) k := funext fun a => Fin.ext (by match a with | ⟨0, _⟩ => rfl | ⟨1, _⟩ => rfl)
  have er : ridx_main_v80 i k = ix2 k (i 1) := funext fun a => Fin.ext (by match a with | ⟨0, _⟩ => rfl | ⟨1, _⟩ => rfl)
  rw [el, er]; rfl

/-- A bias broadcast over the nodes, read at an entry, is the bias of the entry's channel. -/
theorem bias55 (x3 : FVec Ideal S128 .f32) (i : S100000x128.Idx) : val_main_v55 (F := Ideal) x3 i = x3 (ix1 (i 1)) := by
  rw [val_main_v55_apply, val_main_v54_apply]
  exact congrArg x3 (funext fun a => by match a with | ⟨0, _⟩ => rfl)
theorem bias77 (x5 : FVec Ideal S128 .f32) (i : S100000x128.Idx) : val_main_v77 (F := Ideal) x5 i = x5 (ix1 (i 1)) := by
  rw [val_main_v77_apply, val_main_v76_apply]
  exact congrArg x5 (funext fun a => by match a with | ⟨0, _⟩ => rfl)
theorem bias99 (x7 : FVec Ideal S64 .f32) (i : S100000x64.Idx) : val_main_v99 (F := Ideal) x7 i = x7 (ix1 (i 1)) := by
  rw [val_main_v99_apply, val_main_v98_apply]
  exact congrArg x7 (funext fun a => by match a with | ⟨0, _⟩ => rfl)

/-- The broadcast zero words are zero. -/
theorem zero46 (i : S100000x128.Idx) : val_main_v46 (F := Ideal) i = 0 := by
  rw [val_main_v46_apply, val_main_cst_10_apply]; exact Ideal.ofBits_zero_f32
theorem zero68 (i : S100000x128.Idx) : val_main_v68 (F := Ideal) i = 0 := by
  rw [val_main_v68_apply, val_main_cst_15_apply]; exact Ideal.ofBits_zero_f32
theorem zero90 (i : S100000x64.Idx) : val_main_v90 (F := Ideal) i = 0 := by
  rw [val_main_v90_apply, val_main_cst_20_apply]; exact Ideal.ofBits_zero_f32
theorem zero_call1 (i : S100000x128.Idx) : val_main_call1_v0 (F := Ideal) i = 0 := by
  rw [val_main_call1_v0_apply, val_main_call1_cst_apply]; exact Ideal.ofBits_zero_f32
theorem zero_call2 (i : S100000x128.Idx) : val_main_call2_v0 (F := Ideal) i = 0 := by
  rw [val_main_call2_v0_apply, val_main_call2_cst_apply]; exact Ideal.ofBits_zero_f32

/-! ## The layers -/

/-- A hidden layer over any incoming product `a`: aggregate, add the bias, take the positive part. -/
theorem hidden_stage (a z : FVec Ideal S100000x128 .f32) (hz : ∀ i, z i = 0) (w : FVec Ideal S1700000x128 .f32)
    (hw : ∀ j, w j = dvec x1 (ix1 (srow x1 (j 0))) * dvec x1 (ix1 (drow x1 (j 0))))
    (bb : FVec Ideal S100000x128 .f32) (b : FVec Ideal S128 .f32) (hb : ∀ i, bb i = b (ix1 (i 1)))
    (zr : FVec Ideal S100000x128 .f32) (hzr : ∀ i, zr i = 0) (i : S100000x128.Idx) :
    maximumf (addf (Host.scatterAdd (F := Ideal) scatter_S100000x128_S1700000x1_S1700000x128_1_0_0_1 z (dstC x1)
        (mulf (Host.gather gather_S100000x128_S1700000x1_S1700000x128_1_0_n_n_0_1_1128 a (srcC x1)) w)) bb) zr i
      = max (Forms.refAgg (landsX x1) (srcX x1) a (fun j => dvec x1 (ix1 (srow x1 (j 0)))) (fun j => dvec x1 (ix1 (drow x1 (j 0)))) i
          + b (ix1 (i 1))) 0 := by
  show max (Host.scatterAdd (F := Ideal) scatter_S100000x128_S1700000x1_S1700000x128_1_0_0_1 z (dstC x1)
        (mulf (Host.gather gather_S100000x128_S1700000x1_S1700000x128_1_0_n_n_0_1_1128 a (srcC x1)) w) i + bb i) (zr i) = _
  rw [aggX x1 a z hz w _ _ hw i, hb i, hzr i]

/-- The first hidden layer. -/
theorem hidden1 (x0 : FVec Ideal S100000x128 .f32) (x2 : FVec Ideal S128x128 .f32) (x3 : FVec Ideal S128 .f32) :
    val_main_v57 (F := Ideal) x0 x1 x2 x3
      = Forms.refHidden (dvec x1) (landsX x1) (srcX x1) (srow x1) (drow x1) x0 x2 x3 := by
  funext i
  unfold val_main_v57 val_main_v56 val_main_v53 val_main_v45 val_main_v43 Forms.refHidden
  rw [src42, dst52, mm36]
  exact hidden_stage x1 (Forms.mmX x0 x2) (val_main_v46 (F := Ideal)) zero46 (val_main_v44 (F := Ideal) x1) (weight44 x1)
    (val_main_v55 (F := Ideal) x3) x3 (bias55 x3) (val_main_call1_v0 (F := Ideal)) zero_call1 i

/-- The second hidden layer, over the first one's output. -/
theorem hidden2 (x0 : FVec Ideal S100000x128 .f32) (x2 : FVec Ideal S128x128 .f32) (x3 : FVec Ideal S128 .f32)
    (x4 : FVec Ideal S128x128 .f32) (x5 : FVec Ideal S128 .f32) :
    val_main_v79 (F := Ideal) x0 x1 x2 x3 x4 x5
      = Forms.refHidden (dvec x1) (landsX x1) (srcX x1) (srow x1) (drow x1) (val_main_v57 (F := Ideal) x0 x1 x2 x3) x4 x5 := by
  funext i
  unfold val_main_v79 val_main_v78 val_main_v75 val_main_v67 val_main_v65 Forms.refHidden
  rw [src64, dst74, mm58]
  exact hidden_stage x1 (Forms.mmX (val_main_v57 (F := Ideal) x0 x1 x2 x3) x4) (val_main_v68 (F := Ideal)) zero68
    (val_main_v66 (F := Ideal) x1) (weight66 x1) (val_main_v77 (F := Ideal) x5) x5 (bias77 x5) (val_main_call2_v0 (F := Ideal)) zero_call2 i

/-- The last layer over any incoming product `a`: aggregate and add the bias. -/
theorem last_stage (a z : FVec Ideal S100000x64 .f32) (hz : ∀ i, z i = 0) (w : FVec Ideal S1700000x64 .f32)
    (hw : ∀ j, w j = dvec x1 (ix1 (srow x1 (j 0))) * dvec x1 (ix1 (drow x1 (j 0))))
    (bb : FVec Ideal S100000x64 .f32) (b : FVec Ideal S64 .f32) (hb : ∀ i, bb i = b (ix1 (i 1))) (i : S100000x64.Idx) :
    addf (Host.scatterAdd (F := Ideal) scatter_S100000x64_S1700000x1_S1700000x64_1_0_0_1 z (dstC x1)
        (mulf (Host.gather gather_S100000x64_S1700000x1_S1700000x64_1_0_n_n_0_1_164 a (srcC x1)) w)) bb i
      = Forms.refAgg (landsY x1) (srcY x1) a (fun j => dvec x1 (ix1 (srow x1 (j 0)))) (fun j => dvec x1 (ix1 (drow x1 (j 0)))) i
          + b (ix1 (i 1)) := by
  rw [addf_apply, aggY x1 a z hz w _ _ hw i, hb i]

/-- The last layer before pooling, over the second hidden layer's output. -/
theorem last_layer (x0 : FVec Ideal S100000x128 .f32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    val_main_v100 (F := Ideal) x0 x1 x2 x3 x4 x5 x6 x7
      = Forms.refLast (dvec x1) (landsY x1) (srcY x1) (srow x1) (drow x1) x6 x7 (val_main_v79 (F := Ideal) x0 x1 x2 x3 x4 x5) := by
  funext i
  unfold val_main_v100 val_main_v97 val_main_v89 val_main_v87 Forms.refLast
  rw [src86, dst96, mm80]
  exact last_stage x1 (Forms.mmY (val_main_v79 (F := Ideal) x0 x1 x2 x3 x4 x5) x6) (val_main_v90 (F := Ideal)) zero90
    (val_main_v88 (F := Ideal) x1) (weight88 x1) (val_main_v99 (F := Ideal) x7) x7 (bias99 x7) i

/-- The whole reference, as the closed form. -/
theorem out_eq (x0 : FVec Ideal S100000x128 .f32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    val_main_v101 (F := Ideal) x0 x1 x2 x3 x4 x5 x6 x7
      = Forms.refOut (dvec x1) (landsX x1) (srcX x1) (landsY x1) (srcY x1) (srow x1) (drow x1) x0 x2 x3 x4 x5 x6 x7 := by
  funext c
  unfold val_main_v101 Forms.refOut
  refine (min_over_nodes (val_main_v100 (F := Ideal) x0 x1 x2 x3 x4 x5 x6 x7) c).trans ?_
  rw [last_layer, hidden2, hidden1]

/-- The reference's result buffer after its run is `Forms.refOut` of the argument arrays, with the plumbing read off
    the edge list. -/
theorem ref_value (m : (ℓ : Loc nD τ sig) → Buf (Elt Ideal) ℓ) (c : Dev nD) :
    Cert.ReferenceIdeal.Value.res_out0 (F := Ideal) m c
      = Forms.refOut (dvec (m ((c.tc : Thread nD τ).loc main_arg1))) (landsX (m ((c.tc : Thread nD τ).loc main_arg1))) (srcX (m ((c.tc : Thread nD τ).loc main_arg1)))
          (landsY (m ((c.tc : Thread nD τ).loc main_arg1))) (srcY (m ((c.tc : Thread nD τ).loc main_arg1)))
          (srow (m ((c.tc : Thread nD τ).loc main_arg1))) (drow (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) := by
  show Cert.ReferenceIdeal.Value.res_main_v101 (F := Ideal) m c = _
  rw [val_main_v101_eq]
  exact out_eq _ _ _ _ _ _ _ _

end Cert.ReferenceIdeal.RefVal

end
-- ==== Proof.RV.IdxFacts.lean ====
/-
  The facts about indices that make the two arrangements of a layer agree: the entry a message reads lies in its
  edge's source row; a message that lands at an entry of node n has n as its edge's destination row (an index that
  lands is in range, so clamping it changes nothing); and the degree normalisation is a non-negative real at every node
  (the in-degree is a finite sum of ones, a real, and the inverse square root of a positive real is a positive real).
-/
import proofs.«132209_j48962627175096_2_alg».proof.Proof.RV.Plumb

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem
open scoped BigOperators

variable (x1 : (⟨S2x1600000, .i32⟩ : BufTy).Contents (Elt Ideal))

/-- The cell of the one-column index array that holds edge e's start index. -/
abbrev cell (e : Fin 1700000) : S1700000x1.Idx := ix2 e (0 : Fin 1)

/-- The rank-1 gather's row for edge e: the start index in e's cell, read signed and clamped into the node range. -/
theorem gatherN_row (idx : IVec S1700000x1 32) (e : Fin 1700000) :
    ((gather_S100000_S1700000x1_S1700000_n_0_n_n_0_1_1.operandIdx (ix1 e : S1700000.Idx) idx) 0).val
      = min (idx (cell e)).toInt.toNat 99999 := by
  show gather_S100000_S1700000x1_S1700000_n_0_n_n_0_1_1.start (ix1 e : S1700000.Idx) idx 0
      + gather_S100000_S1700000x1_S1700000_n_0_n_n_0_1_1.batchCoord (ix1 e : S1700000.Idx) 0
      + gather_S100000_S1700000x1_S1700000_n_0_n_n_0_1_1.offCoord (ix1 e : S1700000.Idx) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S1700000x1_S1700000_n_0_n_n_0_1_1.startIndexMap from List.mem_singleton.mpr rfl)]
  have hsi : gather_S100000_S1700000x1_S1700000_n_0_n_n_0_1_1.siIdx (ix1 e : S1700000.Idx)
      ⟨List.idxOf (0 : Fin 1) gather_S100000_S1700000x1_S1700000_n_0_n_n_0_1_1.startIndexMap,
        List.idxOf_lt_length_iff.2 (List.mem_singleton.mpr rfl)⟩ = cell e := by
    funext b; refine Fin.ext ?_
    match b with
    | ⟨0, _⟩ => rfl
    | ⟨1, _⟩ => rfl
  rw [hsi]
  rfl

/-- The 128-wide gather's row for message j: the start index in the cell of j's edge, read signed and clamped into
    the node range (the slice is one row high, and axis 0 carries neither a batch nor an offset coordinate). -/
theorem gatherX_row (idx : IVec S1700000x1 32) (j : Forms.SEX.Idx) :
    ((gather_S100000x128_S1700000x1_S1700000x128_1_0_n_n_0_1_1128.operandIdx j idx) 0).val = min (idx (cell (j 0))).toInt.toNat 99999 := by
  show gather_S100000x128_S1700000x1_S1700000x128_1_0_n_n_0_1_1128.start j idx 0 + gather_S100000x128_S1700000x1_S1700000x128_1_0_n_n_0_1_1128.batchCoord j 0 + gather_S100000x128_S1700000x1_S1700000x128_1_0_n_n_0_1_1128.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x128_S1700000x1_S1700000x128_1_0_n_n_0_1_1128.startIndexMap from List.mem_singleton.mpr rfl)]
  have hsi : gather_S100000x128_S1700000x1_S1700000x128_1_0_n_n_0_1_1128.siIdx j
      ⟨List.idxOf (0 : Fin 2) gather_S100000x128_S1700000x1_S1700000x128_1_0_n_n_0_1_1128.startIndexMap,
        List.idxOf_lt_length_iff.2 (List.mem_singleton.mpr rfl)⟩ = cell (j 0) := by
    funext b; refine Fin.ext ?_
    match b with
    | ⟨0, _⟩ => rfl
    | ⟨1, _⟩ => rfl
  rw [hsi]
  rfl

/-- The 64-wide gather's row for message j: the start index in the cell of j's edge, read signed and clamped into
    the node range (the slice is one row high, and axis 0 carries neither a batch nor an offset coordinate). -/
theorem gatherY_row (idx : IVec S1700000x1 32) (j : Forms.SEY.Idx) :
    ((gather_S100000x64_S1700000x1_S1700000x64_1_0_n_n_0_1_164.operandIdx j idx) 0).val = min (idx (cell (j 0))).toInt.toNat 99999 := by
  show gather_S100000x64_S1700000x1_S1700000x64_1_0_n_n_0_1_164.start j idx 0 + gather_S100000x64_S1700000x1_S1700000x64_1_0_n_n_0_1_164.batchCoord j 0 + gather_S100000x64_S1700000x1_S1700000x64_1_0_n_n_0_1_164.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x64_S1700000x1_S1700000x64_1_0_n_n_0_1_164.startIndexMap from List.mem_singleton.mpr rfl)]
  have hsi : gather_S100000x64_S1700000x1_S1700000x64_1_0_n_n_0_1_164.siIdx j
      ⟨List.idxOf (0 : Fin 2) gather_S100000x64_S1700000x1_S1700000x64_1_0_n_n_0_1_164.startIndexMap,
        List.idxOf_lt_length_iff.2 (List.mem_singleton.mpr rfl)⟩ = cell (j 0) := by
    funext b; refine Fin.ext ?_
    match b with
    | ⟨0, _⟩ => rfl
    | ⟨1, _⟩ => rfl
  rw [hsi]
  rfl

/-- The 128-wide scatter's row for message j, before the range test: the start index in the cell of j's edge, read
    signed and not clamped (axis 0 is an inserted axis, so its window coordinate is 0). -/
theorem scatterX_row (idx : IVec S1700000x1 32) (j : Forms.SEX.Idx) :
    scatter_S100000x128_S1700000x1_S1700000x128_1_0_0_1.start j idx 0 + (scatter_S100000x128_S1700000x1_S1700000x128_1_0_0_1.window j 0 : Int) = (idx (cell (j 0))).toInt := by
  have hw : scatter_S100000x128_S1700000x1_S1700000x128_1_0_0_1.window j 0 = 0 := by
    unfold ScatterDims.window
    rw [dif_neg (by simp [ScatterDims.sKept, Shape.kept, scatter_S100000x128_S1700000x1_S1700000x128_1_0_0_1])]
  rw [hw]
  simp only [Nat.cast_zero, Int.add_zero]
  unfold ScatterDims.start
  rw [dif_pos (show (0 : Fin 2) ∈ scatter_S100000x128_S1700000x1_S1700000x128_1_0_0_1.scatterDimsToOperandDims from List.mem_singleton.mpr rfl)]
  have hsi : scatter_S100000x128_S1700000x1_S1700000x128_1_0_0_1.siIdx j
      ⟨List.idxOf (0 : Fin 2) scatter_S100000x128_S1700000x1_S1700000x128_1_0_0_1.scatterDimsToOperandDims,
        List.idxOf_lt_length_iff.2 (List.mem_singleton.mpr rfl)⟩ = cell (j 0) := by
    funext b; refine Fin.ext ?_
    match b with
    | ⟨0, _⟩ => rfl
    | ⟨1, _⟩ => rfl
  rw [hsi]

/-- The 64-wide scatter's row for message j, before the range test: the start index in the cell of j's edge, read
    signed and not clamped (axis 0 is an inserted axis, so its window coordinate is 0). -/
theorem scatterY_row (idx : IVec S1700000x1 32) (j : Forms.SEY.Idx) :
    scatter_S100000x64_S1700000x1_S1700000x64_1_0_0_1.start j idx 0 + (scatter_S100000x64_S1700000x1_S1700000x64_1_0_0_1.window j 0 : Int) = (idx (cell (j 0))).toInt := by
  have hw : scatter_S100000x64_S1700000x1_S1700000x64_1_0_0_1.window j 0 = 0 := by
    unfold ScatterDims.window
    rw [dif_neg (by simp [ScatterDims.sKept, Shape.kept, scatter_S100000x64_S1700000x1_S1700000x64_1_0_0_1])]
  rw [hw]
  simp only [Nat.cast_zero, Int.add_zero]
  unfold ScatterDims.start
  rw [dif_pos (show (0 : Fin 2) ∈ scatter_S100000x64_S1700000x1_S1700000x64_1_0_0_1.scatterDimsToOperandDims from List.mem_singleton.mpr rfl)]
  have hsi : scatter_S100000x64_S1700000x1_S1700000x64_1_0_0_1.siIdx j
      ⟨List.idxOf (0 : Fin 2) scatter_S100000x64_S1700000x1_S1700000x64_1_0_0_1.scatterDimsToOperandDims,
        List.idxOf_lt_length_iff.2 (List.mem_singleton.mpr rfl)⟩ = cell (j 0) := by
    funext b; refine Fin.ext ?_
    match b with
    | ⟨0, _⟩ => rfl
    | ⟨1, _⟩ => rfl
  rw [hsi]

/-- The word 0x3F800000 reads as the extended real one: sign 0, exponent field 127 (the bias), fraction 0, so the
    value is 2^23 · 2^(127 − 127 − 23) = 1. -/
theorem one_word : Ideal.ofBits .f32 0x3F800000#32 = 1 := by
  have h : Ideal.ofBits .f32 0x3F800000#32 = (((1 : ℝ) * ((2 ^ 23 + 0 : ℕ) : ℝ) * (2 : ℝ) ^ ((127 : ℤ) - (2 ^ (8 - 1) - 1) - (23 : ℕ)) : ℝ) : EReal) := by
    simp [Ideal.ofBits, Ideal.ieee, -EReal.coe_mul]
  rw [h]
  norm_num

/-- The array the degree is accumulated into is zero everywhere. -/
theorem zeros_apply (n : S100000.Idx) : val_main_v7 (F := Ideal) n = 0 := by
  rw [val_main_v7_apply, val_main_cst_apply, Ideal.ofBits_def, Ideal.ofBits_zero_f32]

/-- Every edge contributes a one. -/
theorem ones_apply (j : S1700000.Idx) : val_main_v14 (F := Ideal) j = 1 := by
  rw [val_main_v14_apply, val_main_cst_1_apply, Ideal.ofBits_def, one_word]

/-- Ones scatter-added into zeros give, at every entry, a natural number read as a real: the number of updates that
    land there. Stated for any shapes, since the accumulating scatter on the extended reals is by definition the
    entry plus the sum of the updates landing at it. -/
theorem scatterAdd_zero_ones {s si u : Shape} {w : Nat} (d : ScatterDims s si u) (x : s.Idx → EReal) (idx : IVec si w)
    (upd : u.Idx → EReal) (hx : ∀ i, x i = 0) (hu : ∀ j, upd j = 1) (i : s.Idx) :
    ∃ c : ℕ, Host.scatterAdd (F := Ideal) (φ := .f32) d x idx upd i = ((c : ℝ) : EReal) := by
  refine ⟨(Finset.univ.filter fun j => d.resultIdx? j idx = some i).card, ?_⟩
  show x i + ∑ j ∈ Finset.univ.filter (fun j => d.resultIdx? j idx = some i), upd j = _
  rw [hx, zero_add, Finset.sum_congr rfl (fun j _ => hu j)]
  exact Cert.Spec.sum_ones _

/-- The in-degree at a node is a natural number read as a real. -/
theorem deg_real (n : S100000.Idx) : ∃ c : ℕ, val_main_v15 (F := Ideal) x1 n = ((c : ℝ) : EReal) := by
  delta val_main_v15
  exact scatterAdd_zero_ones _ _ _ _ zeros_apply ones_apply n

theorem src_rowX (j : Forms.SEX.Idx) : (srcX x1 j) 0 = srow x1 (j 0) := by
  refine Fin.ext ?_
  exact (gatherX_row (srcC x1) j).trans (gatherN_row (srcC x1) (j 0)).symm
theorem src_rowY (j : Forms.SEY.Idx) : (srcY x1 j) 0 = srow x1 (j 0) := by
  refine Fin.ext ?_
  exact (gatherY_row (srcC x1) j).trans (gatherN_row (srcC x1) (j 0)).symm
theorem lands_rowX (j : Forms.SEX.Idx) (i : Forms.SX.Idx) (h : landsX x1 j i) : drow x1 (j 0) = i 0 := by
  unfold landsX ScatterDims.resultIdx? at h
  split at h
  · rename_i hr
    have hi := Option.some.inj h
    have h0 := hr 0
    rw [scatterX_row (dstC x1) j] at h0
    refine Fin.ext ?_
    rw [show (drow x1 (j 0)).val = _ from gatherN_row (dstC x1) (j 0), ← hi]
    show _ = (scatter_S100000x128_S1700000x1_S1700000x128_1_0_0_1.start j (dstC x1) 0 + (scatter_S100000x128_S1700000x1_S1700000x128_1_0_0_1.window j 0 : Int)).toNat
    rw [scatterX_row (dstC x1) j]
    have h1 : ((dstC x1 (cell (j 0))).toInt.toNat : Int) = (dstC x1 (cell (j 0))).toInt := Int.toNat_of_nonneg h0.1
    have h2 : (dstC x1 (cell (j 0))).toInt < 100000 := h0.2
    omega
  · exact absurd h (by simp)
theorem lands_rowY (j : Forms.SEY.Idx) (i : Forms.SY.Idx) (h : landsY x1 j i) : drow x1 (j 0) = i 0 := by
  unfold landsY ScatterDims.resultIdx? at h
  split at h
  · rename_i hr
    have hi := Option.some.inj h
    have h0 := hr 0
    rw [scatterY_row (dstC x1) j] at h0
    refine Fin.ext ?_
    rw [show (drow x1 (j 0)).val = _ from gatherN_row (dstC x1) (j 0), ← hi]
    show _ = (scatter_S100000x64_S1700000x1_S1700000x64_1_0_0_1.start j (dstC x1) 0 + (scatter_S100000x64_S1700000x1_S1700000x64_1_0_0_1.window j 0 : Int)).toNat
    rw [scatterY_row (dstC x1) j]
    have h1 : ((dstC x1 (cell (j 0))).toInt.toNat : Int) = (dstC x1 (cell (j 0))).toInt := Int.toNat_of_nonneg h0.1
    have h2 : (dstC x1 (cell (j 0))).toInt < 100000 := h0.2
    omega
  · exact absurd h (by simp)
theorem dvec_nonneg_real (n : Forms.SN.Idx) : 0 ≤ dvec x1 n ∧ dvec x1 n ≠ ⊤ := by
  obtain ⟨c, hc⟩ := deg_real x1 n
  delta dvec
  rw [val_main_v19_apply, val_main_v17_apply, val_main_v18_apply, Ideal.cmpf_def, Ideal.hostUnary_rsqrt_def, hc,
    val_main_v16_apply, val_main_cst_2_apply, Ideal.ofBits_def, Ideal.ofBits_zero_f32]
  by_cases hpos : (0 : EReal) < ((c : ℝ) : EReal)
  · -- the degree is positive: the compare is true and the value is the inverse square root, a positive real
    have hb : Ideal.cmp .ogt (((c : ℝ) : EReal)) 0 = 1#1 := by
      show BitVec.ofBool (decide ((0 : EReal) < ((c : ℝ) : EReal))) = 1#1
      rw [decide_eq_true hpos]; rfl
    rw [hb, select_one, Ideal.rsqrt_coe]
    have hc0 : (0 : ℝ) < (c : ℝ) := EReal.coe_pos.mp hpos
    rw [if_neg (not_lt.mpr hc0.le), if_neg hc0.ne']
    refine ⟨?_, EReal.coe_ne_top _⟩
    exact EReal.coe_nonneg.mpr (inv_nonneg.mpr (Real.sqrt_nonneg _))
  · -- the degree is not positive: the compare is false and the value is the zero constant
    have hb : Ideal.cmp .ogt (((c : ℝ) : EReal)) 0 = 0#1 := by
      show BitVec.ofBool (decide ((0 : EReal) < ((c : ℝ) : EReal))) = 0#1
      rw [decide_eq_false hpos]; rfl
    rw [hb, select_zero, val_main_call0_v1_apply, val_main_call0_v0_apply, val_main_cst_3_apply, Ideal.ofBits_def,
      Ideal.ofBits_zero_f32]
    exact ⟨le_refl _, EReal.zero_ne_top⟩

end Cert.ReferenceIdeal.RefVal

end
-- ==== Proof.FormsCongr.lean ====
/-
  The kernel arrangement's closed form depends on the message plumbing only through the functions themselves: equal
  normalisations, equal landing relations and equal source maps give equal results, whatever procedures decide the
  landing relations.
-/
import proofs.«132209_j48962627175096_2_alg».proof.Proof.Forms

noncomputable section

namespace Cert.Forms

theorem kerOut_congr {d d' : SN.Idx → EReal}
    {landsX landsX' : SEX.Idx → SX.Idx → Prop} [i1 : ∀ j i, Decidable (landsX j i)] [i1' : ∀ j i, Decidable (landsX' j i)]
    {srcX srcX' : SEX.Idx → SX.Idx}
    {landsY landsY' : SEY.Idx → SY.Idx → Prop} [i2 : ∀ j i, Decidable (landsY j i)] [i2' : ∀ j i, Decidable (landsY' j i)]
    {srcY srcY' : SEY.Idx → SY.Idx}
    (hd : d = d') (hX : landsX = landsX') (hsX : srcX = srcX') (hY : landsY = landsY') (hsY : srcY = srcY')
    (x : SX.Idx → EReal) (W1 : SW.Idx → EReal) (b1 : SB.Idx → EReal) (W2 : SW.Idx → EReal) (b2 : SB.Idx → EReal)
    (W3 : SW3.Idx → EReal) (b3 : SB3.Idx → EReal) :
    kerOut d landsX srcX landsY srcY x W1 b1 W2 b2 W3 b3 = kerOut d' landsX' srcX' landsY' srcY' x W1 b1 W2 b2 W3 b3 := by
  subst hd hX hsX hY hsY
  have e1 : i1 = i1' := Subsingleton.elim _ _
  have e2 : i2 = i2' := Subsingleton.elim _ _
  subst e1 e2
  rfl

end Cert.Forms

end
-- ==== Proof.Glue1.lean ====
/-
  The kernel program's first stretch of host operations computes, from the edge list, the same index vectors, degree
  compare and inverse square root as the reference program's first operations: buffer by buffer, what the stretch
  leaves is the reference's stage function of the edge list.
-/
import proofs.«132209_j48962627175096_2_alg».proof.Proof.KIV.KerValue
import proofs.«132209_j48962627175096_2_alg».proof.Proof.RV.Plumb
import Idealize.ShloMosaic.Lib.StableHlo.Run

set_option maxRecDepth 16384

noncomputable section

namespace Cert.Glue

open Idealize.ShloMosaic Idealize.ShloMosaic.TcCoe Idealize.ShloMosaic.ValueIdx
open Idealize.SL Idealize.SL.Sem Idealize.ShloMosaic.StableHlo
open Cert.KernelIdeal Cert.KernelIdeal.Gen Cert.KernelIdeal.Hand Cert.KernelIdeal.HandV

variable (m : (ℓ : Loc nD τ sig) → Buf (Elt Ideal) ℓ) (c : Dev nD)

/-! ## The first host stretch against the reference's stages -/

set_option maxHeartbeats 4000000 in
theorem W1_v3 : W1 (F := Ideal) m c (Proc.devRef .tc main_v3) = Cert.ReferenceIdeal.Read.val_main_v3 (F := Ideal) (m ((c.tc : Thread nD τ).loc main_arg1)) := by
  show StableHlo.after (hostOps0 (F := Ideal)) (W0 (F := Ideal) m c) (Proc.devRef .tc main_v3) = _
  after_results
  rfl
set_option maxHeartbeats 4000000 in
theorem W1_v6 : W1 (F := Ideal) m c (Proc.devRef .tc main_v6) = Cert.ReferenceIdeal.Read.val_main_v6 (F := Ideal) (m ((c.tc : Thread nD τ).loc main_arg1)) := by
  show StableHlo.after (hostOps0 (F := Ideal)) (W0 (F := Ideal) m c) (Proc.devRef .tc main_v6) = _
  after_results
  rfl
set_option maxHeartbeats 8000000 in
theorem W1_v17 : W1 (F := Ideal) m c (Proc.devRef .tc main_v17) = Cert.ReferenceIdeal.Read.val_main_v17 (F := Ideal) (m ((c.tc : Thread nD τ).loc main_arg1)) := by
  show StableHlo.after (hostOps0 (F := Ideal)) (W0 (F := Ideal) m c) (Proc.devRef .tc main_v17) = _
  after_results
  rfl
set_option maxHeartbeats 8000000 in
theorem W1_v18 : W1 (F := Ideal) m c (Proc.devRef .tc main_v18) = Cert.ReferenceIdeal.Read.val_main_v18 (F := Ideal) (m ((c.tc : Thread nD τ).loc main_arg1)) := by
  show StableHlo.after (hostOps0 (F := Ideal)) (W0 (F := Ideal) m c) (Proc.devRef .tc main_v18) = _
  after_results
  rfl
set_option maxHeartbeats 4000000 in
theorem W1_cst3 : W1 (F := Ideal) m c (Proc.devRef .tc main_cst_3) = Cert.ReferenceIdeal.Read.val_main_cst_3 (F := Ideal) := by
  show StableHlo.after (hostOps0 (F := Ideal)) (W0 (F := Ideal) m c) (Proc.devRef .tc main_cst_3) = _
  after_results
  rfl

end Cert.Glue

end
-- ==== Proof.Glue.lean ====
/-
  The plumbing of the two programs is the same function of the edge list: the source and destination index columns
  the kernel program recomputes before its gather and scatter-add, and its degree normalisation, are the reference's.
  Between the first stretch and the places they are read no item of the program writes the buffers involved.
-/
import proofs.«132209_j48962627175096_2_alg».proof.Proof.KIV.KerValue
import proofs.«132209_j48962627175096_2_alg».proof.Proof.RV.Plumb
import proofs.«132209_j48962627175096_2_alg».proof.Proof.Glue1
import Idealize.ShloMosaic.Lib.StableHlo.Run

set_option maxRecDepth 16384

noncomputable section

namespace Cert.Glue

open Idealize.ShloMosaic Idealize.ShloMosaic.TcCoe Idealize.ShloMosaic.ValueIdx
open Idealize.SL Idealize.SL.Sem Idealize.ShloMosaic.StableHlo
open Cert.KernelIdeal Cert.KernelIdeal.Gen Cert.KernelIdeal.Hand Cert.KernelIdeal.HandV

variable (m : (ℓ : Loc nD τ sig) → Buf (Elt Ideal) ℓ) (c : Dev nD)

/-! ## Buffers the later stretches and launches leave alone -/

theorem keep0_1_v3 (Wp : Valuation τ sig (Elt Ideal)) : StableHlo.after (hostOps0_1 (F := Ideal)) Wp (Proc.devRef .tc main_v3) = Wp (Proc.devRef .tc main_v3) :=
  StableHlo.after_of_forall_not_mem _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem keep0_1_v6 (Wp : Valuation τ sig (Elt Ideal)) : StableHlo.after (hostOps0_1 (F := Ideal)) Wp (Proc.devRef .tc main_v6) = Wp (Proc.devRef .tc main_v6) :=
  StableHlo.after_of_forall_not_mem _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem keep0_2_v3 (Wp : Valuation τ sig (Elt Ideal)) : StableHlo.after (hostOps0_2 (F := Ideal)) Wp (Proc.devRef .tc main_v3) = Wp (Proc.devRef .tc main_v3) :=
  StableHlo.after_of_forall_not_mem _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem keep0_2_v6 (Wp : Valuation τ sig (Elt Ideal)) : StableHlo.after (hostOps0_2 (F := Ideal)) Wp (Proc.devRef .tc main_v6) = Wp (Proc.devRef .tc main_v6) :=
  StableHlo.after_of_forall_not_mem _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem keep0_2_v19 (Wp : Valuation τ sig (Elt Ideal)) : StableHlo.after (hostOps0_2 (F := Ideal)) Wp (Proc.devRef .tc main_v19) = Wp (Proc.devRef .tc main_v19) :=
  StableHlo.after_of_forall_not_mem _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem W4_v3 : W4 (F := Ideal) m c (Proc.devRef .tc main_v3) = Cert.ReferenceIdeal.Read.val_main_v3 (F := Ideal) (m ((c.tc : Thread nD τ).loc main_arg1)) :=
  (W4_of_ne m c main_v3 (by decide)).trans <| (keep0_2_v3 _).trans <| (keep0_1_v3 _).trans (W1_v3 m c)
theorem W4_v6 : W4 (F := Ideal) m c (Proc.devRef .tc main_v6) = Cert.ReferenceIdeal.Read.val_main_v6 (F := Ideal) (m ((c.tc : Thread nD τ).loc main_arg1)) :=
  (W4_of_ne m c main_v6 (by decide)).trans <| (keep0_2_v6 _).trans <| (keep0_1_v6 _).trans (W1_v6 m c)

/-! ## The plumbing of the two programs is the same -/

set_option maxHeartbeats 4000000 in
theorem srcCK_eq : srcCK m c = Cert.ReferenceIdeal.RefVal.srcC (m ((c.tc : Thread nD τ).loc main_arg1)) := by
  unfold srcCK Cert.ReferenceIdeal.RefVal.srcC
  show StableHlo.after (hostOps1 (F := Ideal)) (W4 (F := Ideal) m c) (Proc.devRef .tc main_v32) = _
  after_results
  rw [W4_v3]
  rfl
set_option maxHeartbeats 4000000 in
theorem dstCK_eq : dstCK m c = Cert.ReferenceIdeal.RefVal.dstC (m ((c.tc : Thread nD τ).loc main_arg1)) := by
  unfold dstCK Cert.ReferenceIdeal.RefVal.dstC
  show StableHlo.after (hostOps1 (F := Ideal)) (W4 (F := Ideal) m c) (Proc.devRef .tc main_v41) = _
  after_results
  rw [W4_v6]
  rfl
/-- The middle stretch over any earlier contents: the normalisation is the select of the compare, the inverse square
    root and the broadcast zero. -/
theorem after0_1_v19 (Wp : Valuation τ sig (Elt Ideal)) :
    StableHlo.after (hostOps0_1 (F := Ideal)) Wp (Proc.devRef .tc main_v19)
      = select (Wp (Proc.devRef .tc main_v17)) (Wp (Proc.devRef .tc main_v18))
          (broadcastInDim S100000 ![] bcast_S_S100000 (id (Wp (Proc.devRef .tc main_cst_3)))) := by
  after_results
  simp only [TRef.ofBuf, TRef.toBuf, cast_eq]

theorem dvecK_eq : dvecK m c = Cert.ReferenceIdeal.RefVal.dvec (m ((c.tc : Thread nD τ).loc main_arg1)) := by
  unfold dvecK Cert.ReferenceIdeal.RefVal.dvec
  refine (keep0_2_v19 _).trans ?_
  refine (after0_1_v19 (W1 (F := Ideal) m c)).trans ?_
  rw [W1_v17, W1_v18, W1_cst3]
  rfl

end Cert.Glue

end
-- ==== Proof.lean ====
/-
  A three-layer graph convolution with min-pooling over 100000 nodes and 1600000 edges (self-loops appended), computed
  two ways, agrees on the extended reals.

  Both programs build, from the edge list, the source and destination index columns, the in-degree and the degree
  normalisation d = 1/sqrt(degree) (zero where the degree is not positive).  The reference, per layer, multiplies the
  features by the weight, gathers the rows at the sources, multiplies each message by d[source]·d[destination], sums the
  messages into their destinations, adds the bias (and takes the positive part after the first two layers), and finally
  takes, per channel, the minimum over the nodes.  The kernel program instead scales row n of features·weight by d[n]
  inside a pipelined kernel (twenty blocks of 5000 rows), gathers and sums the scaled rows unweighted, and lets the
  next kernel scale the sum at node n by d[n], add the bias and take the positive part before its own product; the last
  kernel folds the per-channel minimum of the scaled sums block by block into an accumulator, and the bias is added to
  the pooled row at the end.

  The two are one function because d[n] is a non-negative real, and a non-negative real factor moves out of a finite
  sum of extended reals; and because adding a constant commutes with a minimum.  No finiteness of the inputs is used.

  The three frame claims (each program runs to its end without fault and leaves its arguments as they were) hold for
  the kernel program by running its eleven items in order — seven stretches of host operations and four pipelined
  kernel launches, each launch from the per-point behaviour of its kernel body — and for the reference by its run.
-/
import proofs.«132209_j48962627175096_2_alg».proof.Defs
import proofs.«132209_j48962627175096_2_alg».proof.Proof.Gen.Kernel
import proofs.«132209_j48962627175096_2_alg».proof.Proof.Gen.KernelIdeal
import proofs.«132209_j48962627175096_2_alg».proof.Proof.Gen.ReferenceIdeal
import proofs.«132209_j48962627175096_2_alg».proof.Proof.Gen.Pre_finite_inputs
import proofs.«132209_j48962627175096_2_alg».proof.Proof.K.Run
import proofs.«132209_j48962627175096_2_alg».proof.Proof.KI.Run
import proofs.«132209_j48962627175096_2_alg».proof.Proof.KIV.KerValue
import proofs.«132209_j48962627175096_2_alg».proof.Proof.RV.RefValue
import proofs.«132209_j48962627175096_2_alg».proof.Proof.RV.IdxFacts
import proofs.«132209_j48962627175096_2_alg».proof.Proof.RefRun
import proofs.«132209_j48962627175096_2_alg».proof.Proof.FormsCongr
import proofs.«132209_j48962627175096_2_alg».proof.Proof.Glue

set_option maxRecDepth 16384

noncomputable section

namespace Cert.Proof

open Idealize.ShloMosaic Idealize.ShloMosaic.TcCoe Idealize.SL.Sem
open Cert.KernelIdeal.HandV Cert.ReferenceIdeal.RefVal

/-- The word-level kernel program runs to its end and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W11_main_arg0 m c),
     (h c _ (Cert.Kernel.Hand.mem_uc Cert.Kernel.main_arg1 (by decide))).trans (Cert.Kernel.Hand.W11_main_arg1 m c),
     (h c _ (Cert.Kernel.Hand.mem_uc Cert.Kernel.main_arg2 (by decide))).trans (Cert.Kernel.Hand.W11_main_arg2 m c),
     (h c _ (Cert.Kernel.Hand.mem_uc Cert.Kernel.main_arg3 (by decide))).trans (Cert.Kernel.Hand.W11_main_arg3 m c),
     (h c _ (Cert.Kernel.Hand.mem_uc Cert.Kernel.main_arg4 (by decide))).trans (Cert.Kernel.Hand.W11_main_arg4 m c),
     (h c _ (Cert.Kernel.Hand.mem_uc Cert.Kernel.main_arg5 (by decide))).trans (Cert.Kernel.Hand.W11_main_arg5 m c),
     (h c _ (Cert.Kernel.Hand.mem_uc Cert.Kernel.main_arg6 (by decide))).trans (Cert.Kernel.Hand.W11_main_arg6 m c),
     (h c _ (Cert.Kernel.Hand.mem_uc Cert.Kernel.main_arg7 (by decide))).trans (Cert.Kernel.Hand.W11_main_arg7 m c)⟩)
    (Cert.Kernel.Hand.run (F := Bits) m ρ)

/-- The same program read on the extended reals. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W11_main_arg0 m c),
     (h c _ (Cert.KernelIdeal.Hand.mem_uc Cert.KernelIdeal.main_arg1 (by decide))).trans (Cert.KernelIdeal.Hand.W11_main_arg1 m c),
     (h c _ (Cert.KernelIdeal.Hand.mem_uc Cert.KernelIdeal.main_arg2 (by decide))).trans (Cert.KernelIdeal.Hand.W11_main_arg2 m c),
     (h c _ (Cert.KernelIdeal.Hand.mem_uc Cert.KernelIdeal.main_arg3 (by decide))).trans (Cert.KernelIdeal.Hand.W11_main_arg3 m c),
     (h c _ (Cert.KernelIdeal.Hand.mem_uc Cert.KernelIdeal.main_arg4 (by decide))).trans (Cert.KernelIdeal.Hand.W11_main_arg4 m c),
     (h c _ (Cert.KernelIdeal.Hand.mem_uc Cert.KernelIdeal.main_arg5 (by decide))).trans (Cert.KernelIdeal.Hand.W11_main_arg5 m c),
     (h c _ (Cert.KernelIdeal.Hand.mem_uc Cert.KernelIdeal.main_arg6 (by decide))).trans (Cert.KernelIdeal.Hand.W11_main_arg6 m c),
     (h c _ (Cert.KernelIdeal.Hand.mem_uc Cert.KernelIdeal.main_arg7 (by decide))).trans (Cert.KernelIdeal.Hand.W11_main_arg7 m c)⟩)
    (Cert.KernelIdeal.Hand.run (F := Ideal) m ρ)

/-- The reference runs to its end and leaves its arguments as launched. -/
theorem frame_r : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same 64 extended reals: the kernel
    arrangement's closed form, which the reference's closed form equals by the layer law and the min-plus-constant law. -/
theorem algebraic : Cert.algebraic_KernelIdeal_ReferenceIdeal := by
  intro m ρ m' ρ' _ hagree
  refine ⟨fun c => Forms.kerOut (dvecK m c) (landsXK m c) (srcXK m c) (landsYK m c) (srcYK m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono (fun r h c =>
      ⟨(h c _ (Cert.KernelIdeal.Hand.mem_uc Cert.KernelIdeal.main_v81 (by decide))).trans (ker_value m c),
        (h c _ (Cert.KernelIdeal.Hand.mem_uc Cert.KernelIdeal.main_arg0 (by decide))).trans (Cert.KernelIdeal.Hand.W11_main_arg0 m c),
        (h c _ (Cert.KernelIdeal.Hand.mem_uc Cert.KernelIdeal.main_arg1 (by decide))).trans (Cert.KernelIdeal.Hand.W11_main_arg1 m c),
        (h c _ (Cert.KernelIdeal.Hand.mem_uc Cert.KernelIdeal.main_arg2 (by decide))).trans (Cert.KernelIdeal.Hand.W11_main_arg2 m c),
        (h c _ (Cert.KernelIdeal.Hand.mem_uc Cert.KernelIdeal.main_arg3 (by decide))).trans (Cert.KernelIdeal.Hand.W11_main_arg3 m c),
        (h c _ (Cert.KernelIdeal.Hand.mem_uc Cert.KernelIdeal.main_arg4 (by decide))).trans (Cert.KernelIdeal.Hand.W11_main_arg4 m c),
        (h c _ (Cert.KernelIdeal.Hand.mem_uc Cert.KernelIdeal.main_arg5 (by decide))).trans (Cert.KernelIdeal.Hand.W11_main_arg5 m c),
        (h c _ (Cert.KernelIdeal.Hand.mem_uc Cert.KernelIdeal.main_arg6 (by decide))).trans (Cert.KernelIdeal.Hand.W11_main_arg6 m c),
        (h c _ (Cert.KernelIdeal.Hand.mem_uc Cert.KernelIdeal.main_arg7 (by decide))).trans (Cert.KernelIdeal.Hand.W11_main_arg7 m c)⟩) (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    refine (ref_value m' c).trans ?_
    obtain ⟨e0, e1, e2, e3, e4, e5, e6, e7⟩ := hagree c
    rw [e0, e1, e2, e3, e4, e5, e6, e7]
    refine (Forms.refOut_eq_kerOut _ _ _ _ _ _ _ _ _ _ _ _ _ _ (src_rowX _) (lands_rowX _) (src_rowY _) (lands_rowY _)
      (dvec_nonneg_real _)).trans ?_
    have hLX : landsXK m c = landsX (m ((c.tc : Thread Cert.KernelIdeal.nD Cert.KernelIdeal.τ).loc Cert.KernelIdeal.main_arg1)) := by
      funext j i; unfold landsXK landsX; rw [Cert.Glue.dstCK_eq m c]; rfl
    have hSX : srcXK m c = srcX (m ((c.tc : Thread Cert.KernelIdeal.nD Cert.KernelIdeal.τ).loc Cert.KernelIdeal.main_arg1)) := by
      funext j; unfold srcXK srcX; rw [Cert.Glue.srcCK_eq m c]; rfl
    have hLY : landsYK m c = landsY (m ((c.tc : Thread Cert.KernelIdeal.nD Cert.KernelIdeal.τ).loc Cert.KernelIdeal.main_arg1)) := by
      funext j i; unfold landsYK landsY; rw [Cert.Glue.dstCK_eq m c]; rfl
    have hSY : srcYK m c = srcY (m ((c.tc : Thread Cert.KernelIdeal.nD Cert.KernelIdeal.τ).loc Cert.KernelIdeal.main_arg1)) := by
      funext j; unfold srcYK srcY; rw [Cert.Glue.srcCK_eq m c]; rfl
    exact (Forms.kerOut_congr (Cert.Glue.dvecK_eq m c) hLX hSX hLY hSY _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
